-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![256, 512]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S256x512 : Shape := ⟨2, ![256, 512]⟩
abbrev S512x256 : Shape := ⟨2, ![512, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S512x256 .f32) (main_arg5 : FVec F S256x512 .f32) (main_arg6 : FVec F S512x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S256x256 .f32) (main_arg1 : FVec F S256x512 .f32) (main_arg2 : FVec F S512x256 .f32) (main_arg3 : FVec F S256x512 .f32) (main_arg4 : FVec F S512x256 .f32) (main_arg5 : FVec F S256x512 .f32) (main_arg6 : FVec F S512x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Pre_finite_inputs_ReferenceIdeal.lean ====
abbrev S256x512 : Shape := ⟨2, ![256, 512]⟩
abbrev S512x1024 : Shape := ⟨2, ![512, 1024]⟩
abbrev S1024x512 : Shape := ⟨2, ![1024, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_arg5 : FVec F S512x1024 .f32) (main_arg6 : FVec F S1024x512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  main_v33

def fn {F : FTy → Type} [FloatOps F] (main_arg0 : FVec F S256x512 .f32) (main_arg1 : FVec F S512x1024 .f32) (main_arg2 : FVec F S1024x512 .f32) (main_arg3 : FVec F S512x1024 .f32) (main_arg4 : FVec F S1024x512 .f32) (main_arg5 : FVec F S512x1024 .f32) (main_arg6 : FVec F S1024x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Kernel.lean ====
abbrev S256x256 : Shape := ⟨2, ![256, 256]⟩
abbrev S256x512 : Shape := ⟨2, ![256, 512]⟩
abbrev S512x256 : Shape := ⟨2, ![512, 256]⟩
abbrev S3x4x64x512 : Shape := ⟨4, ![3, 4, 64, 512]⟩
abbrev S3x4x64x256 : Shape := ⟨4, ![3, 4, 64, 256]⟩
abbrev S6x4 : Shape := ⟨2, ![6, 4]⟩
abbrev S_ : Shape := ⟨0, ![]⟩
abbrev S64x256 : Shape := ⟨2, ![64, 256]⟩
abbrev S64x512 : Shape := ⟨2, ![64, 512]⟩
abbrev S1x1x64x512 : Shape := ⟨4, ![1, 1, 64, 512]⟩
abbrev S1x1 : Shape := ⟨2, ![1, 1]⟩
abbrev S1x1x64x256 : Shape := ⟨4, ![1, 1, 64, 256]⟩

abbrev nBuf : Space → Nat
  | .hbm => 8
  | .vmem => 14
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S3x4x64x512, .f32⟩
  | .local _ .vmem, ⟨9, _⟩ => ⟨S3x4x64x512, .bf16⟩
  | .local _ .vmem, ⟨10, _⟩ => ⟨S3x4x64x512, .bf16⟩
  | .local _ .vmem, ⟨11, _⟩ => ⟨S3x4x64x256, .f32⟩
  | .local _ .vmem, ⟨12, _⟩ => ⟨S3x4x64x256, .bf16⟩
  | .local _ .vmem, ⟨13, _⟩ => ⟨S3x4x64x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v29 : BitVec 32 := Scalar.muli v2 c2_i32_31
  let v30 : BitVec 32 := Scalar.addi c0_i32_32 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v31 : BitVec 32 := Scalar.muli v6 c1_i32_33
  let v32 : BitVec 32 := Scalar.addi v30 v31
  v32.toNat
def k0_dev4 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v53 : BitVec 32 := Scalar.muli v2 c2_i32_57
  let v54 : BitVec 32 := Scalar.addi c0_i32_58 v53
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_59 : BitVec 32 := 1#32
  let v55 : BitVec 32 := Scalar.muli v6 c1_i32_59
  let v56 : BitVec 32 := Scalar.addi v54 v55
  v56.toNat
def k0_dev5 (d0 : Dev nD) : Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_83 : BitVec 32 := 2#32
  let v77 : BitVec 32 := Scalar.muli v2 c2_i32_83
  let v78 : BitVec 32 := Scalar.addi c0_i32_84 v77
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_85 : BitVec 32 := 1#32
  let v79 : BitVec 32 := Scalar.muli v6 c1_i32_85
  let v80 : BitVec 32 := Scalar.addi v78 v79
  v80.toNat
def k0_dev6 (d0 : Dev nD) : Nat :=
  let c0_i32_109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_108 : BitVec 32 := 2#32
  let v101 : BitVec 32 := Scalar.muli v2 c2_i32_108
  let v102 : BitVec 32 := Scalar.addi c0_i32_109 v101
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_110 : BitVec 32 := 1#32
  let v103 : BitVec 32 := Scalar.muli v6 c1_i32_110
  let v104 : BitVec 32 := Scalar.addi v102 v103
  v104.toNat
def k0_dev7 (d0 : Dev nD) : Nat :=
  let c0_i32_172 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_171 : BitVec 32 := 2#32
  let v147 : BitVec 32 := Scalar.muli v7 c2_i32_171
  let v148 : BitVec 32 := Scalar.addi c0_i32_172 v147
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v149 : BitVec 32 := Scalar.muli v5 c1_i32_173
  let v150 : BitVec 32 := Scalar.addi v148 v149
  v150.toNat
def k0_dev8 (d0 : Dev nD) : Nat :=
  let c0_i32_235 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_234 : BitVec 32 := 2#32
  let v193 : BitVec 32 := Scalar.muli v7 c2_i32_234
  let v194 : BitVec 32 := Scalar.addi c0_i32_235 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v195 : BitVec 32 := Scalar.muli v5 c1_i32_236
  let v196 : BitVec 32 := Scalar.addi v194 v195
  v196.toNat
def k0_dev9 (d0 : Dev nD) : Nat :=
  let c0_i32_298 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_297 : BitVec 32 := 2#32
  let v239 : BitVec 32 := Scalar.muli v7 c2_i32_297
  let v240 : BitVec 32 := Scalar.addi c0_i32_298 v239
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_299 : BitVec 32 := 1#32
  let v241 : BitVec 32 := Scalar.muli v5 c1_i32_299
  let v242 : BitVec 32 := Scalar.addi v240 v241
  v242.toNat
def k0_dev10 (d0 : Dev nD) : Nat :=
  let c0_i32_361 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_360 : BitVec 32 := 2#32
  let v285 : BitVec 32 := Scalar.muli v7 c2_i32_360
  let v286 : BitVec 32 := Scalar.addi c0_i32_361 v285
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_362 : BitVec 32 := 1#32
  let v287 : BitVec 32 := Scalar.muli v5 c1_i32_362
  let v288 : BitVec 32 := Scalar.addi v286 v287
  v288.toNat
def k0_dev11 (d0 : Dev nD) : Nat :=
  let c0_i32_423 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_422 : BitVec 32 := 2#32
  let v329 : BitVec 32 := Scalar.muli v2 c2_i32_422
  let v330 : BitVec 32 := Scalar.addi c0_i32_423 v329
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_424 : BitVec 32 := 1#32
  let v331 : BitVec 32 := Scalar.muli v6 c1_i32_424
  let v332 : BitVec 32 := Scalar.addi v330 v331
  v332.toNat
def k0_dev12 (d0 : Dev nD) : Nat :=
  let c0_i32_485 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_484 : BitVec 32 := 2#32
  let v373 : BitVec 32 := Scalar.muli v2 c2_i32_484
  let v374 : BitVec 32 := Scalar.addi c0_i32_485 v373
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_486 : BitVec 32 := 1#32
  let v375 : BitVec 32 := Scalar.muli v6 c1_i32_486
  let v376 : BitVec 32 := Scalar.addi v374 v375
  v376.toNat
def k0_dev13 (d0 : Dev nD) : Nat :=
  let c0_i32_547 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_546 : BitVec 32 := 2#32
  let v417 : BitVec 32 := Scalar.muli v2 c2_i32_546
  let v418 : BitVec 32 := Scalar.addi c0_i32_547 v417
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_548 : BitVec 32 := 1#32
  let v419 : BitVec 32 := Scalar.muli v6 c1_i32_548
  let v420 : BitVec 32 := Scalar.addi v418 v419
  v420.toNat
def k0_dev14 (d0 : Dev nD) : Nat :=
  let c0_i32_609 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_608 : BitVec 32 := 2#32
  let v461 : BitVec 32 := Scalar.muli v2 c2_i32_608
  let v462 : BitVec 32 := Scalar.addi c0_i32_609 v461
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_610 : BitVec 32 := 1#32
  let v463 : BitVec 32 := Scalar.muli v6 c1_i32_610
  let v464 : BitVec 32 := Scalar.addi v462 v463
  v464.toNat
def k0_dev15 (d0 : Dev nD) : Nat :=
  let c0_i32_672 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_671 : BitVec 32 := 2#32
  let v507 : BitVec 32 := Scalar.muli v7 c2_i32_671
  let v508 : BitVec 32 := Scalar.addi c0_i32_672 v507
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_673 : BitVec 32 := 1#32
  let v509 : BitVec 32 := Scalar.muli v5 c1_i32_673
  let v510 : BitVec 32 := Scalar.addi v508 v509
  v510.toNat
def k0_dev16 (d0 : Dev nD) : Nat :=
  let c0_i32_735 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_734 : BitVec 32 := 2#32
  let v553 : BitVec 32 := Scalar.muli v7 c2_i32_734
  let v554 : BitVec 32 := Scalar.addi c0_i32_735 v553
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_736 : BitVec 32 := 1#32
  let v555 : BitVec 32 := Scalar.muli v5 c1_i32_736
  let v556 : BitVec 32 := Scalar.addi v554 v555
  v556.toNat
def k0_dev17 (d0 : Dev nD) : Nat :=
  let c0_i32_798 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_797 : BitVec 32 := 2#32
  let v599 : BitVec 32 := Scalar.muli v7 c2_i32_797
  let v600 : BitVec 32 := Scalar.addi c0_i32_798 v599
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_799 : BitVec 32 := 1#32
  let v601 : BitVec 32 := Scalar.muli v5 c1_i32_799
  let v602 : BitVec 32 := Scalar.addi v600 v601
  v602.toNat
def k0_dev18 (d0 : Dev nD) : Nat :=
  let c0_i32_861 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_860 : BitVec 32 := 2#32
  let v645 : BitVec 32 := Scalar.muli v7 c2_i32_860
  let v646 : BitVec 32 := Scalar.addi c0_i32_861 v645
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_862 : BitVec 32 := 1#32
  let v647 : BitVec 32 := Scalar.muli v5 c1_i32_862
  let v648 : BitVec 32 := Scalar.addi v646 v647
  v648.toNat
def k0_dev19 (d0 : Dev nD) : Nat :=
  let c0_i32_922 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_921 : BitVec 32 := 2#32
  let v689 : BitVec 32 := Scalar.muli v2 c2_i32_921
  let v690 : BitVec 32 := Scalar.addi c0_i32_922 v689
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_923 : BitVec 32 := 1#32
  let v691 : BitVec 32 := Scalar.muli v6 c1_i32_923
  let v692 : BitVec 32 := Scalar.addi v690 v691
  v692.toNat
def k0_dev20 (d0 : Dev nD) : Nat :=
  let c0_i32_984 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_983 : BitVec 32 := 2#32
  let v733 : BitVec 32 := Scalar.muli v2 c2_i32_983
  let v734 : BitVec 32 := Scalar.addi c0_i32_984 v733
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_985 : BitVec 32 := 1#32
  let v735 : BitVec 32 := Scalar.muli v6 c1_i32_985
  let v736 : BitVec 32 := Scalar.addi v734 v735
  v736.toNat
def k0_dev21 (d0 : Dev nD) : Nat :=
  let c0_i32_1046 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1045 : BitVec 32 := 2#32
  let v777 : BitVec 32 := Scalar.muli v2 c2_i32_1045
  let v778 : BitVec 32 := Scalar.addi c0_i32_1046 v777
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1047 : BitVec 32 := 1#32
  let v779 : BitVec 32 := Scalar.muli v6 c1_i32_1047
  let v780 : BitVec 32 := Scalar.addi v778 v779
  v780.toNat
def k0_dev22 (d0 : Dev nD) : Nat :=
  let c0_i32_1108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1107 : BitVec 32 := 2#32
  let v821 : BitVec 32 := Scalar.muli v2 c2_i32_1107
  let v822 : BitVec 32 := Scalar.addi c0_i32_1108 v821
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1109 : BitVec 32 := 1#32
  let v823 : BitVec 32 := Scalar.muli v6 c1_i32_1109
  let v824 : BitVec 32 := Scalar.addi v822 v823
  v824.toNat
def k0_dev23 (d0 : Dev nD) : Nat :=
  let c0_i32_1170 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1169 : BitVec 32 := 2#32
  let v867 : BitVec 32 := Scalar.muli v7 c2_i32_1169
  let v868 : BitVec 32 := Scalar.addi c0_i32_1170 v867
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1171 : BitVec 32 := 1#32
  let v869 : BitVec 32 := Scalar.muli v5 c1_i32_1171
  let v870 : BitVec 32 := Scalar.addi v868 v869
  v870.toNat
def k0_dev24 (d0 : Dev nD) : Nat :=
  let c0_i32_1233 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1232 : BitVec 32 := 2#32
  let v913 : BitVec 32 := Scalar.muli v7 c2_i32_1232
  let v914 : BitVec 32 := Scalar.addi c0_i32_1233 v913
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1234 : BitVec 32 := 1#32
  let v915 : BitVec 32 := Scalar.muli v5 c1_i32_1234
  let v916 : BitVec 32 := Scalar.addi v914 v915
  v916.toNat
def k0_dev25 (d0 : Dev nD) : Nat :=
  let c0_i32_1296 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1295 : BitVec 32 := 2#32
  let v959 : BitVec 32 := Scalar.muli v7 c2_i32_1295
  let v960 : BitVec 32 := Scalar.addi c0_i32_1296 v959
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1297 : BitVec 32 := 1#32
  let v961 : BitVec 32 := Scalar.muli v5 c1_i32_1297
  let v962 : BitVec 32 := Scalar.addi v960 v961
  v962.toNat
def k0_dev26 (d0 : Dev nD) : Nat :=
  let c0_i32_1359 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1358 : BitVec 32 := 2#32
  let v1005 : BitVec 32 := Scalar.muli v7 c2_i32_1358
  let v1006 : BitVec 32 := Scalar.addi c0_i32_1359 v1005
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1360 : BitVec 32 := 1#32
  let v1007 : BitVec 32 := Scalar.muli v5 c1_i32_1360
  let v1008 : BitVec 32 := Scalar.addi v1006 v1007
  v1008.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  hamt_2 : (2#32 : BitVec 32).msb = false
  inb_S256x256_S64x256_0_0 : ∀ a, (![0, 0] : Fin 2 → Nat) a + S64x256.size a ≤ S256x256.size a
  h_S64x256 : 0 < S64x256.numel
  shapeCasts_S64x256_S64x256 : S64x256.ShapeCasts S64x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S3x4x64x512_S1x1x64x512_0_0_0_0 : ∀ a, (![0, 0, 0, 0] : Fin 4 → Nat) a + S1x1x64x512.size a ≤ S3x4x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  bitsLt_bf16_f32 : FTy.bits .bf16 < FTy.bits .f32
  packedbf16_S3x4x64x512_S1x1x64x512_0_0_0_0 : (Rect.unit (s := S3x4x64x512) ![0, 0, 0, 0] S1x1x64x512.size inb_S3x4x64x512_S1x1x64x512_0_0_0_0).PackedRows (EltTy.packing .bf16)
  inb_S6x4_S1x1_0_0 : ∀ a, (![0, 0] : Fin 2 → Nat) a + S1x1.size a ≤ S6x4.size a
  squeezes_S1x1_S_ : S1x1.Squeezes S_
  squeezes_S1x1x64x512_S64x512 : S1x1x64x512.Squeezes S64x512
  wordsbf16_S3x4x64x512_S1x1x64x512_0_0_0_0 : (Rect.unit (s := S3x4x64x512) ![0, 0, 0, 0] S1x1x64x512.size inb_S3x4x64x512_S1x1x64x512_0_0_0_0).WholeWords (EltTy.packing .bf16)
  inb_S256x256_S64x256_64_0 : ∀ a, (![64, 0] : Fin 2 → Nat) a + S64x256.size a ≤ S256x256.size a
  inb_S3x4x64x512_S1x1x64x512_0_1_0_0 : ∀ a, (![0, 1, 0, 0] : Fin 4 → Nat) a + S1x1x64x512.size a ≤ S3x4x64x512.size a
  packedbf16_S3x4x64x512_S1x1x64x512_0_1_0_0 : (Rect.unit (s := S3x4x64x512) ![0, 1, 0, 0] S1x1x64x512.size inb_S3x4x64x512_S1x1x64x512_0_1_0_0).PackedRows (EltTy.packing .bf16)
  inb_S6x4_S1x1_0_1 : ∀ a, (![0, 1] : Fin 2 → Nat) a + S1x1.size a ≤ S6x4.size a
  wordsbf16_S3x4x64x512_S1x1x64x512_0_1_0_0 : (Rect.unit (s := S3x4x64x512) ![0, 1, 0, 0] S1x1x64x512.size inb_S3x4x64x512_S1x1x64x512_0_1_0_0).WholeWords (EltTy.packing .bf16)
  inb_S256x256_S64x256_128_0 : ∀ a, (![128, 0] : Fin 2 → Nat) a + S64x256.size a ≤ S256x256.size a
  inb_S3x4x64x512_S1x1x64x512_0_2_0_0 : ∀ a, (![0, 2, 0, 0] : Fin 4 → Nat) a + S1x1x64x512.size a ≤ S3x4x64x512.size a
  packedbf16_S3x4x64x512_S1x1x64x512_0_2_0_0 : (Rect.unit (s := S3x4x64x512) ![0, 2, 0, 0] S1x1x64x512.size inb_S3x4x64x512_S1x1x64x512_0_2_0_0).PackedRows (EltTy.packing .bf16)
  inb_S6x4_S1x1_0_2 : ∀ a, (![0, 2] : Fin 2 → Nat) a + S1x1.size a ≤ S6x4.size a
  wordsbf16_S3x4x64x512_S1x1x64x512_0_2_0_0 : (Rect.unit (s := S3x4x64x512) ![0, 2, 0, 0] S1x1x64x512.size inb_S3x4x64x512_S1x1x64x512_0_2_0_0).WholeWords (EltTy.packing .bf16)
  inb_S256x256_S64x256_192_0 : ∀ a, (![192, 0] : Fin 2 → Nat) a + S64x256.size a ≤ S256x256.size a
  inb_S3x4x64x512_S1x1x64x512_0_3_0_0 : ∀ a, (![0, 3, 0, 0] : Fin 4 → Nat) a + S1x1x64x512.size a ≤ S3x4x64x512.size a
  packedbf16_S3x4x64x512_S1x1x64x512_0_3_0_0 : (Rect.unit (s := S3x4x64x512) ![0, 3, 0, 0] S1x1x64x512.size inb_S3x4x64x512_S1x1x64x512_0_3_0_0).PackedRows (EltTy.packing .bf16)
  inb_S6x4_S1x1_0_3 : ∀ a, (![0, 3] : Fin 2 → Nat) a + S1x1.size a ≤ S6x4.size a
  wordsbf16_S3x4x64x512_S1x1x64x512_0_3_0_0 : (Rect.unit (s := S3x4x64x512) ![0, 3, 0, 0] S1x1x64x512.size inb_S3x4x64x512_S1x1x64x512_0_3_0_0).WholeWords (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S3x4x64x256_S1x1x64x256_0_0_0_0 : ∀ a, (![0, 0, 0, 0] : Fin 4 → Nat) a + S1x1x64x256.size a ≤ S3x4x64x256.size a
  h_S1x1x64x256 : 0 < S1x1x64x256.numel
  shapeCasts_S1x1x64x256_S64x256 : S1x1x64x256.ShapeCasts S64x256
  shapeCasts_S64x256_S1x1x64x256 : S64x256.ShapeCasts S1x1x64x256
  packedbf16_S3x4x64x256_S1x1x64x256_0_0_0_0 : (Rect.unit (s := S3x4x64x256) ![0, 0, 0, 0] S1x1x64x256.size inb_S3x4x64x256_S1x1x64x256_0_0_0_0).PackedRows (EltTy.packing .bf16)
  inb_S6x4_S1x1_1_0 : ∀ a, (![1, 0] : Fin 2 → Nat) a + S1x1.size a ≤ S6x4.size a
  squeezes_S1x1x64x256_S64x256 : S1x1x64x256.Squeezes S64x256
  wordsbf16_S3x4x64x256_S1x1x64x256_0_0_0_0 : (Rect.unit (s := S3x4x64x256) ![0, 0, 0, 0] S1x1x64x256.size inb_S3x4x64x256_S1x1x64x256_0_0_0_0).WholeWords (EltTy.packing .bf16)
  inb_S3x4x64x256_S1x1x64x256_0_1_0_0 : ∀ a, (![0, 1, 0, 0] : Fin 4 → Nat) a + S1x1x64x256.size a ≤ S3x4x64x256.size a
  packedbf16_S3x4x64x256_S1x1x64x256_0_1_0_0 : (Rect.unit (s := S3x4x64x256) ![0, 1, 0, 0] S1x1x64x256.size inb_S3x4x64x256_S1x1x64x256_0_1_0_0).PackedRows (EltTy.packing .bf16)
  inb_S6x4_S1x1_1_1 : ∀ a, (![1, 1] : Fin 2 → Nat) a + S1x1.size a ≤ S6x4.size a
  wordsbf16_S3x4x64x256_S1x1x64x256_0_1_0_0 : (Rect.unit (s := S3x4x64x256) ![0, 1, 0, 0] S1x1x64x256.size inb_S3x4x64x256_S1x1x64x256_0_1_0_0).WholeWords (EltTy.packing .bf16)
  inb_S3x4x64x256_S1x1x64x256_0_2_0_0 : ∀ a, (![0, 2, 0, 0] : Fin 4 → Nat) a + S1x1x64x256.size a ≤ S3x4x64x256.size a
  packedbf16_S3x4x64x256_S1x1x64x256_0_2_0_0 : (Rect.unit (s := S3x4x64x256) ![0, 2, 0, 0] S1x1x64x256.size inb_S3x4x64x256_S1x1x64x256_0_2_0_0).PackedRows (EltTy.packing .bf16)
  inb_S6x4_S1x1_1_2 : ∀ a, (![1, 2] : Fin 2 → Nat) a + S1x1.size a ≤ S6x4.size a
  wordsbf16_S3x4x64x256_S1x1x64x256_0_2_0_0 : (Rect.unit (s := S3x4x64x256) ![0, 2, 0, 0] S1x1x64x256.size inb_S3x4x64x256_S1x1x64x256_0_2_0_0).WholeWords (EltTy.packing .bf16)
  inb_S3x4x64x256_S1x1x64x256_0_3_0_0 : ∀ a, (![0, 3, 0, 0] : Fin 4 → Nat) a + S1x1x64x256.size a ≤ S3x4x64x256.size a
  packedbf16_S3x4x64x256_S1x1x64x256_0_3_0_0 : (Rect.unit (s := S3x4x64x256) ![0, 3, 0, 0] S1x1x64x256.size inb_S3x4x64x256_S1x1x64x256_0_3_0_0).PackedRows (EltTy.packing .bf16)
  inb_S6x4_S1x1_1_3 : ∀ a, (![1, 3] : Fin 2 → Nat) a + S1x1.size a ≤ S6x4.size a
  wordsbf16_S3x4x64x256_S1x1x64x256_0_3_0_0 : (Rect.unit (s := S3x4x64x256) ![0, 3, 0, 0] S1x1x64x256.size inb_S3x4x64x256_S1x1x64x256_0_3_0_0).WholeWords (EltTy.packing .bf16)
  inb_S3x4x64x512_S1x1x64x512_1_0_0_0 : ∀ a, (![1, 0, 0, 0] : Fin 4 → Nat) a + S1x1x64x512.size a ≤ S3x4x64x512.size a
  packedbf16_S3x4x64x512_S1x1x64x512_1_0_0_0 : (Rect.unit (s := S3x4x64x512) ![1, 0, 0, 0] S1x1x64x512.size inb_S3x4x64x512_S1x1x64x512_1_0_0_0).PackedRows (EltTy.packing .bf16)
  inb_S6x4_S1x1_2_0 : ∀ a, (![2, 0] : Fin 2 → Nat) a + S1x1.size a ≤ S6x4.size a
  wordsbf16_S3x4x64x512_S1x1x64x512_1_0_0_0 : (Rect.unit (s := S3x4x64x512) ![1, 0, 0, 0] S1x1x64x512.size inb_S3x4x64x512_S1x1x64x512_1_0_0_0).WholeWords (EltTy.packing .bf16)
  inb_S3x4x64x512_S1x1x64x512_1_1_0_0 : ∀ a, (![1, 1, 0, 0] : Fin 4 → Nat) a + S1x1x64x512.size a ≤ S3x4x64x512.size a
  packedbf16_S3x4x64x512_S1x1x64x512_1_1_0_0 : (Rect.unit (s := S3x4x64x512) ![1, 1, 0, 0] S1x1x64x512.size inb_S3x4x64x512_S1x1x64x512_1_1_0_0).PackedRows (EltTy.packing .bf16)
  inb_S6x4_S1x1_2_1 : ∀ a, (![2, 1] : Fin 2 → Nat) a + S1x1.size a ≤ S6x4.size a
  wordsbf16_S3x4x64x512_S1x1x64x512_1_1_0_0 : (Rect.unit (s := S3x4x64x512) ![1, 1, 0, 0] S1x1x64x512.size inb_S3x4x64x512_S1x1x64x512_1_1_0_0).WholeWords (EltTy.packing .bf16)
  inb_S3x4x64x512_S1x1x64x512_1_2_0_0 : ∀ a, (![1, 2, 0, 0] : Fin 4 → Nat) a + S1x1x64x512.size a ≤ S3x4x64x512.size a
  packedbf16_S3x4x64x512_S1x1x64x512_1_2_0_0 : (Rect.unit (s := S3x4x64x512) ![1, 2, 0, 0] S1x1x64x512.size inb_S3x4x64x512_S1x1x64x512_1_2_0_0).PackedRows (EltTy.packing .bf16)
  inb_S6x4_S1x1_2_2 : ∀ a, (![2, 2] : Fin 2 → Nat) a + S1x1.size a ≤ S6x4.size a
  wordsbf16_S3x4x64x512_S1x1x64x512_1_2_0_0 : (Rect.unit (s := S3x4x64x512) ![1, 2, 0, 0] S1x1x64x512.size inb_S3x4x64x512_S1x1x64x512_1_2_0_0).WholeWords (EltTy.packing .bf16)
  inb_S3x4x64x512_S1x1x64x512_1_3_0_0 : ∀ a, (![1, 3, 0, 0] : Fin 4 → Nat) a + S1x1x64x512.size a ≤ S3x4x64x512.size a
  packedbf16_S3x4x64x512_S1x1x64x512_1_3_0_0 : (Rect.unit (s := S3x4x64x512) ![1, 3, 0, 0] S1x1x64x512.size inb_S3x4x64x512_S1x1x64x512_1_3_0_0).PackedRows (EltTy.packing .bf16)
  inb_S6x4_S1x1_2_3 : ∀ a, (![2, 3] : Fin 2 → Nat) a + S1x1.size a ≤ S6x4.size a
  wordsbf16_S3x4x64x512_S1x1x64x512_1_3_0_0 : (Rect.unit (s := S3x4x64x512) ![1, 3, 0, 0] S1x1x64x512.size inb_S3x4x64x512_S1x1x64x512_1_3_0_0).WholeWords (EltTy.packing .bf16)
  inb_S3x4x64x256_S1x1x64x256_1_0_0_0 : ∀ a, (![1, 0, 0, 0] : Fin 4 → Nat) a + S1x1x64x256.size a ≤ S3x4x64x256.size a
  packedbf16_S3x4x64x256_S1x1x64x256_1_0_0_0 : (Rect.unit (s := S3x4x64x256) ![1, 0, 0, 0] S1x1x64x256.size inb_S3x4x64x256_S1x1x64x256_1_0_0_0).PackedRows (EltTy.packing .bf16)
  inb_S6x4_S1x1_3_0 : ∀ a, (![3, 0] : Fin 2 → Nat) a + S1x1.size a ≤ S6x4.size a
  wordsbf16_S3x4x64x256_S1x1x64x256_1_0_0_0 : (Rect.unit (s := S3x4x64x256) ![1, 0, 0, 0] S1x1x64x256.size inb_S3x4x64x256_S1x1x64x256_1_0_0_0).WholeWords (EltTy.packing .bf16)
  inb_S3x4x64x256_S1x1x64x256_1_1_0_0 : ∀ a, (![1, 1, 0, 0] : Fin 4 → Nat) a + S1x1x64x256.size a ≤ S3x4x64x256.size a
  packedbf16_S3x4x64x256_S1x1x64x256_1_1_0_0 : (Rect.unit (s := S3x4x64x256) ![1, 1, 0, 0] S1x1x64x256.size inb_S3x4x64x256_S1x1x64x256_1_1_0_0).PackedRows (EltTy.packing .bf16)
  inb_S6x4_S1x1_3_1 : ∀ a, (![3, 1] : Fin 2 → Nat) a + S1x1.size a ≤ S6x4.size a
  wordsbf16_S3x4x64x256_S1x1x64x256_1_1_0_0 : (Rect.unit (s := S3x4x64x256) ![1, 1, 0, 0] S1x1x64x256.size inb_S3x4x64x256_S1x1x64x256_1_1_0_0).WholeWords (EltTy.packing .bf16)
  inb_S3x4x64x256_S1x1x64x256_1_2_0_0 : ∀ a, (![1, 2, 0, 0] : Fin 4 → Nat) a + S1x1x64x256.size a ≤ S3x4x64x256.size a
  packedbf16_S3x4x64x256_S1x1x64x256_1_2_0_0 : (Rect.unit (s := S3x4x64x256) ![1, 2, 0, 0] S1x1x64x256.size inb_S3x4x64x256_S1x1x64x256_1_2_0_0).PackedRows (EltTy.packing .bf16)
  inb_S6x4_S1x1_3_2 : ∀ a, (![3, 2] : Fin 2 → Nat) a + S1x1.size a ≤ S6x4.size a
  wordsbf16_S3x4x64x256_S1x1x64x256_1_2_0_0 : (Rect.unit (s := S3x4x64x256) ![1, 2, 0, 0] S1x1x64x256.size inb_S3x4x64x256_S1x1x64x256_1_2_0_0).WholeWords (EltTy.packing .bf16)
  inb_S3x4x64x256_S1x1x64x256_1_3_0_0 : ∀ a, (![1, 3, 0, 0] : Fin 4 → Nat) a + S1x1x64x256.size a ≤ S3x4x64x256.size a
  packedbf16_S3x4x64x256_S1x1x64x256_1_3_0_0 : (Rect.unit (s := S3x4x64x256) ![1, 3, 0, 0] S1x1x64x256.size inb_S3x4x64x256_S1x1x64x256_1_3_0_0).PackedRows (EltTy.packing .bf16)
  inb_S6x4_S1x1_3_3 : ∀ a, (![3, 3] : Fin 2 → Nat) a + S1x1.size a ≤ S6x4.size a
  wordsbf16_S3x4x64x256_S1x1x64x256_1_3_0_0 : (Rect.unit (s := S3x4x64x256) ![1, 3, 0, 0] S1x1x64x256.size inb_S3x4x64x256_S1x1x64x256_1_3_0_0).WholeWords (EltTy.packing .bf16)
  inb_S3x4x64x512_S1x1x64x512_2_0_0_0 : ∀ a, (![2, 0, 0, 0] : Fin 4 → Nat) a + S1x1x64x512.size a ≤ S3x4x64x512.size a
  packedbf16_S3x4x64x512_S1x1x64x512_2_0_0_0 : (Rect.unit (s := S3x4x64x512) ![2, 0, 0, 0] S1x1x64x512.size inb_S3x4x64x512_S1x1x64x512_2_0_0_0).PackedRows (EltTy.packing .bf16)
  inb_S6x4_S1x1_4_0 : ∀ a, (![4, 0] : Fin 2 → Nat) a + S1x1.size a ≤ S6x4.size a
  wordsbf16_S3x4x64x512_S1x1x64x512_2_0_0_0 : (Rect.unit (s := S3x4x64x512) ![2, 0, 0, 0] S1x1x64x512.size inb_S3x4x64x512_S1x1x64x512_2_0_0_0).WholeWords (EltTy.packing .bf16)
  inb_S3x4x64x512_S1x1x64x512_2_1_0_0 : ∀ a, (![2, 1, 0, 0] : Fin 4 → Nat) a + S1x1x64x512.size a ≤ S3x4x64x512.size a
  packedbf16_S3x4x64x512_S1x1x64x512_2_1_0_0 : (Rect.unit (s := S3x4x64x512) ![2, 1, 0, 0] S1x1x64x512.size inb_S3x4x64x512_S1x1x64x512_2_1_0_0).PackedRows (EltTy.packing .bf16)
  inb_S6x4_S1x1_4_1 : ∀ a, (![4, 1] : Fin 2 → Nat) a + S1x1.size a ≤ S6x4.size a
  wordsbf16_S3x4x64x512_S1x1x64x512_2_1_0_0 : (Rect.unit (s := S3x4x64x512) ![2, 1, 0, 0] S1x1x64x512.size inb_S3x4x64x512_S1x1x64x512_2_1_0_0).WholeWords (EltTy.packing .bf16)
  inb_S3x4x64x512_S1x1x64x512_2_2_0_0 : ∀ a, (![2, 2, 0, 0] : Fin 4 → Nat) a + S1x1x64x512.size a ≤ S3x4x64x512.size a
  packedbf16_S3x4x64x512_S1x1x64x512_2_2_0_0 : (Rect.unit (s := S3x4x64x512) ![2, 2, 0, 0] S1x1x64x512.size inb_S3x4x64x512_S1x1x64x512_2_2_0_0).PackedRows (EltTy.packing .bf16)
  inb_S6x4_S1x1_4_2 : ∀ a, (![4, 2] : Fin 2 → Nat) a + S1x1.size a ≤ S6x4.size a
  wordsbf16_S3x4x64x512_S1x1x64x512_2_2_0_0 : (Rect.unit (s := S3x4x64x512) ![2, 2, 0, 0] S1x1x64x512.size inb_S3x4x64x512_S1x1x64x512_2_2_0_0).WholeWords (EltTy.packing .bf16)
  inb_S3x4x64x512_S1x1x64x512_2_3_0_0 : ∀ a, (![2, 3, 0, 0] : Fin 4 → Nat) a + S1x1x64x512.size a ≤ S3x4x64x512.size a
  packedbf16_S3x4x64x512_S1x1x64x512_2_3_0_0 : (Rect.unit (s := S3x4x64x512) ![2, 3, 0, 0] S1x1x64x512.size inb_S3x4x64x512_S1x1x64x512_2_3_0_0).PackedRows (EltTy.packing .bf16)
  inb_S6x4_S1x1_4_3 : ∀ a, (![4, 3] : Fin 2 → Nat) a + S1x1.size a ≤ S6x4.size a
  wordsbf16_S3x4x64x512_S1x1x64x512_2_3_0_0 : (Rect.unit (s := S3x4x64x512) ![2, 3, 0, 0] S1x1x64x512.size inb_S3x4x64x512_S1x1x64x512_2_3_0_0).WholeWords (EltTy.packing .bf16)
  inb_S3x4x64x256_S1x1x64x256_2_0_0_0 : ∀ a, (![2, 0, 0, 0] : Fin 4 → Nat) a + S1x1x64x256.size a ≤ S3x4x64x256.size a
  packedbf16_S3x4x64x256_S1x1x64x256_2_0_0_0 : (Rect.unit (s := S3x4x64x256) ![2, 0, 0, 0] S1x1x64x256.size inb_S3x4x64x256_S1x1x64x256_2_0_0_0).PackedRows (EltTy.packing .bf16)
  inb_S6x4_S1x1_5_0 : ∀ a, (![5, 0] : Fin 2 → Nat) a + S1x1.size a ≤ S6x4.size a
  wordsbf16_S3x4x64x256_S1x1x64x256_2_0_0_0 : (Rect.unit (s := S3x4x64x256) ![2, 0, 0, 0] S1x1x64x256.size inb_S3x4x64x256_S1x1x64x256_2_0_0_0).WholeWords (EltTy.packing .bf16)
  inb_S3x4x64x256_S1x1x64x256_2_1_0_0 : ∀ a, (![2, 1, 0, 0] : Fin 4 → Nat) a + S1x1x64x256.size a ≤ S3x4x64x256.size a
  packedbf16_S3x4x64x256_S1x1x64x256_2_1_0_0 : (Rect.unit (s := S3x4x64x256) ![2, 1, 0, 0] S1x1x64x256.size inb_S3x4x64x256_S1x1x64x256_2_1_0_0).PackedRows (EltTy.packing .bf16)
  inb_S6x4_S1x1_5_1 : ∀ a, (![5, 1] : Fin 2 → Nat) a + S1x1.size a ≤ S6x4.size a
  wordsbf16_S3x4x64x256_S1x1x64x256_2_1_0_0 : (Rect.unit (s := S3x4x64x256) ![2, 1, 0, 0] S1x1x64x256.size inb_S3x4x64x256_S1x1x64x256_2_1_0_0).WholeWords (EltTy.packing .bf16)
  inb_S3x4x64x256_S1x1x64x256_2_2_0_0 : ∀ a, (![2, 2, 0, 0] : Fin 4 → Nat) a + S1x1x64x256.size a ≤ S3x4x64x256.size a
  packedbf16_S3x4x64x256_S1x1x64x256_2_2_0_0 : (Rect.unit (s := S3x4x64x256) ![2, 2, 0, 0] S1x1x64x256.size inb_S3x4x64x256_S1x1x64x256_2_2_0_0).PackedRows (EltTy.packing .bf16)
  inb_S6x4_S1x1_5_2 : ∀ a, (![5, 2] : Fin 2 → Nat) a + S1x1.size a ≤ S6x4.size a
  wordsbf16_S3x4x64x256_S1x1x64x256_2_2_0_0 : (Rect.unit (s := S3x4x64x256) ![2, 2, 0, 0] S1x1x64x256.size inb_S3x4x64x256_S1x1x64x256_2_2_0_0).WholeWords (EltTy.packing .bf16)
  inb_S3x4x64x256_S1x1x64x256_2_3_0_0 : ∀ a, (![2, 3, 0, 0] : Fin 4 → Nat) a + S1x1x64x256.size a ≤ S3x4x64x256.size a
  packedbf16_S3x4x64x256_S1x1x64x256_2_3_0_0 : (Rect.unit (s := S3x4x64x256) ![2, 3, 0, 0] S1x1x64x256.size inb_S3x4x64x256_S1x1x64x256_2_3_0_0).PackedRows (EltTy.packing .bf16)
  inb_S6x4_S1x1_5_3 : ∀ a, (![5, 3] : Fin 2 → Nat) a + S1x1.size a ≤ S6x4.size a
  wordsbf16_S3x4x64x256_S1x1x64x256_2_3_0_0 : (Rect.unit (s := S3x4x64x256) ![2, 3, 0, 0] S1x1x64x256.size inb_S3x4x64x256_S1x1x64x256_2_3_0_0).WholeWords (EltTy.packing .bf16)
  dot_S64x256_S256x512_S64x512_1_0_0_1_n_n_wf : DotDims.WF S64x256 S256x512 S64x512 [1] [0] [0] [1] [] []
  dot_S64x512_S512x256_S64x256_1_0_0_1_n_n_wf : DotDims.WF S64x512 S512x256 S64x256 [1] [0] [0] [1] [] []
  hcc0_scratch6 : 8 + S6x4.numel ≤ 56
  hcc0_scratch7 : 32 + S6x4.numel ≤ 56
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch6 : DmaSems sig S6x4 := SemArray.consecutive 8 S6x4 hcc0_scratch6
abbrev cc0_scratch7 : DmaSems sig S6x4 := SemArray.consecutive 32 S6x4 hcc0_scratch7
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x512 : Shape := ⟨2, ![256, 512]⟩
abbrev S512x1024 : Shape := ⟨2, ![512, 1024]⟩
abbrev S1024x512 : Shape := ⟨2, ![1024, 512]⟩
abbrev S256x1024 : Shape := ⟨2, ![256, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x512, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x512, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S256x1024 : S_.BroadcastsInDim S256x1024 (![] : Fin 0 → Fin S256x1024.rank)
  dot_S256x512_S512x1024_S256x1024_1_0_0_1_n_n_wf : DotDims.WF S256x512 S512x1024 S256x1024 [1] [0] [0] [1] [] []
  dot_S256x1024_S1024x512_S256x512_1_0_0_1_n_n_wf : DotDims.WF S256x1024 S1024x512 S256x512 [1] [0] [0] [1] [] []

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

class Facts : Prop extends Facts₀ where

variable [Facts]
-- ==== Proof.Val.Spec.lean ====
import Idealize.ShloMosaic.Lib.ValueIdx
import Mathlib.Algebra.BigOperators.Fin
import Mathlib.Algebra.BigOperators.Intervals

/-!
# One layer of the MLP, index by index, and the splitting of its contractions

An array of shape `m × n` is read at natural-number coordinates (`at2`, zero outside the array), so that
a block of it is the array read at shifted coordinates. A layer is
`x ↦ max (x · Win) 0 · Wout`: the hidden row `hid A Wi r t = max (∑ s < 512, A r s * Wi s t) 0` and the
output `layerN A Wi Wo r q = ∑ t < 1024, hid A Wi r t * Wo t q`. A contraction over `2 n` indices is the
sum of its two halves, in either order.
-/

noncomputable section

open scoped BigOperators

namespace Cert.Val

open Idealize.ShloMosaic Idealize.ShloMosaic.ValueIdx

/-- An `m × n` array read at natural-number coordinates; zero outside. -/
def at2 {m n : Nat} (V : (⟨2, ![m, n]⟩ : Shape).Idx → EReal) (a b : Nat) : EReal :=
  if h : a < m ∧ b < n then V (ix2 ⟨a, h.1⟩ ⟨b, h.2⟩) else 0

theorem at2_ix {m n : Nat} (V : (⟨2, ![m, n]⟩ : Shape).Idx → EReal) (a : Fin m) (b : Fin n) :
    at2 V a.val b.val = V (ix2 a b) := by
  unfold at2
  rw [dif_pos ⟨a.isLt, b.isLt⟩]

theorem at2_idx {m n : Nat} (V : (⟨2, ![m, n]⟩ : Shape).Idx → EReal) (i : (⟨2, ![m, n]⟩ : Shape).Idx) :
    at2 V (i 0).val (i 1).val = V i := by
  exact (at2_ix V (i 0) (i 1)).trans (congrArg V (eq_ix2 i).symm)

theorem at2_of_lt {m n : Nat} (V : (⟨2, ![m, n]⟩ : Shape).Idx → EReal) (a b : Nat) (ha : a < m) (hb : b < n) :
    at2 V a b = V (ix2 ⟨a, ha⟩ ⟨b, hb⟩) := by
  unfold at2
  rw [dif_pos ⟨ha, hb⟩]

/-- A sum over `Fin n` of a function of the value is the sum over `range n`. -/
theorem sum_fin_eq_range (n : Nat) (g : Nat → EReal) : ∑ t : Fin n, g t.val = ∑ t ∈ Finset.range n, g t :=
  Fin.sum_univ_eq_sum_range g n

/-- A contraction over `n + n` indices is the sum of its two halves, in either order. -/
theorem sum_halves (n : Nat) (g : Nat → EReal) (b b' : Nat) (hb : b + b' = 1) :
    ∑ t ∈ Finset.range n, g (n * b + t) + ∑ t ∈ Finset.range n, g (n * b' + t) = ∑ t ∈ Finset.range (n + n), g t := by
  have h0 : ∑ t ∈ Finset.range n, g (n * 0 + t) = ∑ t ∈ Finset.range n, g t :=
    Finset.sum_congr rfl fun t _ => by rw [Nat.mul_zero, Nat.zero_add]
  have h1 : ∑ t ∈ Finset.range n, g (n * 1 + t) = ∑ t ∈ Finset.range n, g (n + t) :=
    Finset.sum_congr rfl fun t _ => by rw [Nat.mul_one]
  rw [Finset.sum_range_add]
  obtain ⟨rfl, rfl⟩ | ⟨rfl, rfl⟩ : (b = 0 ∧ b' = 1) ∨ (b = 1 ∧ b' = 0) := by omega
  · rw [h0, h1]
  · rw [h0, h1, add_comm]

/-- The hidden activations of a layer: `max (A · Wi) 0` at row `r`, column `t`. -/
def hid (A : (⟨2, ![256, 512]⟩ : Shape).Idx → EReal) (Wi : (⟨2, ![512, 1024]⟩ : Shape).Idx → EReal) (r t : Nat) : EReal :=
  max (∑ s ∈ Finset.range (256 + 256), at2 A r s * at2 Wi s t) 0

/-- A layer's output `max (A · Wi) 0 · Wo` at row `r`, column `q`. -/
def layerN (A : (⟨2, ![256, 512]⟩ : Shape).Idx → EReal) (Wi : (⟨2, ![512, 1024]⟩ : Shape).Idx → EReal)
    (Wo : (⟨2, ![1024, 512]⟩ : Shape).Idx → EReal) (r q : Nat) : EReal :=
  ∑ t ∈ Finset.range (512 + 512), hid A Wi r t * at2 Wo t q

/-- A layer as an array. -/
def layerSpec (A : (⟨2, ![256, 512]⟩ : Shape).Idx → EReal) (Wi : (⟨2, ![512, 1024]⟩ : Shape).Idx → EReal)
    (Wo : (⟨2, ![1024, 512]⟩ : Shape).Idx → EReal) : (⟨2, ![256, 512]⟩ : Shape).Idx → EReal :=
  fun i => layerN A Wi Wo (i 0).val (i 1).val

theorem at2_layerSpec (A : (⟨2, ![256, 512]⟩ : Shape).Idx → EReal) (Wi : (⟨2, ![512, 1024]⟩ : Shape).Idx → EReal)
    (Wo : (⟨2, ![1024, 512]⟩ : Shape).Idx → EReal) (r q : Nat) (hr : r < 256) (hq : q < 512) :
    at2 (layerSpec A Wi Wo) r q = layerN A Wi Wo r q := by
  rw [at2_of_lt _ r q hr hq]
  rfl

end Cert.Val

end
-- ==== Proof.Val.RefIsSpec.lean ====
import proofs.«901002_g7700000000001003_dist_mlpseq_tp2d_cs_cs_b256_d256_h512_v7x_xy2x2_f32_1_alg».proof.Proof.Gen.ReferenceIdeal.Read
import proofs.«901002_g7700000000001003_dist_mlpseq_tp2d_cs_cs_b256_d256_h512_v7x_xy2x2_f32_1_alg».proof.Proof.Val.Spec

/-!
# The reference is three layers of the specification

The reference's result is one layer applied three times; one layer of it, read at an index, is
`layerSpec`.
-/

noncomputable section

open scoped BigOperators

namespace Cert.Val

open Cert.ReferenceIdeal Cert.ReferenceIdeal.Gen Cert.ReferenceIdeal.Read
open Idealize.ShloMosaic Idealize.ShloMosaic.ValueIdx Idealize.SL.Sem Idealize.ShloMosaic.StableHlo

/-- One layer as the reference composes it: `max (A · Wi) 0 · Wo`. -/
def layerRef (A : Vec Ideal S256x512 .f32) (Wi : Vec Ideal S512x1024 .f32) (Wo : Vec Ideal S1024x512 .f32) : Vec Ideal S256x512 .f32 :=
  Host.dotGeneral (F := Ideal) (φ₁ := .f32) (φ₂ := .f32) dot_S256x1024_S1024x512_S256x512_1_0_0_1_n_n none (maximumf (F := Ideal) (Host.dotGeneral (F := Ideal) (φ₁ := .f32) (φ₂ := .f32) dot_S256x512_S512x1024_S256x1024_1_0_0_1_n_n none A Wi) (broadcastInDim S256x1024 ![] bcast_S_S256x1024 (constant (F := Ideal) S_ .f32 0x00000000#32))) Wo

/-- The reference's result as a function of its seven argument arrays. -/
def refTerm (X : Vec Ideal S256x512 .f32) (Wi : Fin 3 → Vec Ideal S512x1024 .f32) (Wo : Fin 3 → Vec Ideal S1024x512 .f32) : Vec Ideal S256x512 .f32 :=
  Host.dotGeneral (F := Ideal) (φ₁ := .f32) (φ₂ := .f32) dot_S256x1024_S1024x512_S256x512_1_0_0_1_n_n none (maximumf (F := Ideal) (Host.dotGeneral (F := Ideal) (φ₁ := .f32) (φ₂ := .f32) dot_S256x512_S512x1024_S256x1024_1_0_0_1_n_n none (Host.dotGeneral (F := Ideal) (φ₁ := .f32) (φ₂ := .f32) dot_S256x1024_S1024x512_S256x512_1_0_0_1_n_n none (maximumf (F := Ideal) (Host.dotGeneral (F := Ideal) (φ₁ := .f32) (φ₂ := .f32) dot_S256x512_S512x1024_S256x1024_1_0_0_1_n_n none (Host.dotGeneral (F := Ideal) (φ₁ := .f32) (φ₂ := .f32) dot_S256x1024_S1024x512_S256x512_1_0_0_1_n_n none (maximumf (F := Ideal) (Host.dotGeneral (F := Ideal) (φ₁ := .f32) (φ₂ := .f32) dot_S256x512_S512x1024_S256x1024_1_0_0_1_n_n none X (Wi 0)) (broadcastInDim S256x1024 ![] bcast_S_S256x1024 (constant (F := Ideal) S_ .f32 0x00000000#32))) (Wo 0)) (Wi 1)) (broadcastInDim S256x1024 ![] bcast_S_S256x1024 (constant (F := Ideal) S_ .f32 0x00000000#32))) (Wo 1)) (Wi 2)) (broadcastInDim S256x1024 ![] bcast_S_S256x1024 (constant (F := Ideal) S_ .f32 0x00000000#32))) (Wo 2)

theorem refTerm_eq (X : Vec Ideal S256x512 .f32) (Wi : Fin 3 → Vec Ideal S512x1024 .f32) (Wo : Fin 3 → Vec Ideal S1024x512 .f32) :
    refTerm X Wi Wo = layerRef (layerRef (layerRef X (Wi 0) (Wo 0)) (Wi 1) (Wo 1)) (Wi 2) (Wo 2) := rfl

/-- The term the reference's run states for its result is `refTerm` of the memory's argument arrays. -/
theorem run_term_eq (m : (ℓ : Loc nD τ sig) → Buf (Elt Ideal) ℓ) (c : Dev nD) :
    Host.dotGeneral (F := Ideal) (φ₁ := .f32) (φ₂ := .f32) dot_S256x1024_S1024x512_S256x512_1_0_0_1_n_n none (maximumf (F := Ideal) (Host.dotGeneral (F := Ideal) (φ₁ := .f32) (φ₂ := .f32) dot_S256x512_S512x1024_S256x1024_1_0_0_1_n_n none (Host.dotGeneral (F := Ideal) (φ₁ := .f32) (φ₂ := .f32) dot_S256x1024_S1024x512_S256x512_1_0_0_1_n_n none (maximumf (F := Ideal) (Host.dotGeneral (F := Ideal) (φ₁ := .f32) (φ₂ := .f32) dot_S256x512_S512x1024_S256x1024_1_0_0_1_n_n none (Host.dotGeneral (F := Ideal) (φ₁ := .f32) (φ₂ := .f32) dot_S256x1024_S1024x512_S256x512_1_0_0_1_n_n none (maximumf (F := Ideal) (Host.dotGeneral (F := Ideal) (φ₁ := .f32) (φ₂ := .f32) dot_S256x512_S512x1024_S256x1024_1_0_0_1_n_n none (m ((c.tc : Thread nD τ).loc main_arg0)) (m ((c.tc : Thread nD τ).loc main_arg1))) (broadcastInDim S256x1024 ![] bcast_S_S256x1024 (constant (F := Ideal) S_ .f32 0x00000000#32))) (m ((c.tc : Thread nD τ).loc main_arg2))) (m ((c.tc : Thread nD τ).loc main_arg3))) (broadcastInDim S256x1024 ![] bcast_S_S256x1024 (constant (F := Ideal) S_ .f32 0x00000000#32))) (m ((c.tc : Thread nD τ).loc main_arg4))) (m ((c.tc : Thread nD τ).loc main_arg5))) (broadcastInDim S256x1024 ![] bcast_S_S256x1024 (constant (F := Ideal) S_ .f32 0x00000000#32))) (m ((c.tc : Thread nD τ).loc main_arg6))
      = refTerm (m ((c.tc : Thread nD τ).loc main_arg0))
          ![m ((c.tc : Thread nD τ).loc main_arg1), m ((c.tc : Thread nD τ).loc main_arg3), m ((c.tc : Thread nD τ).loc main_arg5)]
          ![m ((c.tc : Thread nD τ).loc main_arg2), m ((c.tc : Thread nD τ).loc main_arg4), m ((c.tc : Thread nD τ).loc main_arg6)] := rfl

/-- The reference's run, its result stated as `refTerm` of the launch contents of the arguments. -/
theorem run_refTerm (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = refTerm (m ((c.tc : Thread nD τ).loc main_arg0))
          ![m ((c.tc : Thread nD τ).loc main_arg1), m ((c.tc : Thread nD τ).loc main_arg3), m ((c.tc : Thread nD τ).loc main_arg5)]
          ![m ((c.tc : Thread nD τ).loc main_arg2), m ((c.tc : Thread nD τ).loc main_arg4), m ((c.tc : Thread nD τ).loc main_arg6)]
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run (F := Ideal) m ρ

theorem lidx_v3_eq (i : S256x512.Idx) (k : Fin 1024) : lidx_main_v3 i k = ix2 ⟨(i 0).val, (i 0).isLt⟩ ⟨k.val, k.isLt⟩ :=
  funext fun a => Fin.ext (by match a with | ⟨0, _⟩ => rfl | ⟨1, _⟩ => rfl)
theorem ridx_v3_eq (i : S256x512.Idx) (k : Fin 1024) : ridx_main_v3 i k = ix2 ⟨k.val, k.isLt⟩ ⟨(i 1).val, (i 1).isLt⟩ :=
  funext fun a => Fin.ext (by match a with | ⟨0, _⟩ => rfl | ⟨1, _⟩ => rfl)
theorem lidx_v0_eq (i : S256x1024.Idx) (k : Fin 512) : lidx_main_v0 i k = ix2 ⟨(i 0).val, (i 0).isLt⟩ ⟨k.val, k.isLt⟩ :=
  funext fun a => Fin.ext (by match a with | ⟨0, _⟩ => rfl | ⟨1, _⟩ => rfl)
theorem ridx_v0_eq (i : S256x1024.Idx) (k : Fin 512) : ridx_main_v0 i k = ix2 ⟨k.val, k.isLt⟩ ⟨(i 1).val, (i 1).isLt⟩ :=
  funext fun a => Fin.ext (by match a with | ⟨0, _⟩ => rfl | ⟨1, _⟩ => rfl)

/-- The reference's hidden activations at an index. -/
theorem val_v2_eq_hid (A : Vec Ideal S256x512 .f32) (Wi : Vec Ideal S512x1024 .f32) (j : S256x1024.Idx) :
    val_main_v2 (F := Ideal) A Wi j = hid A Wi (j 0).val (j 1).val := by
  rw [val_main_v2_apply, val_main_v0_apply, val_main_v1_apply, val_main_cst_apply]
  unfold hid
  rw [← sum_fin_eq_range (256 + 256) (fun s => at2 A (j 0).val s * at2 Wi s (j 1).val)]
  show max _ (Ideal.ofBits .f32 0x00000000#32) = _
  rw [Ideal.ofBits_zero_f32]
  refine congrArg (fun z => max z 0) (Finset.sum_congr rfl fun k _ => ?_)
  rw [lidx_v0_eq, ridx_v0_eq, at2_of_lt A (j 0).val k.val (j 0).isLt k.isLt, at2_of_lt Wi k.val (j 1).val k.isLt (j 1).isLt]
  rfl

/-- One layer of the reference is the specification's layer. -/
theorem layerRef_eq_spec (A : Vec Ideal S256x512 .f32) (Wi : Vec Ideal S512x1024 .f32) (Wo : Vec Ideal S1024x512 .f32) :
    layerRef A Wi Wo = layerSpec A Wi Wo := by
  funext i
  show val_main_v3 (F := Ideal) A Wi Wo i = layerN A Wi Wo (i 0).val (i 1).val
  rw [val_main_v3_apply]
  unfold layerN
  rw [← sum_fin_eq_range (512 + 512) (fun t => hid A Wi (i 0).val t * at2 Wo t (i 1).val)]
  refine Finset.sum_congr rfl fun k _ => ?_
  rw [val_v2_eq_hid, lidx_v3_eq, ridx_v3_eq, at2_of_lt Wo k.val (i 1).val k.isLt (i 1).isLt]
  rfl

end Cert.Val

end
-- ==== Proof.Val.Blocks.lean ====
import proofs.«901002_g7700000000001003_dist_mlpseq_tp2d_cs_cs_b256_d256_h512_v7x_xy2x2_f32_1_alg».proof.Proof.Val.Spec
import Idealize.ShloMosaic.Lib.Layout

/-!
# A block of an array, read at natural-number coordinates

The block at block coordinates `j` of an `M × N` array cut into `m × n` blocks is the array read
`j 0 · m` rows and `j 1 · n` columns further. On the 2 × 2 mesh device `c` has coordinates
`(c / 2, c % 2)`.
-/

noncomputable section

namespace Cert.Val

open Idealize.ShloMosaic Idealize.ShloMosaic.ValueIdx

theorem at2_congr {m n : Nat} (V : (⟨2, ![m, n]⟩ : Shape).Idx → EReal) {a a' b b' : Nat} (ha : a = a') (hb : b = b') :
    at2 V a b = at2 V a' b' := by rw [ha, hb]

theorem at2_blockN {m n M N : Nat} {kN : Fin 2 → Nat} (j : (b : Fin 2) → Fin (kN b))
    (V : (⟨2, ![M, N]⟩ : Shape).Idx → EReal) (h : Layout.TilesN ⟨2, ![m, n]⟩ ⟨2, ![M, N]⟩ kN) (a b : Nat) (ha : a < m) (hb : b < n) :
    at2 (Layout.blockN ⟨2, ![m, n]⟩ ⟨2, ![M, N]⟩ j V h) a b = at2 V ((j 0).val * m + a) ((j 1).val * n + b) := by
  rw [at2_of_lt _ a b ha hb, Layout.blockN_apply]
  exact (at2_idx V (h.idx j (ix2 ⟨a, ha⟩ ⟨b, hb⟩))).symm

/-- Device `c`'s block coordinates for the three ways the arrays are cut. -/
theorem mesh_x (c : Fin 4) : ((Layout.meshBlock [2, 2] ![[], [1]] c) 0).val = 0 ∧ ((Layout.meshBlock [2, 2] ![[], [1]] c) 1).val = c.val % 2 := by
  revert c; decide
theorem mesh_win (c : Fin 4) : ((Layout.meshBlock [2, 2] ![[1], [0]] c) 0).val = c.val % 2 ∧ ((Layout.meshBlock [2, 2] ![[1], [0]] c) 1).val = c.val / 2 := by
  revert c; decide
theorem mesh_wout (c : Fin 4) : ((Layout.meshBlock [2, 2] ![[0], [1]] c) 0).val = c.val / 2 ∧ ((Layout.meshBlock [2, 2] ![[0], [1]] c) 1).val = c.val % 2 := by
  revert c; decide

/-- Device `c`'s block of `x`: all rows, columns `256 (c % 2) …`. -/
theorem at2_block_x (X : (⟨2, ![256, 512]⟩ : Shape).Idx → EReal) (c : Fin 4) (a b : Nat) (ha : a < 256) (hb : b < 256) :
    at2 (Layout.blockN ⟨2, ![256, 256]⟩ ⟨2, ![256, 512]⟩ (Layout.meshBlock [2, 2] ![[], [1]] c) X) a b = at2 X a (256 * (c.val % 2) + b) := by
  rw [at2_blockN _ X _ a b ha hb, (mesh_x c).1, (mesh_x c).2]
  exact at2_congr X (by omega) (by omega)

/-- Device `c`'s block of `Win`: rows `256 (c % 2) …`, columns `512 (c / 2) …`. -/
theorem at2_block_win (W : (⟨2, ![512, 1024]⟩ : Shape).Idx → EReal) (c : Fin 4) (a b : Nat) (ha : a < 256) (hb : b < 512) :
    at2 (Layout.blockN ⟨2, ![256, 512]⟩ ⟨2, ![512, 1024]⟩ (Layout.meshBlock [2, 2] ![[1], [0]] c) W) a b
      = at2 W (256 * (c.val % 2) + a) (512 * (c.val / 2) + b) := by
  rw [at2_blockN _ W _ a b ha hb, (mesh_win c).1, (mesh_win c).2]
  exact at2_congr W (by omega) (by omega)

/-- Device `c`'s block of `Wout`: rows `512 (c / 2) …`, columns `256 (c % 2) …`. -/
theorem at2_block_wout (W : (⟨2, ![1024, 512]⟩ : Shape).Idx → EReal) (c : Fin 4) (a b : Nat) (ha : a < 512) (hb : b < 256) :
    at2 (Layout.blockN ⟨2, ![512, 256]⟩ ⟨2, ![1024, 512]⟩ (Layout.meshBlock [2, 2] ![[0], [1]] c) W) a b
      = at2 W (512 * (c.val / 2) + a) (256 * (c.val % 2) + b) := by
  rw [at2_blockN _ W _ a b ha hb, (mesh_wout c).1, (mesh_wout c).2]
  exact at2_congr W (by omega) (by omega)

end Cert.Val

end
-- ==== Proof.KernelIdeal.Proto.lean ====
import proofs.«901002_g7700000000001003_dist_mlpseq_tp2d_cs_cs_b256_d256_h512_v7x_xy2x2_f32_1_alg».proof.Proof.Gen.KernelIdeal
import proofs.«901002_g7700000000001003_dist_mlpseq_tp2d_cs_cs_b256_d256_h512_v7x_xy2x2_f32_1_alg».proof.Proof.Gen.KernelIdeal.Skeleton
import proofs.«901002_g7700000000001003_dist_mlpseq_tp2d_cs_cs_b256_d256_h512_v7x_xy2x2_f32_1_alg».proof.Proof.Gen.KernelIdeal.Launch
import proofs.«901002_g7700000000001003_dist_mlpseq_tp2d_cs_cs_b256_d256_h512_v7x_xy2x2_f32_1_alg».proof.Proof.Gen.KernelIdeal.Points
import Idealize.ShloMosaic.Lib.Pipeline.Launch
import Idealize.ShloMosaic.Lib.Pipeline.Kit
import Idealize.ShloMosaic.Lib.Tactic

/-!
# A three-layer MLP, tensor-parallel on a 2 × 2 mesh: names of the protocol

Device `c = 2·cx + cy`. Its row mate `yp c` (same `cx`, other `cy`) holds the other half of the
contraction of the first matmul of a layer; its column mate `xp c` (other `cx`, same `cy`) the other
half of the contraction of the second. A layer is two stages; stage `s` (`s = 2 L` the first matmul of
layer `L`, `s = 2 L + 1` the second) works on four row chunks `k` of 64 rows, and for each
`(s, k)` sends its partial product, cast to bf16, to the mate of that stage, on the DMA semaphores
`(s, k)` of the send and of the receive array.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two mates of a device -/

/-- The row mate: the other device with the same first mesh coordinate. -/
def yp (c : Dev nD) : Dev nD := ⟨(2 * (c.val / 2) + 1) - (c.val % 2), by have := c.isLt; revert this; generalize c.val = v; decide +revert⟩
/-- The column mate: the other device with the same second mesh coordinate. -/
def xp (c : Dev nD) : Dev nD := ⟨((c.val % 2) + 2) - 2 * (c.val / 2), by have := c.isLt; revert this; generalize c.val = v; decide +revert⟩

theorem yp_yp (c : Dev nD) : yp (yp c) = c := by revert c; decide
theorem xp_xp (c : Dev nD) : xp (xp c) = c := by revert c; decide
theorem yp_ne (c : Dev nD) : yp c ≠ c := by revert c; decide
theorem xp_ne (c : Dev nD) : xp c ≠ c := by revert c; decide
theorem yp_ne_xp (c : Dev nD) : yp c ≠ xp c := by revert c; decide

/-- The mate stage `s` exchanges with: the row mate at even stages, the column mate at odd ones. -/
def mate (s : Fin 6) (c : Dev nD) : Dev nD := if s.val % 2 = 0 then yp c else xp c
theorem mate_mate (s : Fin 6) (c : Dev nD) : mate s (mate s c) = c := by
  unfold mate; split
  · exact yp_yp c
  · exact xp_xp c

def ypEquiv : Dev nD ≃ Dev nD := ⟨yp, yp, yp_yp, yp_yp⟩
def xpEquiv : Dev nD ≃ Dev nD := ⟨xp, xp, xp_xp, xp_xp⟩
def mateEquiv (s : Fin 6) : Dev nD ≃ Dev nD := ⟨mate s, mate s, mate_mate s, mate_mate s⟩

/-! ## The scratch buffers, their `(L, k)` slabs, the semaphores -/

abbrev hLoc : Memref sig .tc .vmem S3x4x64x512 .f32 := Memref.whole cc0_scratch0
abbrev hSnd : Memref sig .tc .vmem S3x4x64x512 .bf16 := Memref.whole cc0_scratch1
abbrev hRcv : Memref sig .tc .vmem S3x4x64x512 .bf16 := Memref.whole cc0_scratch2
abbrev xLoc : Memref sig .tc .vmem S3x4x64x256 .f32 := Memref.whole cc0_scratch3
abbrev xSnd : Memref sig .tc .vmem S3x4x64x256 .bf16 := Memref.whole cc0_scratch4
abbrev xRcv : Memref sig .tc .vmem S3x4x64x256 .bf16 := Memref.whole cc0_scratch5

theorem inbH (L : Fin 3) (k : Fin 4) : ∀ a, (![L.val, k.val, 0, 0] : Fin 4 → Nat) a + S1x1x64x512.size a ≤ S3x4x64x512.size a := by
  revert L k; decide
theorem inbX (L : Fin 3) (k : Fin 4) : ∀ a, (![L.val, k.val, 0, 0] : Fin 4 → Nat) a + S1x1x64x256.size a ≤ S3x4x64x256.size a := by
  revert L k; decide
theorem inbS (s : Fin 6) (k : Fin 4) : ∀ a, (![s.val, k.val] : Fin 2 → Nat) a + S1x1.size a ≤ S6x4.size a := by
  revert s k; decide

/-- Slab `(L, k)` of a `3 × 4 × 64 × 512` buffer. -/
def rH (L : Fin 3) (k : Fin 4) : Rect S3x4x64x512 := Rect.unit (s := S3x4x64x512) ![L.val, k.val, 0, 0] S1x1x64x512.size (inbH L k)
/-- Slab `(L, k)` of a `3 × 4 × 64 × 256` buffer. -/
def rX (L : Fin 3) (k : Fin 4) : Rect S3x4x64x256 := Rect.unit (s := S3x4x64x256) ![L.val, k.val, 0, 0] S1x1x64x256.size (inbX L k)
/-- Entry `(s, k)` of a `6 × 4` semaphore array. -/
def rS (s : Fin 6) (k : Fin 4) : Rect S6x4 := Rect.unit (s := S6x4) ![s.val, k.val] S1x1.size (inbS s k)

/-- The slabs as the transfers name them: sliced and squeezed to `64 × 512` / `64 × 256`. -/
def hSndSl (L : Fin 3) (k : Fin 4) : Memref sig .tc .vmem S64x512 .bf16 := (hSnd.slice (rH L k) (fun _ => rfl)).squeeze S64x512 squeezes_S1x1x64x512_S64x512
def hRcvSl (L : Fin 3) (k : Fin 4) : Memref sig .tc .vmem S64x512 .bf16 := (hRcv.slice (rH L k) (fun _ => rfl)).squeeze S64x512 squeezes_S1x1x64x512_S64x512
def xSndSl (L : Fin 3) (k : Fin 4) : Memref sig .tc .vmem S64x256 .bf16 := (xSnd.slice (rX L k) (fun _ => rfl)).squeeze S64x256 squeezes_S1x1x64x256_S64x256
def xRcvSl (L : Fin 3) (k : Fin 4) : Memref sig .tc .vmem S64x256 .bf16 := (xRcv.slice (rX L k) (fun _ => rfl)).squeeze S64x256 squeezes_S1x1x64x256_S64x256

/-- The send and the receive DMA semaphore of `(s, k)`. -/
def sndSem (s : Fin 6) (k : Fin 4) : DmaSem sig := ((cc0_scratch6.slice (rS s k)).squeeze S_ squeezes_S1x1_S_).sem
def rcvSem (s : Fin 6) (k : Fin 4) : DmaSem sig := ((cc0_scratch7.slice (rS s k)).squeeze S_ squeezes_S1x1_S_).sem

theorem sndSem_val (s : Fin 6) (k : Fin 4) : (sndSem s k).val = 8 + 4 * s.val + k.val := by revert s k; decide
theorem rcvSem_val (s : Fin 6) (k : Fin 4) : (rcvSem s k).val = 32 + 4 * s.val + k.val := by revert s k; decide

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sndCell (c : Dev nD) (s : Fin 6) (k : Fin 4) : GSem nD τ sig := ((c : Thread nD τ), .dma (sndSem s k))
abbrev rcvCell (c : Dev nD) (s : Fin 6) (k : Fin 4) : GSem nD τ sig := ((c : Thread nD τ), .dma (rcvSem s k))

end Cert.KernelIdeal.Proto

end
-- ==== Proof.KernelIdeal.Vals.lean ====
import proofs.«901002_g7700000000001003_dist_mlpseq_tp2d_cs_cs_b256_d256_h512_v7x_xy2x2_f32_1_alg».proof.Proof.Gen.KernelIdeal
import proofs.«901002_g7700000000001003_dist_mlpseq_tp2d_cs_cs_b256_d256_h512_v7x_xy2x2_f32_1_alg».proof.Proof.Gen.KernelIdeal.Skeleton
import Idealize.ShloMosaic.Lib.ValueIdx

/-!
# The values the devices compute

Device `c` holds column block `cy` of `x` (256 × 256), for each layer `L` the block `(cy, cx)` of
`Win L` (256 × 512) and the block `(cx, cy)` of `Wout L` (512 × 256). Per row chunk `k`:

* `hpart L c k = xin L c k · Win L c` is half of the contraction of the first matmul; the row mate has the other half;
  `hsum L c k = max (hpart L c k + bf16 (hpart L (yp c) k)) 0`;
* `xpart L c k = hsum L c k · Wout L c` is half of the contraction of the second; the column mate has the other half;
  `xin (L + 1) c k = xpart L c k + bf16 (xpart L (xp c) k)`;
* `xin 0 c k` is rows `64 k … 64 k + 63` of the device's block of `x`, and the result's rows `64 k …` are `xin 3 c k`.

The definitions are over any float instance; the casts to bf16 are `truncf` / `extf` there.
-/

noncomputable section

namespace Cert.KernelIdeal.Vals

open Cert.KernelIdeal Cert.KernelIdeal.Gen
open Idealize.ShloMosaic Idealize.SL.Sem

variable {F : FTy → Type} [FloatOps F]

/-- A device's argument arrays: its block of `x`, and per layer its blocks of `Win` and `Wout`. -/
structure Ins (F : FTy → Type) where
  x : Vec F S256x256 .f32
  win : Fin 3 → Vec F S256x512 .f32
  wout : Fin 3 → Vec F S512x256 .f32

theorem inbXrow (k : Fin 4) : ∀ a, (![64 * k.val, 0] : Fin 2 → Nat) a + S64x256.size a ≤ S256x256.size a := by
  revert k; decide

/-- Rows `64 k … 64 k + 63` of a `256 × 256` array. -/
def rRow (k : Fin 4) : Rect S256x256 := Rect.unit (s := S256x256) ![64 * k.val, 0] S64x256.size (inbXrow k)

/-- Rows `64 k …` of the device's block of `x`, as the kernel loads them. -/
def xchunk (X : Vec F S256x256 .f32) (k : Fin 4) : FVec F S64x256 .f32 :=
  shapeCast S64x256 ((Memref.whole cc0_stg0_0 : Memref sig .tc .vmem S256x256 .f32).view.readAt (Elt F) (rRow k).toLoadRect X) shapeCasts_S64x256_S64x256

/-- The first matmul of a layer on one row chunk: `64 × 256` by `256 × 512`, into zero. -/
def mmIn (xk : FVec F S64x256 .f32) (w : Vec F S256x512 .f32) : FVec F S64x512 .f32 :=
  matmul dot_S64x256_S256x512_S64x512_1_0_0_1_n_n none xk (shapeCast S256x512 w shapeCasts_S256x512_S256x512) (constant S64x512 .f32 0x00000000#32)

/-- The second matmul of a layer on one row chunk: `64 × 512` by `512 × 256`, into zero. -/
def mmOut (h : FVec F S64x512 .f32) (w : Vec F S512x256 .f32) : FVec F S64x256 .f32 :=
  matmul dot_S64x512_S512x256_S64x256_1_0_0_1_n_n none h (shapeCast S512x256 w shapeCasts_S512x256_S512x256) (constant S64x256 .f32 0x00000000#32)

/-- The own half plus the mate's (received as bf16), then `max · 0`. -/
def hsumOf (hl : FVec F S64x512 .f32) (hr : FVec F S64x512 .bf16) : FVec F S64x512 .f32 :=
  maximumf (addf hl (extf .f32 hr bitsLt_bf16_f32)) (broadcast S64x512 (Scalar.ofBits .f32 0x00000000#32))

/-- The own half plus the mate's (received as bf16). -/
def xsumOf (xl : FVec F S64x256 .f32) (xr : FVec F S64x256 .bf16) : FVec F S64x256 .f32 :=
  addf xl (extf .f32 xr bitsLt_bf16_f32)

variable (I : Dev nD → Ins F) (yp xp : Dev nD → Dev nD)

/-- The input of layer `L` on device `c`, row chunk `k` (all devices and chunks at once, by recursion on the layer). -/
def xin : ℕ → Dev nD → Fin 4 → FVec F S64x256 .f32
  | 0, c, k => xchunk (I c).x k
  | L + 1, c, k =>
    let hp (d : Dev nD) : FVec F S64x512 .f32 := mmIn (xin L d k) ((I d).win ⟨L % 3, Nat.mod_lt _ (by decide)⟩)
    let hs (d : Dev nD) : FVec F S64x512 .f32 := hsumOf (hp d) (truncf .bf16 (hp (yp d)) bitsLt_bf16_f32)
    let xq (d : Dev nD) : FVec F S64x256 .f32 := mmOut (hs d) ((I d).wout ⟨L % 3, Nat.mod_lt _ (by decide)⟩)
    xsumOf (xq c) (truncf .bf16 (xq (xp c)) bitsLt_bf16_f32)

/-- Half of the first matmul of layer `L`. -/
def hpart (L : Fin 3) (c : Dev nD) (k : Fin 4) : FVec F S64x512 .f32 := mmIn (xin I yp xp L.val c k) ((I c).win L)
/-- The hidden activations of layer `L`: both halves, `max · 0`. -/
def hsum (L : Fin 3) (c : Dev nD) (k : Fin 4) : FVec F S64x512 .f32 :=
  hsumOf (hpart I yp xp L c k) (truncf .bf16 (hpart I yp xp L (yp c) k) bitsLt_bf16_f32)
/-- Half of the second matmul of layer `L`. -/
def xpart (L : Fin 3) (c : Dev nD) (k : Fin 4) : FVec F S64x256 .f32 := mmOut (hsum I yp xp L c k) ((I c).wout L)

theorem xin_succ (L : Fin 3) (c : Dev nD) (k : Fin 4) :
    xin I yp xp (L.val + 1) c k = xsumOf (xpart I yp xp L c k) (truncf .bf16 (xpart I yp xp L (xp c) k) bitsLt_bf16_f32) := by
  have hL : (⟨L.val % 3, Nat.mod_lt _ (by decide)⟩ : Fin 3) = L := Fin.ext (Nat.mod_eq_of_lt L.isLt)
  simp only [xin, xpart, hsum, hpart, hL]

/-- The result array on device `c`: its rows `64 k … 64 k + 63` are `xin 3 c k`. -/
def outArr (c : Dev nD) : Vec F S256x256 .f32 := fun i =>
  xin I yp xp 3 c ⟨(i 0).val / 64, by have := ValueIdx.idx2_lt0 i; omega⟩
    (ValueIdx.ix2 (n0 := 64) (n1 := 256) ⟨(i 0).val % 64, Nat.mod_lt _ (by decide)⟩ (i 1))

end Cert.KernelIdeal.Vals

end
-- ==== Proof.Val.KernelRead.lean ====
import proofs.«901002_g7700000000001003_dist_mlpseq_tp2d_cs_cs_b256_d256_h512_v7x_xy2x2_f32_1_alg».proof.Proof.KernelIdeal.Vals
import proofs.«901002_g7700000000001003_dist_mlpseq_tp2d_cs_cs_b256_d256_h512_v7x_xy2x2_f32_1_alg».proof.Proof.Val.Spec
import Idealize.ShloMosaic.Lib.Pipeline.Value
import Idealize.ShloMosaic.PureOps.Ideal.Laws

/-!
# The values a device computes, read at an index

A row chunk of the device's block of `x`, the two matrix products into zero, and the two sums of an own
half and a received half, each at natural-number coordinates (`at2`).
-/

noncomputable section

open scoped BigOperators

namespace Cert.Val

open Cert.KernelIdeal Cert.KernelIdeal.Gen Cert.KernelIdeal.Vals
open Idealize.ShloMosaic Idealize.ShloMosaic.ValueIdx Idealize.SL.Sem

/-- Row `p` of chunk `k` is row `64 k + p` of the block. -/
theorem xchunk_apply (X : Vec Ideal S256x256 .f32) (k : Fin 4) (p : Fin 64) (q : Fin 256) :
    xchunk X k (ix2 p q) = X (ix2 ⟨64 * k.val + p.val, by omega⟩ q) := by
  unfold xchunk
  refine (congrFun (shapeCast_self (s := S64x256) (α := EReal) _ shapeCasts_S64x256_S64x256) _).trans ?_
  show X _ = X _
  refine congrArg X (funext fun a => Fin.ext ?_)
  match a with
  | ⟨0, _⟩ => show 64 * k.val + 1 * p.val = _; simp
  | ⟨1, _⟩ => show 0 + 1 * q.val = _; simp

theorem at2_xchunk (X : Vec Ideal S256x256 .f32) (k : Fin 4) (a b : Nat) (ha : a < 64) :
    at2 (xchunk X k) a b = at2 X (64 * k.val + a) b := by
  by_cases hb : b < 256
  · rw [at2_of_lt _ a b ha hb, at2_of_lt X (64 * k.val + a) b (by omega) hb]
    exact xchunk_apply X k ⟨a, ha⟩ ⟨b, hb⟩
  · unfold at2
    rw [dif_neg (fun h => hb h.2), dif_neg (fun h => hb h.2)]

/-! ## The first product: `64 × 256` by `256 × 512` -/

theorem lhs_in_0 (i : S64x512.Idx) (q : dot_S64x256_S256x512_S64x512_1_0_0_1_n_n.contr.Idx) :
    (dot_S64x256_S256x512_S64x512_1_0_0_1_n_n.lhsIdx i q 0).val = (i 0).val := by
  unfold DotDims.lhsIdx
  rw [dif_neg (show ¬(0 : Fin S64x256.rank) ∈ dot_S64x256_S256x512_S64x512_1_0_0_1_n_n.lhsBatch by decide), dif_pos (show (0 : Fin S64x256.rank) ∈ dot_S64x256_S256x512_S64x512_1_0_0_1_n_n.lhsNonContracting by decide)]
  rfl
theorem lhs_in_1 (i : S64x512.Idx) (q : dot_S64x256_S256x512_S64x512_1_0_0_1_n_n.contr.Idx) :
    (dot_S64x256_S256x512_S64x512_1_0_0_1_n_n.lhsIdx i q 1).val = (q ⟨0, by decide⟩).val :=
  dot_S64x256_S256x512_S64x512_1_0_0_1_n_n.lhsIdx_val_of_single rfl i q
theorem rhs_in_0 (i : S64x512.Idx) (q : dot_S64x256_S256x512_S64x512_1_0_0_1_n_n.contr.Idx) :
    (dot_S64x256_S256x512_S64x512_1_0_0_1_n_n.rhsIdx i q 0).val = (q ⟨0, by decide⟩).val :=
  dot_S64x256_S256x512_S64x512_1_0_0_1_n_n.rhsIdx_val_of_single rfl i q
theorem rhs_in_1 (i : S64x512.Idx) (q : dot_S64x256_S256x512_S64x512_1_0_0_1_n_n.contr.Idx) :
    (dot_S64x256_S256x512_S64x512_1_0_0_1_n_n.rhsIdx i q 1).val = (i 1).val := by
  unfold DotDims.rhsIdx
  rw [dif_neg (show ¬(1 : Fin S256x512.rank) ∈ dot_S64x256_S256x512_S64x512_1_0_0_1_n_n.rhsBatch by decide), dif_pos (show (1 : Fin S256x512.rank) ∈ dot_S64x256_S256x512_S64x512_1_0_0_1_n_n.rhsNonContracting by decide)]
  rfl

/-- The first product at an index: the sum over the 256 contraction indices. -/
theorem mmIn_apply (xk : FVec Ideal S64x256 .f32) (w : Vec Ideal S256x512 .f32) (i : S64x512.Idx) :
    mmIn xk w i = ∑ t ∈ Finset.range 256, at2 xk (i 0).val t * at2 w t (i 1).val := by
  unfold mmIn
  rw [shapeCast_self]
  simp only [matmul]
  rw [Ideal.matmul_constant_zero_apply, ← Equiv.sum_comp (contrEquiv1 dot_S64x256_S256x512_S64x512_1_0_0_1_n_n 256 rfl rfl).symm,
    ← sum_fin_eq_range 256 (fun t => at2 xk (i 0).val t * at2 w t (i 1).val)]
  refine Finset.sum_congr rfl fun k _ => ?_
  have hk := contrEquiv1_symm_val dot_S64x256_S256x512_S64x512_1_0_0_1_n_n 256 rfl rfl k
  have el : dot_S64x256_S256x512_S64x512_1_0_0_1_n_n.lhsIdx i ((contrEquiv1 dot_S64x256_S256x512_S64x512_1_0_0_1_n_n 256 rfl rfl).symm k) = ix2 ⟨(i 0).val, (i 0).isLt⟩ ⟨k.val, k.isLt⟩ := funext fun a => Fin.ext (by
    match a with
    | ⟨0, _⟩ => exact lhs_in_0 _ _
    | ⟨1, _⟩ => exact (lhs_in_1 _ _).trans hk)
  have er : dot_S64x256_S256x512_S64x512_1_0_0_1_n_n.rhsIdx i ((contrEquiv1 dot_S64x256_S256x512_S64x512_1_0_0_1_n_n 256 rfl rfl).symm k) = ix2 ⟨k.val, k.isLt⟩ ⟨(i 1).val, (i 1).isLt⟩ := funext fun a => Fin.ext (by
    match a with
    | ⟨0, _⟩ => exact (rhs_in_0 _ _).trans hk
    | ⟨1, _⟩ => exact rhs_in_1 _ _)
  rw [el, er, at2_of_lt xk (i 0).val k.val (i 0).isLt k.isLt, at2_of_lt w k.val (i 1).val k.isLt (i 1).isLt]
  rfl

/-! ## The second product: `64 × 512` by `512 × 256` -/

theorem lhs_out_0 (i : S64x256.Idx) (q : dot_S64x512_S512x256_S64x256_1_0_0_1_n_n.contr.Idx) :
    (dot_S64x512_S512x256_S64x256_1_0_0_1_n_n.lhsIdx i q 0).val = (i 0).val := by
  unfold DotDims.lhsIdx
  rw [dif_neg (show ¬(0 : Fin S64x512.rank) ∈ dot_S64x512_S512x256_S64x256_1_0_0_1_n_n.lhsBatch by decide), dif_pos (show (0 : Fin S64x512.rank) ∈ dot_S64x512_S512x256_S64x256_1_0_0_1_n_n.lhsNonContracting by decide)]
  rfl
theorem lhs_out_1 (i : S64x256.Idx) (q : dot_S64x512_S512x256_S64x256_1_0_0_1_n_n.contr.Idx) :
    (dot_S64x512_S512x256_S64x256_1_0_0_1_n_n.lhsIdx i q 1).val = (q ⟨0, by decide⟩).val :=
  dot_S64x512_S512x256_S64x256_1_0_0_1_n_n.lhsIdx_val_of_single rfl i q
theorem rhs_out_0 (i : S64x256.Idx) (q : dot_S64x512_S512x256_S64x256_1_0_0_1_n_n.contr.Idx) :
    (dot_S64x512_S512x256_S64x256_1_0_0_1_n_n.rhsIdx i q 0).val = (q ⟨0, by decide⟩).val :=
  dot_S64x512_S512x256_S64x256_1_0_0_1_n_n.rhsIdx_val_of_single rfl i q
theorem rhs_out_1 (i : S64x256.Idx) (q : dot_S64x512_S512x256_S64x256_1_0_0_1_n_n.contr.Idx) :
    (dot_S64x512_S512x256_S64x256_1_0_0_1_n_n.rhsIdx i q 1).val = (i 1).val := by
  unfold DotDims.rhsIdx
  rw [dif_neg (show ¬(1 : Fin S512x256.rank) ∈ dot_S64x512_S512x256_S64x256_1_0_0_1_n_n.rhsBatch by decide), dif_pos (show (1 : Fin S512x256.rank) ∈ dot_S64x512_S512x256_S64x256_1_0_0_1_n_n.rhsNonContracting by decide)]
  rfl

/-- The second product at an index: the sum over the 512 contraction indices. -/
theorem mmOut_apply (h : FVec Ideal S64x512 .f32) (w : Vec Ideal S512x256 .f32) (i : S64x256.Idx) :
    mmOut h w i = ∑ t ∈ Finset.range 512, at2 h (i 0).val t * at2 w t (i 1).val := by
  unfold mmOut
  rw [shapeCast_self]
  simp only [matmul]
  rw [Ideal.matmul_constant_zero_apply, ← Equiv.sum_comp (contrEquiv1 dot_S64x512_S512x256_S64x256_1_0_0_1_n_n 512 rfl rfl).symm,
    ← sum_fin_eq_range 512 (fun t => at2 h (i 0).val t * at2 w t (i 1).val)]
  refine Finset.sum_congr rfl fun k _ => ?_
  have hk := contrEquiv1_symm_val dot_S64x512_S512x256_S64x256_1_0_0_1_n_n 512 rfl rfl k
  have el : dot_S64x512_S512x256_S64x256_1_0_0_1_n_n.lhsIdx i ((contrEquiv1 dot_S64x512_S512x256_S64x256_1_0_0_1_n_n 512 rfl rfl).symm k) = ix2 ⟨(i 0).val, (i 0).isLt⟩ ⟨k.val, k.isLt⟩ := funext fun a => Fin.ext (by
    match a with
    | ⟨0, _⟩ => exact lhs_out_0 _ _
    | ⟨1, _⟩ => exact (lhs_out_1 _ _).trans hk)
  have er : dot_S64x512_S512x256_S64x256_1_0_0_1_n_n.rhsIdx i ((contrEquiv1 dot_S64x512_S512x256_S64x256_1_0_0_1_n_n 512 rfl rfl).symm k) = ix2 ⟨k.val, k.isLt⟩ ⟨(i 1).val, (i 1).isLt⟩ := funext fun a => Fin.ext (by
    match a with
    | ⟨0, _⟩ => exact (rhs_out_0 _ _).trans hk
    | ⟨1, _⟩ => exact rhs_out_1 _ _)
  rw [el, er, at2_of_lt h (i 0).val k.val (i 0).isLt k.isLt, at2_of_lt w k.val (i 1).val k.isLt (i 1).isLt]
  rfl

/-! ## The sums of an own half and a received half -/

theorem hsumOf_apply (hl hr : FVec Ideal S64x512 .f32) (i : S64x512.Idx) :
    hsumOf hl (truncf .bf16 hr bitsLt_bf16_f32) i = max (hl i + hr i) 0 := by
  show max (hl i + hr i) (Ideal.ofBits .f32 0x00000000#32) = _
  rw [Ideal.ofBits_zero_f32]

theorem xsumOf_apply (xl xr : FVec Ideal S64x256 .f32) (i : S64x256.Idx) :
    xsumOf xl (truncf .bf16 xr bitsLt_bf16_f32) i = xl i + xr i := rfl

end Cert.Val

end
-- ==== Proof.Val.LayerKernel.lean ====
import proofs.«901002_g7700000000001003_dist_mlpseq_tp2d_cs_cs_b256_d256_h512_v7x_xy2x2_f32_1_alg».proof.Proof.KernelIdeal.Proto
import proofs.«901002_g7700000000001003_dist_mlpseq_tp2d_cs_cs_b256_d256_h512_v7x_xy2x2_f32_1_alg».proof.Proof.Val.KernelRead

/-!
# One layer on the four devices

Device `c = 2 cx + cy` holds rows `64 k …`, columns `256 cy …` of the layer's input `A`, rows `256 cy …`,
columns `512 cx …` of `Wi`, rows `512 cx …`, columns `256 cy …` of `Wo`. Its first product is the half
`s ∈ [256 cy, 256 cy + 256)` of the contraction of `A · Wi`; the row mate (same `cx`, other `cy`) has the other
half, so the sum of the two, `max · 0`, is `hid A Wi` at columns `512 cx …`. Its second product is the half
`t ∈ [512 cx, 512 cx + 512)` of the contraction of `hid · Wo`; the column mate (other `cx`, same `cy`) has the
other half, so the sum of the two is the layer's output at rows `64 k …`, columns `256 cy …`.
-/

noncomputable section

open scoped BigOperators

namespace Cert.Val

open Cert.KernelIdeal Cert.KernelIdeal.Gen Cert.KernelIdeal.Vals Cert.KernelIdeal.Proto
open Idealize.ShloMosaic Idealize.ShloMosaic.ValueIdx Idealize.SL.Sem

/-! ## The mates' coordinates -/

theorem yp_cy (d : Dev nD) : d.val % 2 + (yp d).val % 2 = 1 := by revert d; decide
theorem yp_cx (d : Dev nD) : (yp d).val / 2 = d.val / 2 := by revert d; decide
theorem xp_cx (d : Dev nD) : d.val / 2 + (xp d).val / 2 = 1 := by revert d; decide
theorem xp_cy (d : Dev nD) : (xp d).val % 2 = d.val % 2 := by revert d; decide

/-! ## The operations at natural-number coordinates -/

theorem at2_mmIn (xk : FVec Ideal S64x256 .f32) (w : Vec Ideal S256x512 .f32) (a t : Nat) (ha : a < 64) (ht : t < 512) :
    at2 (mmIn xk w) a t = ∑ s ∈ Finset.range 256, at2 xk a s * at2 w s t := by
  rw [at2_of_lt _ a t ha ht]
  exact mmIn_apply xk w (ix2 ⟨a, ha⟩ ⟨t, ht⟩)

theorem at2_mmOut (h : FVec Ideal S64x512 .f32) (w : Vec Ideal S512x256 .f32) (a q : Nat) (ha : a < 64) (hq : q < 256) :
    at2 (mmOut h w) a q = ∑ t ∈ Finset.range 512, at2 h a t * at2 w t q := by
  rw [at2_of_lt _ a q ha hq]
  exact mmOut_apply h w (ix2 ⟨a, ha⟩ ⟨q, hq⟩)

theorem at2_hsumOf (hl hr : FVec Ideal S64x512 .f32) (a t : Nat) (ha : a < 64) (ht : t < 512) :
    at2 (hsumOf hl (truncf .bf16 hr bitsLt_bf16_f32)) a t = max (at2 hl a t + at2 hr a t) 0 := by
  rw [at2_of_lt _ a t ha ht, at2_of_lt hl a t ha ht, at2_of_lt hr a t ha ht]
  exact hsumOf_apply hl hr _

theorem at2_xsumOf (xl xr : FVec Ideal S64x256 .f32) (a q : Nat) (ha : a < 64) (hq : q < 256) :
    at2 (xsumOf xl (truncf .bf16 xr bitsLt_bf16_f32)) a q = at2 xl a q + at2 xr a q := by
  rw [at2_of_lt _ a q ha hq, at2_of_lt xl a q ha hq, at2_of_lt xr a q ha hq]
  exact xsumOf_apply xl xr _

/-! ## One layer, from every device's input chunk and weight blocks -/

/-- Half of the first product. -/
def stepH (xinL : Dev nD → FVec Ideal S64x256 .f32) (win : Dev nD → Vec Ideal S256x512 .f32) (d : Dev nD) : FVec Ideal S64x512 .f32 :=
  mmIn (xinL d) (win d)
/-- Both halves, `max · 0`. -/
def stepS (xinL : Dev nD → FVec Ideal S64x256 .f32) (win : Dev nD → Vec Ideal S256x512 .f32) (d : Dev nD) : FVec Ideal S64x512 .f32 :=
  hsumOf (stepH xinL win d) (truncf .bf16 (stepH xinL win (yp d)) bitsLt_bf16_f32)
/-- Half of the second product. -/
def stepQ (xinL : Dev nD → FVec Ideal S64x256 .f32) (win : Dev nD → Vec Ideal S256x512 .f32) (wout : Dev nD → Vec Ideal S512x256 .f32)
    (d : Dev nD) : FVec Ideal S64x256 .f32 :=
  mmOut (stepS xinL win d) (wout d)
/-- Both halves: the next layer's input chunk. -/
def stepX (xinL : Dev nD → FVec Ideal S64x256 .f32) (win : Dev nD → Vec Ideal S256x512 .f32) (wout : Dev nD → Vec Ideal S512x256 .f32)
    (c : Dev nD) : FVec Ideal S64x256 .f32 :=
  xsumOf (stepQ xinL win wout c) (truncf .bf16 (stepQ xinL win wout (xp c)) bitsLt_bf16_f32)

section
variable (A : (⟨2, ![256, 512]⟩ : Shape).Idx → EReal) (Wi : (⟨2, ![512, 1024]⟩ : Shape).Idx → EReal)
  (Wo : (⟨2, ![1024, 512]⟩ : Shape).Idx → EReal)
  (xinL : Dev nD → FVec Ideal S64x256 .f32) (win : Dev nD → Vec Ideal S256x512 .f32) (wout : Dev nD → Vec Ideal S512x256 .f32)
  (k : Nat)
  (hxin : ∀ d a b, a < 64 → b < 256 → at2 (xinL d) a b = at2 A (64 * k + a) (256 * (d.val % 2) + b))
  (hwin : ∀ d a b, a < 256 → b < 512 → at2 (win d) a b = at2 Wi (256 * (d.val % 2) + a) (512 * (d.val / 2) + b))
  (hwout : ∀ d a b, a < 512 → b < 256 → at2 (wout d) a b = at2 Wo (512 * (d.val / 2) + a) (256 * (d.val % 2) + b))

include hxin hwin in
/-- A device's first product is its half of the contraction of `A · Wi`. -/
theorem stepH_eq (d : Dev nD) (a t : Nat) (ha : a < 64) (ht : t < 512) :
    at2 (stepH xinL win d) a t
      = ∑ s ∈ Finset.range 256, (fun s => at2 A (64 * k + a) s * at2 Wi s (512 * (d.val / 2) + t)) (256 * (d.val % 2) + s) := by
  unfold stepH
  rw [at2_mmIn _ _ a t ha ht]
  refine Finset.sum_congr rfl fun s hs => ?_
  have hs' : s < 256 := Finset.mem_range.mp hs
  rw [hxin d a s ha hs', hwin d s t hs' ht]

include hxin hwin in
/-- The sum of the two row mates' halves, `max · 0`, is the hidden activations at columns `512 cx …`. -/
theorem stepS_eq (d : Dev nD) (a t : Nat) (ha : a < 64) (ht : t < 512) :
    at2 (stepS xinL win d) a t = hid A Wi (64 * k + a) (512 * (d.val / 2) + t) := by
  unfold stepS
  rw [at2_hsumOf _ _ a t ha ht, stepH_eq A Wi xinL win k hxin hwin d a t ha ht, stepH_eq A Wi xinL win k hxin hwin (yp d) a t ha ht, yp_cx d]
  unfold hid
  rw [sum_halves 256 (fun s => at2 A (64 * k + a) s * at2 Wi s (512 * (d.val / 2) + t)) (d.val % 2) ((yp d).val % 2) (yp_cy d)]

include hxin hwin hwout in
/-- A device's second product is its half of the contraction of `hid · Wo`. -/
theorem stepQ_eq (d : Dev nD) (a q : Nat) (ha : a < 64) (hq : q < 256) :
    at2 (stepQ xinL win wout d) a q
      = ∑ t ∈ Finset.range 512, (fun t => hid A Wi (64 * k + a) t * at2 Wo t (256 * (d.val % 2) + q)) (512 * (d.val / 2) + t) := by
  unfold stepQ
  rw [at2_mmOut _ _ a q ha hq]
  refine Finset.sum_congr rfl fun t ht => ?_
  have ht' : t < 512 := Finset.mem_range.mp ht
  rw [stepS_eq A Wi xinL win k hxin hwin d a t ha ht', hwout d t q ht' hq]

include hxin hwin hwout in
/-- The sum of the two column mates' halves is the layer's output at rows `64 k …`, columns `256 cy …`. -/
theorem stepX_eq (hk : k < 4) (c : Dev nD) (a q : Nat) (ha : a < 64) (hq : q < 256) :
    at2 (stepX xinL win wout c) a q = at2 (layerSpec A Wi Wo) (64 * k + a) (256 * (c.val % 2) + q) := by
  unfold stepX
  rw [at2_xsumOf _ _ a q ha hq, stepQ_eq A Wi Wo xinL win wout k hxin hwin hwout c a q ha hq,
    stepQ_eq A Wi Wo xinL win wout k hxin hwin hwout (xp c) a q ha hq, xp_cy c,
    sum_halves 512 (fun t => hid A Wi (64 * k + a) t * at2 Wo t (256 * (c.val % 2) + q)) (c.val / 2) ((xp c).val / 2) (xp_cx c),
    at2_layerSpec A Wi Wo _ _ (by omega) (by omega)]
  rfl

end

end Cert.Val

end
-- ==== Proof.Val.Bridge.lean ====
import proofs.«901002_g7700000000001003_dist_mlpseq_tp2d_cs_cs_b256_d256_h512_v7x_xy2x2_f32_1_alg».proof.Proof.Val.RefIsSpec
import proofs.«901002_g7700000000001003_dist_mlpseq_tp2d_cs_cs_b256_d256_h512_v7x_xy2x2_f32_1_alg».proof.Proof.Val.Blocks
import proofs.«901002_g7700000000001003_dist_mlpseq_tp2d_cs_cs_b256_d256_h512_v7x_xy2x2_f32_1_alg».proof.Proof.Val.LayerKernel

/-!
# The devices' result is their block of the reference's

By induction on the layer, chunk `k` of device `c`'s input of layer `L` is rows `64 k …`, columns
`256 (c % 2) …` of the reference's input of layer `L`; the result is the input of layer 3.
-/

noncomputable section

open scoped BigOperators

namespace Cert.Val

open Cert.KernelIdeal Cert.KernelIdeal.Gen Cert.KernelIdeal.Vals Cert.KernelIdeal.Proto
open Idealize.ShloMosaic Idealize.ShloMosaic.ValueIdx Idealize.SL.Sem

section
variable (I : Dev nD → Ins Ideal)
variable (X : Vec Ideal Cert.ReferenceIdeal.S256x512 .f32) (Wi : Fin 3 → Vec Ideal Cert.ReferenceIdeal.S512x1024 .f32)
  (Wo : Fin 3 → Vec Ideal Cert.ReferenceIdeal.S1024x512 .f32)

/-- The reference's input of layer `L` (its result at `L = 3`). -/
def layerInput : Nat → (⟨2, ![256, 512]⟩ : Shape).Idx → EReal
  | 0 => X
  | L + 1 => layerSpec (layerInput L) (Wi ⟨L % 3, Nat.mod_lt _ (by decide)⟩) (Wo ⟨L % 3, Nat.mod_lt _ (by decide)⟩)

theorem refTerm_eq_layerInput : refTerm X Wi Wo = layerInput X Wi Wo 3 := by
  rw [refTerm_eq, layerRef_eq_spec, layerRef_eq_spec, layerRef_eq_spec]
  rfl

variable
  (hx : ∀ c, (I c).x = Layout.blockN ⟨2, ![256, 256]⟩ ⟨2, ![256, 512]⟩ (Layout.meshBlock [2, 2] ![[], [1]] c) X)
  (hwi : ∀ L c, (I c).win L = Layout.blockN ⟨2, ![256, 512]⟩ ⟨2, ![512, 1024]⟩ (Layout.meshBlock [2, 2] ![[1], [0]] c) (Wi L))
  (hwo : ∀ L c, (I c).wout L = Layout.blockN ⟨2, ![512, 256]⟩ ⟨2, ![1024, 512]⟩ (Layout.meshBlock [2, 2] ![[0], [1]] c) (Wo L))

theorem xin_succ_step (L : Nat) (c : Dev nD) (k : Fin 4) :
    xin I yp xp (L + 1) c k = stepX (fun d => xin I yp xp L d k) (fun d => (I d).win ⟨L % 3, Nat.mod_lt _ (by decide)⟩)
      (fun d => (I d).wout ⟨L % 3, Nat.mod_lt _ (by decide)⟩) c := rfl

include hx hwi hwo in
/-- Chunk `k` of device `c`'s input of layer `L` is rows `64 k …`, columns `256 (c % 2) …` of the reference's. -/
theorem xin_eq (L : Nat) : ∀ (c : Dev nD) (k : Fin 4) (a b : Nat), a < 64 → b < 256 →
    at2 (xin I yp xp L c k) a b = at2 (layerInput X Wi Wo L) (64 * k.val + a) (256 * (c.val % 2) + b) := by
  induction L with
  | zero =>
    intro c k a b ha hb
    show at2 (xchunk (I c).x k) a b = at2 X _ _
    rw [at2_xchunk _ k a b ha, hx c]
    exact at2_block_x X c _ b (by have := k.isLt; omega) hb
  | succ L ih =>
    intro c k a b ha hb
    rw [xin_succ_step]
    exact stepX_eq (layerInput X Wi Wo L) (Wi ⟨L % 3, Nat.mod_lt _ (by decide)⟩) (Wo ⟨L % 3, Nat.mod_lt _ (by decide)⟩) _ _ _ k.val
      (fun d a b ha hb => ih d k a b ha hb)
      (fun d a b ha hb => by rw [hwi _ d]; exact at2_block_win _ d a b ha hb)
      (fun d a b ha hb => by rw [hwo _ d]; exact at2_block_wout _ d a b ha hb)
      k.isLt c a b ha hb

include hx hwi hwo in
/-- Every device ends with its block of the reference's result. -/
theorem value_bridge (c : Dev nD) :
    outArr I yp xp c = Layout.blockN ⟨2, ![256, 256]⟩ ⟨2, ![256, 512]⟩ (Layout.meshBlock [2, 2] ![[], [1]] c) (refTerm X Wi Wo) := by
  funext i
  have h0 : (i 0).val < 256 := idx2_lt0 i
  have h1 : (i 1).val < 256 := idx2_lt1 i
  rw [refTerm_eq_layerInput]
  refine Eq.trans ?_ (at2_idx _ i)
  rw [at2_block_x _ c _ _ h0 h1]
  refine Eq.trans (at2_of_lt (xin I yp xp 3 c ⟨(i 0).val / 64, by omega⟩) ((i 0).val % 64) (i 1).val (Nat.mod_lt _ (by decide)) h1).symm ?_
  rw [xin_eq I X Wi Wo hx hwi hwo 3 c _ _ _ (Nat.mod_lt _ (by decide)) h1]
  exact at2_congr _ (Nat.div_add_mod _ 64) rfl

end

end Cert.Val

end
-- ==== Proof.KernelIdeal.Sched.lean ====
import proofs.«901002_g7700000000001003_dist_mlpseq_tp2d_cs_cs_b256_d256_h512_v7x_xy2x2_f32_1_alg».proof.Proof.KernelIdeal.Proto
import proofs.«901002_g7700000000001003_dist_mlpseq_tp2d_cs_cs_b256_d256_h512_v7x_xy2x2_f32_1_alg».proof.Proof.KernelIdeal.Vals

/-!
# The schedule of the exchange

Every cell has one round. A device's barrier cell has two duties of one unit: `false`, paid by its row mate, which
hands over the row mate's landing buffer of the first matmuls' halves; `true`, paid by its column mate, which hands
over the column mate's landing buffer of the second matmuls' halves. The send cell `(s, k)` has one duty, the
transfer's credit, which returns the sent slab; the receive cell `(s, k)` one duty, the transfer's credit, which
hands the owner its landing slab holding what the mate of stage `s` sent: the mate's half product, cast to bf16.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What the staging buffers hold: the device's argument arrays -/

def stgX (c : Dev nD) : Vec F S256x256 .f32 := (win0_0.blk (0 : Fin 1)).view.read (Elt F) (m ((c : Thread nD τ).loc main_arg0))
def stgWin (L : Fin 3) (c : Dev nD) : Vec F S256x512 .f32 :=
  match L with
  | 0 => (win0_1.blk (0 : Fin 1)).view.read (Elt F) (m ((c : Thread nD τ).loc main_arg1))
  | 1 => (win0_3.blk (0 : Fin 1)).view.read (Elt F) (m ((c : Thread nD τ).loc main_arg3))
  | 2 => (win0_5.blk (0 : Fin 1)).view.read (Elt F) (m ((c : Thread nD τ).loc main_arg5))
def stgWout (L : Fin 3) (c : Dev nD) : Vec F S512x256 .f32 :=
  match L with
  | 0 => (win0_2.blk (0 : Fin 1)).view.read (Elt F) (m ((c : Thread nD τ).loc main_arg2))
  | 1 => (win0_4.blk (0 : Fin 1)).view.read (Elt F) (m ((c : Thread nD τ).loc main_arg4))
  | 2 => (win0_6.blk (0 : Fin 1)).view.read (Elt F) (m ((c : Thread nD τ).loc main_arg6))

/-- Device `c`'s argument arrays as its staging buffers hold them. -/
def insOf (c : Dev nD) : Vals.Ins F := ⟨stgX m c, fun L => stgWin m L c, fun L => stgWout m L c⟩

/-- The layer of a stage. -/
def layerOf (s : Fin 6) : Fin 3 := ⟨s.val / 2, by have := s.isLt; omega⟩

/-- What device `c` sends at an even stage, chunk `k`: its half of the first matmul of the layer, cast to bf16. -/
def hSent (L : Fin 3) (c : Dev nD) (k : Fin 4) : FVec F S64x512 .bf16 :=
  truncf .bf16 (Vals.hpart (insOf m) yp xp L c k) bitsLt_bf16_f32
/-- What device `c` sends at an odd stage, chunk `k`: its half of the second matmul of the layer, cast to bf16. -/
def xSent (L : Fin 3) (c : Dev nD) (k : Fin 4) : FVec F S64x256 .bf16 :=
  truncf .bf16 (Vals.xpart (insOf m) yp xp L c k) bitsLt_bf16_f32

/-! ## Points-to of the slabs -/

/-- Device `c` holds the elements a memref names of its buffer, at contents `f`. -/
def slab {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

omit [FloatOps F] in
instance slab_storable {sp : Space} {s : Shape} {e : EltTy} (M : Memref sig .tc sp s e) (c : Dev nD) (f) :
    BI.Storable (upEmb : UEmb _ 𝕄) (slab (F := F) M c f) := by unfold slab; infer_instance

/-- The landing slab of transfer `(s, k)` on device `c`, holding what the stage's mate sent. -/
def landed (s : Fin 6) (k : Fin 4) (c : Dev nD) : sProp 𝕄 :=
  if s.val % 2 = 0 then
    iprop(∃ f, slab (hRcvSl (layerOf s) k) c f ∗ ⌜(hRcvSl (layerOf s) k).view.read (Elt F) f = hSent m (layerOf s) (mate s c) k⌝)
  else
    iprop(∃ f, slab (xRcvSl (layerOf s) k) c f ∗ ⌜(xRcvSl (layerOf s) k).view.read (Elt F) f = xSent m (layerOf s) (mate s c) k⌝)

/-- The sent slab of transfer `(s, k)` on device `c`, back at some contents. -/
def returned (s : Fin 6) (k : Fin 4) (c : Dev nD) : sProp 𝕄 :=
  if s.val % 2 = 0 then iprop(∃ f, slab (hSndSl (layerOf s) k) c f) else iprop(∃ f, slab (xSndSl (layerOf s) k) c f)

/-- The credit of transfer `(s, k)`. -/
def amt (s : Fin 6) (k : Fin 4) : ℕ :=
  if s.val % 2 = 0 then (hRcvSl (layerOf s) k).view.dmaCredit else (xRcvSl (layerOf s) k).view.dmaCredit

/-- What the row mate's barrier signal hands device `c`: the row mate's whole landing buffer of the first matmuls. -/
def barPayY (c : Dev nD) : sProp 𝕄 := iprop(∃ f, slab hRcv (yp c) f)
/-- What the column mate's barrier signal hands device `c`: the column mate's whole landing buffer of the second matmuls. -/
def barPayX (c : Dev nD) : sProp 𝕄 := iprop(∃ f, slab xRcv (xp c) f)

/-- The transfer of the `n`-th semaphore of a `6 × 4` array, row-major. -/
def skOf (n : ℕ) : Fin 6 × Fin 4 := (⟨(n / 4) % 6, Nat.mod_lt _ (by decide)⟩, ⟨n % 4, Nat.mod_lt _ (by decide)⟩)

theorem skOf_snd (s : Fin 6) (k : Fin 4) : skOf ((sndSem s k).val - 8) = (s, k) := by revert s k; decide
theorem skOf_rcv (s : Fin 6) (k : Fin 4) : skOf ((rcvSem s k).val - 32) = (s, k) := by revert s k; decide
theorem sndSem_lt (s : Fin 6) (k : Fin 4) : 8 ≤ (sndSem s k).val ∧ (sndSem s k).val < 32 := by revert s k; decide
theorem rcvSem_ge (s : Fin 6) (k : Fin 4) : 32 ≤ (rcvSem s k).val := by revert s k; decide

theorem amt_pos (s : Fin 6) (k : Fin 4) : 0 < amt s k := by
  unfold amt; split
  · exact View.dmaCredit_pos _ (by decide)
  · exact View.dmaCredit_pos _ (by decide)

/-- The units of a cell's one duty: one for a barrier signal, the transfer's credit for a DMA semaphore. -/
def amtOf : SemLoc sig → ℕ
  | .reg _ => 1
  | .dma q => if 32 ≤ q.val then amt (skOf (q.val - 32)).1 (skOf (q.val - 32)).2 else amt (skOf (q.val - 8)).1 (skOf (q.val - 8)).2

theorem amtOf_pos (sm : SemLoc sig) : 0 < amtOf sm := by
  cases sm with
  | reg _ => exact Nat.one_pos
  | dma q =>
    show 0 < (if 32 ≤ q.val then amt (skOf (q.val - 32)).1 (skOf (q.val - 32)).2 else amt (skOf (q.val - 8)).1 (skOf (q.val - 8)).2)
    split <;> exact amt_pos _ _

/-- What a cell's duty hands its owner. -/
def payOf (c : Dev nD) (d : Bool) : SemLoc sig → sProp 𝕄
  | .reg r => if r = barS then (if d then barPayX c else barPayY c) else iprop(emp)
  | .dma q =>
    if 32 ≤ q.val then landed m (skOf (q.val - 32)).1 (skOf (q.val - 32)).2 c
    else if 8 ≤ q.val then returned (skOf (q.val - 8)).1 (skOf (q.val - 8)).2 c
    else iprop(emp)

/-- The duties of a cell's round 0: both mates' signals for the barrier, the one credit for a transfer's semaphore. -/
def dutiesOf : SemLoc sig → Finset Bool
  | .reg r => if r = barS then Finset.univ else ∅
  | .dma q => if 8 ≤ q.val then {false} else ∅

/-- One round, round 0, on the TensorCores' cells. -/
def Rd : Rounds.Schedule (GSem nD τ sig) Bool 𝕄 where
  duties g r := if r = 0 ∧ g.1.2 = .tc then dutiesOf g.2 else ∅
  unitless _ := False
  amount g _ _ := amtOf g.2
  payload g _ d := payOf m g.1.1 d g.2
  amount_pos g _ _ _ := amtOf_pos g.2

end Cert.KernelIdeal.Proto

end
-- ==== Proof.KernelIdeal.State.lean ====
import proofs.«901002_g7700000000001003_dist_mlpseq_tp2d_cs_cs_b256_d256_h512_v7x_xy2x2_f32_1_alg».proof.Proof.KernelIdeal.Sched

/-!
# What a device owes, the levels, the ghost state and the pipeline's proof data

A device owes, from launch, one unit to each mate's barrier cell and, for every transfer `(s, k)`, the transfer's
credit to the receive cell `(s, k)` of the stage's mate. Levels: staging and send cells 0, barrier cells 1, the
receive cell `(s, k)` at `2 + 4 s + k`: a device waits on the receive cell of `(s, k)` only after it has issued every
transfer before `(s + 1, k)`, so what it still owes then lies strictly above.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A transfer: stage and row chunk. -/
abbrev T : Type := Fin 6 × Fin 4

/-- The cells of one device: its barrier cell, a send and a receive cell per transfer. -/
inductive CI where
  | bar
  | snd (t : T)
  | rcv (t : T)
  deriving DecidableEq, Fintype

def csem : CI → SemLoc sig
  | .bar => .reg barS
  | .snd t => .dma (sndSem t.1 t.2)
  | .rcv t => .dma (rcvSem t.1 t.2)

abbrev kcell (ck : Dev nD × CI) : GSem nD τ sig := ((ck.1 : Thread nD τ), csem ck.2)

/-! ## What each device owes at launch; the levels -/

/-- The transfers' credits device `c` owes the mates' receive cells. -/
def OX (c : Dev nD) : CellTallies nD τ sig Unit := ∑ t : T, tallyAt (rcvCell (mate t.1 c) t.1 t.2) () (amt t.1 t.2)
/-- After the first signal (to the row mate) device `c` still owes the column mate's barrier cell a unit, and the credits. -/
def O₁ (c : Dev nD) : CellTallies nD τ sig Unit := OX c + tallyAt (barCell (xp c)) () 1
/-- At launch: also the row mate's barrier cell a unit (the first signal peels the last summand). -/
def O₀ (c : Dev nD) : CellTallies nD τ sig Unit := O₁ c + tallyAt (barCell (yp c)) () 1

def L (g : GSem nD τ sig) : Finset Unit := if g.1.2 = .tc then {()} else ∅
/-- Staging and send cells at 0, barrier cells at 1, the receive cell of `(s, k)` at `2 + 4 s + k`. -/
def lv (g : GSem nD τ sig) (_ : Unit) : ℕ :=
  match g.2 with
  | .reg _ => 1
  | .dma q => if 32 ≤ q.val then q.val - 30 else 0

/-! ## The ghost state -/

/-- Every cell's invariant, under the names `K` the launch allocated them at, and that every cell has reached round 0. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

/-- Device `c`'s positions at round 0 of its own cells. -/
def positions (c : Dev nD) : sProp 𝕄 :=
  iprop(atPos ER (barCell c) 0 ∅ 0
    ∗ bigSep Finset.univ fun t : T => iprop(atPos ER (sndCell c t.1 t.2) 0 ∅ 0 ∗ atPos ER (rcvCell c t.1 t.2) 0 ∅ 0))

/-- The tokens of the duties device `c` pays: the row mate's barrier duty `false`, the column mate's barrier duty `true`,
    and per transfer its own send duty and the stage's mate's receive duty. -/
def payToks (c : Dev nD) : sProp 𝕄 :=
  iprop(dutyTok ER (barCell (yp c)) 0 false ∗ dutyTok ER (barCell (xp c)) 0 true
    ∗ bigSep Finset.univ fun t : T => iprop(dutyTok ER (sndCell c t.1 t.2) 0 false ∗ dutyTok ER (rcvCell (mate t.1 c) t.1 t.2) 0 false))

def ghost (K : Dev nD × CI → ℕ) (c : Dev nD) : sProp 𝕄 := iprop(records m K ∗ positions c ∗ payToks c)

/-- The credit tokens device `c` is dealt at launch: its barrier's two units, each receive cell's credit. -/
def creds (c : Dev nD) : sProp 𝕄 :=
  iprop(cred (tallyAt (barCell c) () 2) ∗ bigSep Finset.univ fun t : T => cred (tallyAt (rcvCell c t.1 t.2) () (amt t.1 t.2)))

/-- What device `c`'s body starts from, beside its buffers. -/
def start (c : Dev nD) : sProp 𝕄 := iprop((∃ K, ghost m K c) ∗ creds c ∗ levAts L lv)

/-- The six scratch buffers, each whole at some contents. -/
def scratch (c : Dev nD) : sProp 𝕄 :=
  iprop((∃ f, slab hLoc c f) ∗ (∃ f, slab hSnd c f) ∗ (∃ f, slab hRcv c f) ∗ (∃ f, slab xLoc c f) ∗ (∃ f, slab xSnd c f) ∗ (∃ f, slab xRcv c f))

/-- The own DMA semaphores at zero, closed. -/
def semsZero (c : Dev nD) : sProp 𝕄 :=
  bigSep Finset.univ fun t : T => iprop(semVal (sndCell c t.1 t.2) 0 ∗ semVal (rcvCell c t.1 t.2) 0)

def Φ₀ (c : Dev nD) : sProp 𝕄 := iprop(start m c ∗ scratch c)
def Φ₁ (c : Dev nD) : sProp 𝕄 := iprop(scratch c ∗ semsZero c)

/-! ## The pipeline's proof data -/

/-- The result on device `c`. -/
def outAt (c : Dev nD) : Vec F S256x256 .f32 := Vals.outArr (insOf m) yp xp c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m c
    | ⟨1, _⟩ => stgWin m 0 c
    | ⟨2, _⟩ => stgWout m 0 c
    | ⟨3, _⟩ => stgWin m 1 c
    | ⟨4, _⟩ => stgWout m 1 c
    | ⟨5, _⟩ => stgWin m 2 c
    | ⟨6, _⟩ => stgWout m 2 c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.KernelIdeal.Tables.lean ====
import proofs.«901002_g7700000000001003_dist_mlpseq_tp2d_cs_cs_b256_d256_h512_v7x_xy2x2_f32_1_alg».proof.Proof.KernelIdeal.State

/-!
# The schedule's tables, the levels and the launch credit

Per cell of the exchange: the duties, amounts and payloads of its one round as equations; that the levels put every
cell a device waits on strictly below what the device still owes at that wait; and that the credit the launch deals a
device is its barrier cell's two units and each of its receive cells' transfer credit.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

theorem duties_bar (c : Dev nD) : (Rd (F := F) m).duties (barCell c) 0 = Finset.univ := by
  dsimp only [Rd]; rw [if_pos ⟨rfl, rfl⟩]
  show (if (barS : Sem sig) = barS then (Finset.univ : Finset Bool) else ∅) = Finset.univ
  exact if_pos rfl
theorem duties_snd (c : Dev nD) (s : Fin 6) (k : Fin 4) : (Rd (F := F) m).duties (sndCell c s k) 0 = {false} := by
  dsimp only [Rd]; rw [if_pos ⟨rfl, rfl⟩]
  show (if 8 ≤ (sndSem s k).val then ({false} : Finset Bool) else ∅) = {false}
  exact if_pos (sndSem_lt s k).1
theorem duties_rcv (c : Dev nD) (s : Fin 6) (k : Fin 4) : (Rd (F := F) m).duties (rcvCell c s k) 0 = {false} := by
  dsimp only [Rd]; rw [if_pos ⟨rfl, rfl⟩]
  show (if 8 ≤ (rcvSem s k).val then ({false} : Finset Bool) else ∅) = {false}
  exact if_pos (le_trans (by decide) (rcvSem_ge s k))
theorem duties_later (g : GSem nD τ sig) : ∀ r, 1 ≤ r → (Rd (F := F) m).duties g r = ∅ :=
  fun r hr => by dsimp only [Rd]; rw [if_neg fun h => by omega]

theorem amount_bar (c : Dev nD) (d : Bool) : (Rd (F := F) m).amount (barCell c) 0 d = 1 := rfl
theorem amount_snd (c : Dev nD) (s : Fin 6) (k : Fin 4) (d : Bool) : (Rd (F := F) m).amount (sndCell c s k) 0 d = amt s k := by
  show (if 32 ≤ (sndSem s k).val then _ else _) = _
  rw [if_neg (Nat.not_le.mpr (sndSem_lt s k).2), skOf_snd]
theorem amount_rcv (c : Dev nD) (s : Fin 6) (k : Fin 4) (d : Bool) : (Rd (F := F) m).amount (rcvCell c s k) 0 d = amt s k := by
  show (if 32 ≤ (rcvSem s k).val then _ else _) = _
  rw [if_pos (rcvSem_ge s k), skOf_rcv]

theorem expect_bar (c : Dev nD) : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_snd (c : Dev nD) (s : Fin 6) (k : Fin 4) : (Rd (F := F) m).expect (sndCell c s k) 0 = amt s k := by
  unfold Schedule.expect Schedule.amountOf; rw [duties_snd, Finset.sum_singleton, amount_snd]
theorem expect_rcv (c : Dev nD) (s : Fin 6) (k : Fin 4) : (Rd (F := F) m).expect (rcvCell c s k) 0 = amt s k := by
  unfold Schedule.expect Schedule.amountOf; rw [duties_rcv, Finset.sum_singleton, amount_rcv]

theorem payload_bar_false (c : Dev nD) : (Rd (F := F) m).payload (barCell c) 0 false = barPayY c := by
  show (if barS = barS then (if false = true then barPayX c else barPayY c) else iprop(emp)) = _
  rw [if_pos rfl]; exact if_neg Bool.false_ne_true
theorem payload_bar_true (c : Dev nD) : (Rd (F := F) m).payload (barCell c) 0 true = barPayX c := by
  show (if barS = barS then (if true = true then barPayX c else barPayY c) else iprop(emp)) = _
  rw [if_pos rfl, if_pos rfl]
theorem payload_snd (c : Dev nD) (s : Fin 6) (k : Fin 4) (d : Bool) : (Rd (F := F) m).payload (sndCell c s k) 0 d = returned s k c := by
  show (if 32 ≤ (sndSem s k).val then _ else if 8 ≤ (sndSem s k).val then _ else _) = _
  rw [if_neg (Nat.not_le.mpr (sndSem_lt s k).2), if_pos (sndSem_lt s k).1, skOf_snd]
theorem payload_rcv (c : Dev nD) (s : Fin 6) (k : Fin 4) (d : Bool) : (Rd (F := F) m).payload (rcvCell c s k) 0 d = landed m s k c := by
  show (if 32 ≤ (rcvSem s k).val then _ else _) = _
  rw [if_pos (rcvSem_ge s k), skOf_rcv]

/-- The rest of the barrier cell's round, no duty taken: the row mate's landing buffer and the column mate's. -/
theorem rest_bar (c : Dev nD) :
    bigSep ((Rd (F := F) m).duties (barCell c) 0 \ ∅) (fun d => (Rd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_snd (c : Dev nD) (s : Fin 6) (k : Fin 4) :
    bigSep ((Rd (F := F) m).duties (sndCell c s k) 0 \ ∅) (fun d => (Rd (F := F) m).payload (sndCell c s k) 0 d) = returned s k c := by
  rw [Finset.sdiff_empty, duties_snd, bigSep_singleton, payload_snd]
theorem rest_rcv (c : Dev nD) (s : Fin 6) (k : Fin 4) :
    bigSep ((Rd (F := F) m).duties (rcvCell c s k) 0 \ ∅) (fun d => (Rd (F := F) m).payload (rcvCell c s k) 0 d) = landed m s k c := by
  rw [Finset.sdiff_empty, duties_rcv, bigSep_singleton, payload_rcv]

instance Rd_payload_storable (g : GSem nD τ sig) (r : ℕ) (d : Bool) :
    BI.Storable (upEmb : UEmb _ 𝕄) ((Rd (F := F) m).payload g r d) := by
  show BI.Storable upEmb (payOf m g.1.1 d g.2)
  rcases g with ⟨⟨c, p⟩, sm⟩
  cases sm with
  | reg r =>
    show BI.Storable upEmb (if r = barS then (if d then barPayX c else barPayY c) else iprop(emp))
    unfold barPayX barPayY
    (repeat' split) <;> infer_instance
  | dma q =>
    show BI.Storable upEmb (if 32 ≤ q.val then landed m (skOf (q.val - 32)).1 (skOf (q.val - 32)).2 c
      else if 8 ≤ q.val then returned (skOf (q.val - 8)).1 (skOf (q.val - 8)).2 c else iprop(emp))
    unfold landed returned
    (repeat' split) <;> infer_instance

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem rcv_ne_bar (a b : Dev nD) (s : Fin 6) (k : Fin 4) : rcvCell a s k ≠ barCell b := fun h => by cases congrArg Prod.snd h

theorem bar_eq_iff {a b : Dev nD} : Iff (barCell a = barCell b) (a = b) :=
  ⟨fun h => Fin.ext (congrArg (fun g : GSem nD τ sig => g.1.1.val) h), fun h => h ▸ rfl⟩

/-- A receive cell determines its device and its transfer: the semaphore's number is `32 + 4 s + k`. -/
theorem rcv_eq_iff {a b : Dev nD} {s s' : Fin 6} {k k' : Fin 4} : Iff (rcvCell a s k = rcvCell b s' k') (a = b ∧ s = s' ∧ k = k') := by
  constructor
  · intro h
    have h1 : a = b := Fin.ext (congrArg (fun g : GSem nD τ sig => g.1.1.val) h)
    have h2 : (rcvSem s k).val = (rcvSem s' k').val := congrArg (fun g : GSem nD τ sig => match g.2 with | .dma q => q.val | .reg _ => 0) h
    rw [rcvSem_val, rcvSem_val] at h2
    exact ⟨h1, Fin.ext (by omega), Fin.ext (by omega)⟩
  · rintro ⟨rfl, rfl, rfl⟩; rfl

theorem lv_bar (c : Dev nD) (u : Unit) : lv (barCell c) u = 1 := rfl
theorem lv_rcv (c : Dev nD) (s : Fin 6) (k : Fin 4) (u : Unit) : lv (rcvCell c s k) u = 2 + 4 * s.val + k.val := by
  show (if 32 ≤ (rcvSem s k).val then (rcvSem s k).val - 30 else 0) = _
  rw [if_pos (rcvSem_ge s k), rcvSem_val]; omega
theorem lv_low (c : Thread nD τ) (q : DmaSem sig) (hq : q.val < 32) (u : Unit) : lv (c, .dma q) u = 0 :=
  if_neg (Nat.not_le.mpr hq)

/-- The transfers' credits are owed to receive cells only. -/
theorem OX_pos {c : Dev nD} {g : GSem nD τ sig} {u : Unit} (h : 0 < OX c g u) : ∃ t : T, g = rcvCell (mate t.1 c) t.1 t.2 := by
  unfold OX at h
  obtain ⟨t, -, ht⟩ := Pipeline.sum_pos_exists h
  exact ⟨t, (Pipeline.tallyAt_pos ht).1⟩

theorem O₀_pos {c : Dev nD} {g : GSem nD τ sig} {u : Unit} (h : 0 < O₀ c g u) :
    (∃ t : T, g = rcvCell (mate t.1 c) t.1 t.2) ∨ g = barCell (xp c) ∨ g = barCell (yp c) := by
  unfold O₀ O₁ at h
  rcases Pipeline.add_pos_cases h with h | h
  · rcases Pipeline.add_pos_cases h with h | h
    · exact .inl (OX_pos h)
    · exact .inr (.inl (Pipeline.tallyAt_pos h).1)
  · exact .inr (.inr (Pipeline.tallyAt_pos h).1)

omit [FloatOps F] in
/-- A wait on a staging or a send cell: level 0, below the barrier cells and the receive cells. -/
theorem mayWait_stage (c : Dev nD) (q : DmaSem sig) (hq : q.val < 32) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | rfl | rfl <;> exact Finset.mem_singleton_self _)
      (fun p hp => by rw [Finset.mem_singleton.mp hp]; exact le_of_eq (lv_low _ q hq _))
      (fun g u hg => by
        rcases O₀_pos hg with ⟨t, rfl⟩ | rfl | rfl
        · rw [lv_rcv]; omega
        · rw [lv_bar]; exact Nat.one_pos
        · rw [lv_bar]; exact Nat.one_pos)
  · rw [MayWait_zero]; iintro -; iempintro

omit [FloatOps F] in
/-- At its barrier wait a device owes the transfers' credits only: receive cells, above its barrier cell. -/
theorem mayWait_bar (c : Dev nD) : (levAts L lv : sProp 𝕄) ⊢ MayWait (c : Thread nD τ) (.reg barS) () (OX c) :=
  MayOwe.of_cut (L := L) (lev := lv) 1 (fun p hp => by rw [Finset.mem_singleton.mp hp, L_tc]; exact Finset.mem_singleton_self _)
    (fun g u hg => by obtain ⟨t, rfl⟩ := OX_pos hg; exact Finset.mem_singleton_self _)
    (fun p hp => by rw [Finset.mem_singleton.mp hp]; exact le_of_eq (lv_bar c ()))
    (fun g u hg => by obtain ⟨t, rfl⟩ := OX_pos hg; rw [lv_rcv]; omega)

omit [FloatOps F] in
/-- A wait on a cell of level 0 while owing receive cells only. -/
theorem mayWait_low (c : Dev nD) (q : DmaSem sig) (hq : q.val < 32) (O : CellTallies nD τ sig Unit)
    (hO : ∀ g u, 0 < O g u → ∃ (c' : Dev nD) (t : T), g = rcvCell c' t.1 t.2) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by obtain ⟨c', t, rfl⟩ := hO g u hg; exact Finset.mem_singleton_self _)
    (fun p hp => by rw [Finset.mem_singleton.mp hp]; exact le_of_eq (lv_low _ q hq _))
    (fun g u hg => by obtain ⟨c', t, rfl⟩ := hO g u hg; rw [lv_rcv]; omega)

omit [FloatOps F] in
/-- A wait on the receive cell of `(s, k)` while owing only receive cells of later transfers. -/
theorem mayWait_rcv (c : Dev nD) (s : Fin 6) (k : Fin 4) (O : CellTallies nD τ sig Unit)
    (hO : ∀ g u, 0 < O g u → ∃ (c' : Dev nD) (t : T), g = rcvCell c' t.1 t.2 ∧ 4 * s.val + k.val < 4 * t.1.val + t.2.val) :
    (levAts L lv : sProp 𝕄) ⊢ MayWait (c : Thread nD τ) (.dma (rcvSem s k)) () O :=
  MayOwe.of_cut (L := L) (lev := lv) (2 + 4 * s.val + k.val)
    (fun p hp => by rw [Finset.mem_singleton.mp hp, L_tc]; exact Finset.mem_singleton_self _)
    (fun g u hg => by obtain ⟨c', t, rfl, -⟩ := hO g u hg; exact Finset.mem_singleton_self _)
    (fun p hp => by rw [Finset.mem_singleton.mp hp]; exact le_of_eq (lv_rcv c s k ()))
    (fun g u hg => by obtain ⟨c', t, rfl, hlt⟩ := hO g u hg; rw [lv_rcv]; omega)

/-! ## The launch credit -/

theorem OX_bar (d c : Dev nD) : OX d (barCell c) () = 0 := by
  unfold OX
  rw [Finset.sum_apply, Finsupp.finsetSum_apply]
  exact Finset.sum_eq_zero fun t _ => by rw [tallyAt_ne_cell (fun h => rcv_ne_bar _ _ _ _ h.symm)]; rfl

/-- What device `d` owes device `c`'s barrier cell: a unit if `d` is `c`'s column mate, a unit if it is `c`'s row mate. -/
theorem owed_bar (d c : Dev nD) : O₀ d (barCell c) () = (if d = xp c then 1 else 0) + (if d = yp c then 1 else 0) := by
  unfold O₀ O₁
  rw [Pi.add_apply, Finsupp.add_apply, Pi.add_apply, Finsupp.add_apply, OX_bar, tallyAt_apply, tallyAt_apply, Nat.zero_add]
  congr 1
  · by_cases h : d = xp c
    · subst h; rw [xp_xp, if_pos ⟨rfl, rfl⟩, if_pos rfl]
    · rw [if_neg (fun ⟨h1, _⟩ => h (by rw [bar_eq_iff.mp h1, xp_xp])), if_neg h]
  · by_cases h : d = yp c
    · subst h; rw [yp_yp, if_pos ⟨rfl, rfl⟩, if_pos rfl]
    · rw [if_neg (fun ⟨h1, _⟩ => h (by rw [bar_eq_iff.mp h1, yp_yp])), if_neg h]

/-- What device `d` owes device `c`'s receive cell of `(s, k)`: the transfer's credit if `d` is the stage's mate of `c`. -/
theorem owed_rcv (d c : Dev nD) (s : Fin 6) (k : Fin 4) : O₀ d (rcvCell c s k) () = if d = mate s c then amt s k else 0 := by
  unfold O₀ O₁
  rw [Pi.add_apply, Finsupp.add_apply, Pi.add_apply, Finsupp.add_apply, tallyAt_ne_cell (rcv_ne_bar _ _ _ _), tallyAt_ne_cell (rcv_ne_bar _ _ _ _),
    Finsupp.zero_apply, Nat.add_zero, Nat.add_zero]
  unfold OX
  rw [Finset.sum_apply, Finsupp.finsetSum_apply,
    Finset.sum_eq_single ((s, k) : T) (fun t _ ht => by
      rw [tallyAt_apply, if_neg]
      rintro ⟨h1, -⟩
      obtain ⟨-, h2, h3⟩ := rcv_eq_iff.mp h1
      exact ht (Prod.ext h2.symm h3.symm)) (fun h => absurd (Finset.mem_univ _) h),
    tallyAt_apply]
  by_cases h : d = mate s c
  · subst h; rw [mate_mate, if_pos ⟨rfl, rfl⟩, if_pos rfl]
  · rw [if_neg (fun ⟨h1, _⟩ => h (by rw [(rcv_eq_iff.mp h1).1, mate_mate])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]

theorem launch_rcv (c : Dev nD) (s : Fin 6) (k : Fin 4) :
    tallyOn (rcvCell c s k) (launchCredit (Pipeline.owing O₀) 0 (rcvCell c s k)) = (tallyAt (rcvCell c s k) () (amt s k) : CellTallies nD τ sig Unit) := by
  unfold tallyAt; refine congrArg _ (Finsupp.ext fun u => ?_); cases u
  rw [Pipeline.launchCredit_owing, Finsupp.single_eq_same, Finset.sum_congr rfl fun d _ => owed_rcv d c s k,
    Finset.sum_ite_eq' Finset.univ (mate s c) fun _ => amt s k, if_pos (Finset.mem_univ _)]

/-- The receive semaphores of the transfers, as semaphores of a device. -/
def rcvEmb : T ↪ SemLoc sig :=
  ⟨fun t => .dma (rcvSem t.1 t.2), fun t t' h => by
    have h2 : (rcvSem t.1 t.2).val = (rcvSem t'.1 t'.2).val := congrArg (fun sm : SemLoc sig => match sm with | .dma q => q.val | .reg _ => 0) h
    rw [rcvSem_val, rcvSem_val] at h2
    exact Prod.ext (Fin.ext (by omega)) (Fin.ext (by omega))⟩

omit [FloatOps F] in
/-- The credit the launch deals device `c`: its barrier cell's two units, and each receive cell's transfer credit. -/
theorem creds_of_launch (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map rcvEmb) fun sm h => ?_).trans ?_
  · obtain ⟨t, -, rfl⟩ := Finset.mem_map.mp h
    exact Finset.mem_erase.mpr ⟨(fun h => by cases h), Finset.mem_univ _⟩
  · rw [bigSep_map]
    exact Entails.of_eq (bigSep_congr fun t _ => congrArg cred (launch_rcv c t.1 t.2))

end Cert.KernelIdeal.Proto

end
-- ==== Proof.KernelIdeal.LaunchRun.lean ====
import proofs.«901002_g7700000000001003_dist_mlpseq_tp2d_cs_cs_b256_d256_h512_v7x_xy2x2_f32_1_alg».proof.Proof.KernelIdeal.State
import proofs.«901002_g7700000000001003_dist_mlpseq_tp2d_cs_cs_b256_d256_h512_v7x_xy2x2_f32_1_alg».proof.Proof.KernelIdeal.Tables
import Idealize.ShloMosaic.Lib.Pipeline.Launch
import Idealize.ShloMosaic.Lib.Pipeline.Kit

/-!
# The launch of the exchange

The launch element deals every cell its round state, position and duty tokens; one global update allocates all cells'
invariants, the runtime's barrier semaphore among them, and deals each duty's token to its payer: a barrier's two to the
two mates, a transfer's receive token to the stage's mate. From the body obligation of one device the run of the whole
mesh follows, and the windows' arrays after it are read off the proof data.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The kernel's own semaphores: per transfer the send (`false`) and the receive (`true`) DMA semaphore. -/
def osem : Bool × T → SemLoc sig
  | (false, t) => .dma (sndSem t.1 t.2)
  | (true, t) => .dma (rcvSem t.1 t.2)

theorem ownSemFacts : Pipeline.OwnSemFacts cfg0.spec osem := by decide

theorem share_eq (c : Dev nD) (w : Fin cfg0.W) : (dats m ρ 0 c).share w = fullShare := by unfold Dat.share; split <;> rfl

/-! ### The cells and the duty tokens, enumerated -/

theorem sndSem_inj {s s' : Fin 6} {k k' : Fin 4} (h : sndSem s k = sndSem s' k') : (s, k) = (s', k') := by
  have h' := congrArg Fin.val h
  rw [sndSem_val, sndSem_val] at h'
  have := k.isLt; have := k'.isLt
  exact Prod.ext (Fin.ext (by dsimp only; omega)) (Fin.ext (by dsimp only; omega))
theorem rcvSem_inj {s s' : Fin 6} {k k' : Fin 4} (h : rcvSem s k = rcvSem s' k') : (s, k) = (s', k') := by
  have h' := congrArg Fin.val h
  rw [rcvSem_val, rcvSem_val] at h'
  have := k.isLt; have := k'.isLt
  exact Prod.ext (Fin.ext (by dsimp only; omega)) (Fin.ext (by dsimp only; omega))
theorem sndSem_ne_rcvSem (s s' : Fin 6) (k k' : Fin 4) : sndSem s k ≠ rcvSem s' k' := fun h => by
  have h' := congrArg Fin.val h
  rw [sndSem_val, rcvSem_val] at h'
  have := k.isLt; have := s.isLt
  omega

theorem csem_injective : Function.Injective (csem : CI → SemLoc sig) := by
  intro a b h
  cases a with
  | bar => cases b with
    | bar => rfl
    | snd t => cases h
    | rcv t => cases h
  | snd t => cases b with
    | bar => cases h
    | snd t' => exact congrArg CI.snd (sndSem_inj (SemLoc.dma.inj h))
    | rcv t' => exact absurd (SemLoc.dma.inj h) (sndSem_ne_rcvSem _ _ _ _)
  | rcv t => cases b with
    | bar => cases h
    | snd t' => exact absurd (SemLoc.dma.inj h).symm (sndSem_ne_rcvSem _ _ _ _)
    | rcv t' => exact congrArg CI.rcv (rcvSem_inj (SemLoc.dma.inj h))

theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def xCells : Finset (GSem nD τ sig) := Finset.univ.map ⟨kcell, kcell_injective⟩

/-- The duties of one device's cells: the barrier's two, and per transfer the send (`false`) and the receive (`true`) cell's one. -/
abbrev J : Type := Bool ⊕ (Bool × T)
def ciOf : J → CI
  | .inl _ => .bar
  | .inr (false, t) => .snd t
  | .inr (true, t) => .rcv t
def dutyOf : J → Bool
  | .inl d => d
  | .inr _ => false

theorem ciOf_dutyOf_inj {j j' : J} (h1 : ciOf j = ciOf j') (h2 : dutyOf j = dutyOf j') : j = j' := by
  rcases j with d | ⟨b, t⟩ <;> rcases j' with d' | ⟨b', t'⟩
  · exact congrArg Sum.inl h2
  · cases b' <;> cases h1
  · cases b <;> cases h1
  · cases b <;> cases b' <;> cases h1 <;> rfl

def tokOf (cj : Dev nD × J) : GSem nD τ sig × ℕ × Bool := (kcell (cj.1, ciOf cj.2), 0, dutyOf cj.2)
theorem tokOf_injective : Function.Injective (tokOf : Dev nD × J → GSem nD τ sig × ℕ × Bool) := by
  rintro ⟨c, j⟩ ⟨c', j'⟩ h
  have h1 := kcell_injective (congrArg (fun x : GSem nD τ sig × ℕ × Bool => x.1) h)
  have h2 : dutyOf j = dutyOf j' := congrArg (fun x : GSem nD τ sig × ℕ × Bool => x.2.2) h
  have hc : c = c' := congrArg Prod.fst h1
  have hj : ciOf j = ciOf j' := congrArg Prod.snd h1
  rw [hc, ciOf_dutyOf_inj hj h2]
def xToks : Finset (GSem nD τ sig × ℕ × Bool) := Finset.univ.map ⟨tokOf, tokOf_injective⟩

def u₀ : UU :=
  (initOf (Pipeline.cells cfgs cellOf_inj) (Pipeline.launchToks cfgs cellOf_inj), initOf xCells xToks)

/-! ### Sums over the cells of one device -/

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem bigSep_boolT (Φ : Bool × T → sProp 𝕄) : bigSep Finset.univ Φ = bigSep Finset.univ fun t : T => iprop(Φ (false, t) ∗ Φ (true, t)) := by
  rw [bigSep_univ_prod, bigSep_bool, bigSep_sep']

def ciEquiv : Unit ⊕ (Bool × T) ≃ CI where
  toFun | .inl _ => .bar | .inr (false, t) => .snd t | .inr (true, t) => .rcv t
  invFun | .bar => .inl () | .snd t => .inr (false, t) | .rcv t => .inr (true, t)
  left_inv x := by rcases x with u | ⟨b, t⟩; · rfl
                   cases b <;> rfl
  right_inv x := by cases x <;> rfl

omit [FloatOps F] in
theorem bigSep_CI (Φ : CI → sProp 𝕄) : bigSep Finset.univ Φ = iprop(Φ .bar ∗ bigSep Finset.univ fun t : T => iprop(Φ (.snd t) ∗ Φ (.rcv t))) := by
  rw [bigSep_univ_equiv ciEquiv, bigSep_univ_sum, bigSep_univ_of_subsingleton (), bigSep_boolT]; rfl

omit [FloatOps F] in
theorem bigSep_J (Φ : J → sProp 𝕄) : bigSep Finset.univ Φ
    = iprop((Φ (.inl false) ∗ Φ (.inl true)) ∗ bigSep Finset.univ fun t : T => iprop(Φ (.inr (false, t)) ∗ Φ (.inr (true, t)))) := by
  rw [bigSep_univ_sum, bigSep_bool, bigSep_boolT]; rfl

/-- The duty tokens of device `c`'s own cells. -/
def toks (c : Dev nD) : sProp 𝕄 :=
  iprop((dutyTok ER (barCell c) 0 false ∗ dutyTok ER (barCell c) 0 true)
    ∗ bigSep Finset.univ fun t : T => iprop(dutyTok ER (sndCell c t.1 t.2) 0 false ∗ dutyTok ER (rcvCell c t.1 t.2) 0 false))

/-- What the launch element deals device `c`. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : CI => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_J]; rfl
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores at zero -/

omit [FloatOps F] in
theorem ownSems0_eq (c : Dev nD) : (Pipeline.ownSems0 (Ix := Unit) (Name := ℕ) (U := UU) (Lvl := ℕ) (Val := Elt F) (τ := τ) osem c : sProp 𝕄)
    = semsZero c := by
  unfold Pipeline.ownSems0 semsZero; rw [bigSep_boolT]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  unfold semsZero
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem launch_inv_at (K : Dev nD × CI → ℕ) (ck : Dev nD × CI) :
    (bigSep Finset.univ fun ck : Dev nD × CI => (cellInv ER (Rd m) (K ck) (kcell ck) : sProp 𝕄)) ⊢ cellInv ER (Rd m) (K ck) (kcell ck) :=
  bigSep_elim (Finset.mem_univ ck)

theorem launch_reached_at (ck : Dev nD × CI) :
    (bigSep Finset.univ fun ck : Dev nD × CI => (reached ER (kcell ck) 0 : sProp 𝕄)) ⊢ reached ER (kcell ck) 0 :=
  bigSep_elim (Finset.mem_univ ck)

theorem ghost_intro (K : Dev nD × CI → ℕ) (c : Dev nD) : iprop(records m K ∗ positions c ∗ payToks c) ⊢ G' m c := by
  unfold G' ghost
  iintro H
  iexists K
  iexact H

/-- The transfers' receive tokens dealt to the stage's mate. -/
def dealEquiv : Dev nD × T ≃ Dev nD × T where
  toFun x := (mate x.2.1 x.1, x.2)
  invFun x := (mate x.2.1 x.1, x.2)
  left_inv x := Prod.ext (mate_mate _ _) rfl
  right_inv x := Prod.ext (mate_mate _ _) rfl

omit [FloatOps F] in
/-- The tokens dealt to their payers: a barrier's `false` token to the row mate, its `true` token to the column mate, the receive
    token of a transfer to the stage's mate. -/
theorem toks_around : (bigSep Finset.univ fun c : Dev nD => (toks c : sProp 𝕄)) ⊢ bigSep Finset.univ fun c : Dev nD => payToks c := by
  have hR : (bigSep Finset.univ fun c : Dev nD => bigSep Finset.univ fun t : T => (dutyTok ER (rcvCell c t.1 t.2) 0 false : sProp 𝕄))
      = bigSep Finset.univ fun c : Dev nD => bigSep Finset.univ fun t : T => (dutyTok ER (rcvCell (mate t.1 c) t.1 t.2) 0 false : sProp 𝕄) := by
    rw [← bigSep_univ_prod (fun x : Dev nD × T => (dutyTok ER (rcvCell x.1 x.2.1 x.2.2) 0 false : sProp 𝕄)), bigSep_univ_equiv dealEquiv, bigSep_univ_prod]; rfl
  have hF : (bigSep Finset.univ fun c : Dev nD => (dutyTok ER (barCell c) 0 false : sProp 𝕄))
      = bigSep Finset.univ fun c : Dev nD => (dutyTok ER (barCell (yp c)) 0 false : sProp 𝕄) := by
    rw [bigSep_univ_equiv ypEquiv]; rfl
  have hT : (bigSep Finset.univ fun c : Dev nD => (dutyTok ER (barCell c) 0 true : sProp 𝕄))
      = bigSep Finset.univ fun c : Dev nD => (dutyTok ER (barCell (xp c)) 0 true : sProp 𝕄) := by
    rw [bigSep_univ_equiv xpEquiv]; rfl
  unfold toks payToks
  simp only [bigSep_sep']
  rw [hR, hF, hT]
  iintro ⟨⟨H1, H2⟩, H3, H4⟩
  isplitl [H1]; · iexact H1
  isplitl [H2]; · iexact H2
  isplitl [H3]; · iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ iprop(positions c ∗ payToks c) from Entails.of_eq (by unfold positions; rw [bigSep_CI]; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

omit [FloatOps F] in
theorem slab_whole0 (c : Dev nD) (f : Buf (Elt F) ((c : Thread nD τ).loc cc0_scratch0)) :
    slab hLoc c f = (((c : Thread nD τ).loc cc0_scratch0) ↦{fullShare} f : sProp 𝕄) := by unfold slab; rw [View.set_whole]
omit [FloatOps F] in
theorem slab_whole1 (c : Dev nD) (f : Buf (Elt F) ((c : Thread nD τ).loc cc0_scratch1)) :
    slab hSnd c f = (((c : Thread nD τ).loc cc0_scratch1) ↦{fullShare} f : sProp 𝕄) := by unfold slab; rw [View.set_whole]
omit [FloatOps F] in
theorem slab_whole2 (c : Dev nD) (f : Buf (Elt F) ((c : Thread nD τ).loc cc0_scratch2)) :
    slab hRcv c f = (((c : Thread nD τ).loc cc0_scratch2) ↦{fullShare} f : sProp 𝕄) := by unfold slab; rw [View.set_whole]
omit [FloatOps F] in
theorem slab_whole3 (c : Dev nD) (f : Buf (Elt F) ((c : Thread nD τ).loc cc0_scratch3)) :
    slab xLoc c f = (((c : Thread nD τ).loc cc0_scratch3) ↦{fullShare} f : sProp 𝕄) := by unfold slab; rw [View.set_whole]
omit [FloatOps F] in
theorem slab_whole4 (c : Dev nD) (f : Buf (Elt F) ((c : Thread nD τ).loc cc0_scratch4)) :
    slab xSnd c f = (((c : Thread nD τ).loc cc0_scratch4) ↦{fullShare} f : sProp 𝕄) := by unfold slab; rw [View.set_whole]
omit [FloatOps F] in
theorem slab_whole5 (c : Dev nD) (f : Buf (Elt F) ((c : Thread nD τ).loc cc0_scratch5)) :
    slab xRcv c f = (((c : Thread nD τ).loc cc0_scratch5) ↦{fullShare} f : sProp 𝕄) := by unfold slab; rw [View.set_whole]

omit [FloatOps F] in
/-- The six scratch buffers as the launch lists them. -/
theorem scratch_eq (c : Dev nD) : (scratch c : sProp 𝕄) ⊣⊢ Pipeline.scopedRest cfg0.spec c := by
  rw [scopedRest0_eq]
  unfold scratch
  constructor
  · iintro ⟨⟨%f0, H0⟩, ⟨%f1, H1⟩, ⟨%f2, H2⟩, ⟨%f3, H3⟩, ⟨%f4, H4⟩, ⟨%f5, H5⟩⟩
    isplitl [H0]; · iexists f0; rw [← slab_whole0]; iexact H0
    isplitl [H1]; · iexists f1; rw [← slab_whole1]; iexact H1
    isplitl [H2]; · iexists f2; rw [← slab_whole2]; iexact H2
    isplitl [H3]; · iexists f3; rw [← slab_whole3]; iexact H3
    isplitl [H4]; · iexists f4; rw [← slab_whole4]; iexact H4
    iexists f5; rw [← slab_whole5]; iexact H5
  · iintro ⟨⟨%f0, H0⟩, ⟨%f1, H1⟩, ⟨%f2, H2⟩, ⟨%f3, H3⟩, ⟨%f4, H4⟩, ⟨%f5, H5⟩⟩
    isplitl [H0]; · iexists f0; rw [slab_whole0]; iexact H0
    isplitl [H1]; · iexists f1; rw [slab_whole1]; iexact H1
    isplitl [H2]; · iexists f2; rw [slab_whole2]; iexact H2
    isplitl [H3]; · iexists f3; rw [slab_whole3]; iexact H3
    isplitl [H4]; · iexists f4; rw [slab_whole4]; iexact H4
    iexists f5; rw [slab_whole5]; iexact H5

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_eq (F := F) c).2; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, ownSems0_eq]
  unfold Φ₁
  iintro ⟨Hr, Hz⟩
  isplitr; · iempintro
  isplitl [Hz]; · iexact Hz
  iapply (scratch_eq (F := F) c).1; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 100000 in
/-- At the compiled mesh of four devices, for any float values, from any memory with zero counters: every weakly fair
    execution of the four kernels terminates, and every final state has each device's windows' arrays at the contents the
    proof data name. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

/-- An input window's array after the run holds what it held. -/
theorem finalA_in (c : Dev nD) (w : Fin 8) (hw : w.val < 7) :
    (dats m ρ 0 c).arrAt w cfg0.N = (s₀ m ρ).mem ((cfg0.win w).arr.view.loc (c : Thread nD τ)) :=
  (dats (F := F) m ρ 0 c).arrAt_in w (by revert hw; revert w; decide) _

/-- The result window's array after the run holds the result. -/
theorem finalA_out (c : Dev nD) : (dats m ρ 0 c).arrAt 7 cfg0.N = outAt m c := by
  show (dats m ρ 0 c).arrAt 7 ((t0_0 : Fin cfg0.N).val + 1) = outAt m c
  rw [Dat.arrAt_succ, flush0_7, if_pos rfl]
  exact Memref.write_access_unit_zero_univ (Elt F) main_v1 (funext fun a => by fin_cases a <;> rfl) _ _ _

/-- info: 'Cert.KernelIdeal.Proto.finalA_in' depends on axioms: [propext, Classical.choice, Quot.sound] -/
#guard_msgs in #print axioms finalA_in

/-- info: 'Cert.KernelIdeal.Proto.finalA_out' depends on axioms: [propext, Classical.choice, Quot.sound] -/
#guard_msgs in #print axioms finalA_out

end Cert.KernelIdeal.Proto

end
-- ==== Proof.Claims.lean ====
import proofs.«901002_g7700000000001003_dist_mlpseq_tp2d_cs_cs_b256_d256_h512_v7x_xy2x2_f32_1_alg».proof.Defs
import proofs.«901002_g7700000000001003_dist_mlpseq_tp2d_cs_cs_b256_d256_h512_v7x_xy2x2_f32_1_alg».proof.Proof.Gen.Pre_finite_inputs_Kernel
import proofs.«901002_g7700000000001003_dist_mlpseq_tp2d_cs_cs_b256_d256_h512_v7x_xy2x2_f32_1_alg».proof.Proof.Gen.Pre_finite_inputs_ReferenceIdeal
import proofs.«901002_g7700000000001003_dist_mlpseq_tp2d_cs_cs_b256_d256_h512_v7x_xy2x2_f32_1_alg».proof.Proof.Val.Bridge
import proofs.«901002_g7700000000001003_dist_mlpseq_tp2d_cs_cs_b256_d256_h512_v7x_xy2x2_f32_1_alg».proof.Proof.Val.RefIsSpec
import proofs.«901002_g7700000000001003_dist_mlpseq_tp2d_cs_cs_b256_d256_h512_v7x_xy2x2_f32_1_alg».proof.Proof.KernelIdeal.LaunchRun

/-!
# The claims

The kernel's run leaves every device's argument arrays as launched and its result array at the value the devices
compute, which is the device's block of the reference's result; the reference's run leaves its result at that value.
-/

noncomputable section

namespace Cert.Proof.Claims

open Idealize.ShloMosaic Idealize.ShloMosaic.TcCoe Idealize.SL.Sem
open Idealize.ShloMosaic.Pipeline (BodyObligation)

section KernelIdeal
open Cert.KernelIdeal Cert.KernelIdeal.Gen Cert.KernelIdeal.Proto Cert.Val

variable (hbody : ∀ (m : (ℓ : Loc nD τ sig) → Buf (Elt Ideal) ℓ) (ρ : Dev nD → PrngReg) (c : Dev nD),
  BodyObligation (dats (F := Ideal) m ρ 0 c) (defs₀ (F := Ideal)) 𝒱₀ () Set.univ)

/-- After the run an argument array holds what it held at launch. -/
theorem arg_kept (m : (ℓ : Loc nD τ sig) → Buf (Elt Ideal) ℓ) (ρ : Dev nD → PrngReg) (r : PUnit × MemSt nD τ sig (Elt Ideal))
    (h : QC m ρ r) (c : Dev nD) (w : Fin 8) (hw : w.val < 7) :
    r.2.mem ((cfg0.win w).arr.view.loc (c : Thread nD τ)) = m ((cfg0.win w).arr.view.loc (c : Thread nD τ)) :=
  (h c w).trans (finalA_in m ρ c w hw)

include hbody in
theorem frame_KI : Cert.frame_KernelIdeal (hKernelIdeal := Cert.KernelIdeal.Gen.facts) (hPre_finite_inputs_Kernel := Cert.Pre_finite_inputs_Kernel.Gen.facts) := by
  intro m g hpre
  refine (θ_run _ _ _).mono (fun r h c => ?_) (run_main m g (hbody m g))
  exact ⟨arg_kept m g r h c 0 (by decide), arg_kept m g r h c 1 (by decide), arg_kept m g r h c 2 (by decide),
    arg_kept m g r h c 3 (by decide), arg_kept m g r h c 4 (by decide), arg_kept m g r h c 5 (by decide), arg_kept m g r h c 6 (by decide)⟩

/-- The reference's run: its result is `refTerm` of its argument arrays, which end unchanged. -/
theorem frame_RI : Cert.frame_ReferenceIdeal (hReferenceIdeal := Cert.ReferenceIdeal.Gen.facts) (hPre_finite_inputs_ReferenceIdeal := Cert.Pre_finite_inputs_ReferenceIdeal.Gen.facts) := by
  intro m g hpre
  exact (θ_run _ _ _).mono (fun r h c => (h c).2) (run_refTerm m g)

theorem preserves : Cert.preserves_Kernel_KernelIdeal := trivial

theorem stgX_eq (m : (ℓ : Loc nD τ sig) → Buf (Elt Ideal) ℓ) (c : Dev nD) : stgX m c = m ((c.tc : Thread nD τ).loc main_arg0) :=
  Memref.read_access_unit_zero (Elt Ideal) main_arg0 (funext fun a => by fin_cases a <;> rfl) _ _
theorem stgWin0_eq (m : (ℓ : Loc nD τ sig) → Buf (Elt Ideal) ℓ) (c : Dev nD) : stgWin m 0 c = m ((c.tc : Thread nD τ).loc main_arg1) :=
  Memref.read_access_unit_zero (Elt Ideal) main_arg1 (funext fun a => by fin_cases a <;> rfl) _ _
theorem stgWin1_eq (m : (ℓ : Loc nD τ sig) → Buf (Elt Ideal) ℓ) (c : Dev nD) : stgWin m 1 c = m ((c.tc : Thread nD τ).loc main_arg3) :=
  Memref.read_access_unit_zero (Elt Ideal) main_arg3 (funext fun a => by fin_cases a <;> rfl) _ _
theorem stgWin2_eq (m : (ℓ : Loc nD τ sig) → Buf (Elt Ideal) ℓ) (c : Dev nD) : stgWin m 2 c = m ((c.tc : Thread nD τ).loc main_arg5) :=
  Memref.read_access_unit_zero (Elt Ideal) main_arg5 (funext fun a => by fin_cases a <;> rfl) _ _
theorem stgWout0_eq (m : (ℓ : Loc nD τ sig) → Buf (Elt Ideal) ℓ) (c : Dev nD) : stgWout m 0 c = m ((c.tc : Thread nD τ).loc main_arg2) :=
  Memref.read_access_unit_zero (Elt Ideal) main_arg2 (funext fun a => by fin_cases a <;> rfl) _ _
theorem stgWout1_eq (m : (ℓ : Loc nD τ sig) → Buf (Elt Ideal) ℓ) (c : Dev nD) : stgWout m 1 c = m ((c.tc : Thread nD τ).loc main_arg4) :=
  Memref.read_access_unit_zero (Elt Ideal) main_arg4 (funext fun a => by fin_cases a <;> rfl) _ _
theorem stgWout2_eq (m : (ℓ : Loc nD τ sig) → Buf (Elt Ideal) ℓ) (c : Dev nD) : stgWout m 2 c = m ((c.tc : Thread nD τ).loc main_arg6) :=
  Memref.read_access_unit_zero (Elt Ideal) main_arg6 (funext fun a => by fin_cases a <;> rfl) _ _

include hbody in
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m g m' g' hpre hblk
  have hx : ∀ c, (insOf m c).x = Layout.blockN ⟨2, ![256, 256]⟩ ⟨2, ![256, 512]⟩ (Layout.meshBlock [2, 2] ![[], [1]] c)
      (m' (((0 : Dev Cert.ReferenceIdeal.nD).tc : Thread Cert.ReferenceIdeal.nD Cert.ReferenceIdeal.τ).loc Cert.ReferenceIdeal.main_arg0)) :=
    fun c => (stgX_eq m c).trans (hblk c).1
  have hwi : ∀ L c, (insOf m c).win L = Layout.blockN ⟨2, ![256, 512]⟩ ⟨2, ![512, 1024]⟩ (Layout.meshBlock [2, 2] ![[1], [0]] c)
      ((![m' (((0 : Dev Cert.ReferenceIdeal.nD).tc : Thread Cert.ReferenceIdeal.nD Cert.ReferenceIdeal.τ).loc Cert.ReferenceIdeal.main_arg1),
          m' (((0 : Dev Cert.ReferenceIdeal.nD).tc : Thread Cert.ReferenceIdeal.nD Cert.ReferenceIdeal.τ).loc Cert.ReferenceIdeal.main_arg3),
          m' (((0 : Dev Cert.ReferenceIdeal.nD).tc : Thread Cert.ReferenceIdeal.nD Cert.ReferenceIdeal.τ).loc Cert.ReferenceIdeal.main_arg5)] : Fin 3 → _) L) := by
    intro L c
    match L with
    | ⟨0, _⟩ => exact (stgWin0_eq m c).trans (hblk c).2.1
    | ⟨1, _⟩ => exact (stgWin1_eq m c).trans (hblk c).2.2.2.1
    | ⟨2, _⟩ => exact (stgWin2_eq m c).trans (hblk c).2.2.2.2.2.1
  have hwo : ∀ L c, (insOf m c).wout L = Layout.blockN ⟨2, ![512, 256]⟩ ⟨2, ![1024, 512]⟩ (Layout.meshBlock [2, 2] ![[0], [1]] c)
      ((![m' (((0 : Dev Cert.ReferenceIdeal.nD).tc : Thread Cert.ReferenceIdeal.nD Cert.ReferenceIdeal.τ).loc Cert.ReferenceIdeal.main_arg2),
          m' (((0 : Dev Cert.ReferenceIdeal.nD).tc : Thread Cert.ReferenceIdeal.nD Cert.ReferenceIdeal.τ).loc Cert.ReferenceIdeal.main_arg4),
          m' (((0 : Dev Cert.ReferenceIdeal.nD).tc : Thread Cert.ReferenceIdeal.nD Cert.ReferenceIdeal.τ).loc Cert.ReferenceIdeal.main_arg6)] : Fin 3 → _) L) := by
    intro L c
    match L with
    | ⟨0, _⟩ => exact (stgWout0_eq m c).trans (hblk c).2.2.1
    | ⟨1, _⟩ => exact (stgWout1_eq m c).trans (hblk c).2.2.2.2.1
    | ⟨2, _⟩ => exact (stgWout2_eq m c).trans (hblk c).2.2.2.2.2.2
  refine ⟨refTerm (m' (((0 : Dev Cert.ReferenceIdeal.nD).tc : Thread Cert.ReferenceIdeal.nD Cert.ReferenceIdeal.τ).loc Cert.ReferenceIdeal.main_arg0))
    ![(m' (((0 : Dev Cert.ReferenceIdeal.nD).tc : Thread Cert.ReferenceIdeal.nD Cert.ReferenceIdeal.τ).loc Cert.ReferenceIdeal.main_arg1)), (m' (((0 : Dev Cert.ReferenceIdeal.nD).tc : Thread Cert.ReferenceIdeal.nD Cert.ReferenceIdeal.τ).loc Cert.ReferenceIdeal.main_arg3)), (m' (((0 : Dev Cert.ReferenceIdeal.nD).tc : Thread Cert.ReferenceIdeal.nD Cert.ReferenceIdeal.τ).loc Cert.ReferenceIdeal.main_arg5))]
    ![(m' (((0 : Dev Cert.ReferenceIdeal.nD).tc : Thread Cert.ReferenceIdeal.nD Cert.ReferenceIdeal.τ).loc Cert.ReferenceIdeal.main_arg2)), (m' (((0 : Dev Cert.ReferenceIdeal.nD).tc : Thread Cert.ReferenceIdeal.nD Cert.ReferenceIdeal.τ).loc Cert.ReferenceIdeal.main_arg4)), (m' (((0 : Dev Cert.ReferenceIdeal.nD).tc : Thread Cert.ReferenceIdeal.nD Cert.ReferenceIdeal.τ).loc Cert.ReferenceIdeal.main_arg6))], ?_, ?_⟩
  · refine (θ_run _ _ _).mono (fun r h c => ?_) (run_main m g (hbody m g))
    exact ⟨(h c 7).trans ((finalA_out m g c).trans (value_bridge (insOf m) _ _ _ hx hwi hwo c)),
      arg_kept m g r h c 0 (by decide), arg_kept m g r h c 1 (by decide), arg_kept m g r h c 2 (by decide),
      arg_kept m g r h c 3 (by decide), arg_kept m g r h c 4 (by decide), arg_kept m g r h c 5 (by decide), arg_kept m g r h c 6 (by decide)⟩
  · exact (θ_run _ _ _).mono (fun r h => h 0) (run_refTerm m' g')

end KernelIdeal

end Cert.Proof.Claims

end
-- ==== Proof.ClaimsK.lean ====
import proofs.«901002_g7700000000001003_dist_mlpseq_tp2d_cs_cs_b256_d256_h512_v7x_xy2x2_f32_1_alg».proof.Defs
import proofs.«901002_g7700000000001003_dist_mlpseq_tp2d_cs_cs_b256_d256_h512_v7x_xy2x2_f32_1_alg».proof.Proof.Gen.Pre_finite_inputs_Kernel
import proofs.«901002_g7700000000001003_dist_mlpseq_tp2d_cs_cs_b256_d256_h512_v7x_xy2x2_f32_1_alg».proof.Proof.Kernel.LaunchRun

/-!
# The frame claim of the kernel as printed

The kernel's run at the bit-exact values leaves every device's argument arrays as launched.
-/

noncomputable section

namespace Cert.Proof.ClaimsK

open Idealize.ShloMosaic Idealize.ShloMosaic.TcCoe Idealize.SL.Sem
open Idealize.ShloMosaic.Pipeline (BodyObligation)
open Cert.Kernel Cert.Kernel.Gen Cert.Kernel.Proto

variable (hbody : ∀ (m : (ℓ : Loc nD τ sig) → Buf (Elt Bits) ℓ) (ρ : Dev nD → PrngReg) (c : Dev nD),
  BodyObligation (dats (F := Bits) m ρ 0 c) (defs₀ (F := Bits)) 𝒱₀ () Set.univ)

/-- After the run an argument array holds what it held at launch. -/
theorem arg_kept (m : (ℓ : Loc nD τ sig) → Buf (Elt Bits) ℓ) (ρ : Dev nD → PrngReg) (r : PUnit × MemSt nD τ sig (Elt Bits))
    (h : QC m ρ r) (c : Dev nD) (w : Fin 8) (hw : w.val < 7) :
    r.2.mem ((cfg0.win w).arr.view.loc (c : Thread nD τ)) = m ((cfg0.win w).arr.view.loc (c : Thread nD τ)) :=
  (h c w).trans (finalA_in m ρ c w hw)

include hbody in
theorem frame_K : Cert.frame_Kernel (hKernel := Cert.Kernel.Gen.facts) (hPre_finite_inputs_Kernel := Cert.Pre_finite_inputs_Kernel.Gen.facts) := by
  intro m g hpre
  refine (θ_run _ _ _).mono (fun r h c => ?_) (run_main m g (hbody m g))
  exact ⟨arg_kept m g r h c 0 (by decide), arg_kept m g r h c 1 (by decide), arg_kept m g r h c 2 (by decide),
    arg_kept m g r h c 3 (by decide), arg_kept m g r h c 4 (by decide), arg_kept m g r h c 5 (by decide), arg_kept m g r h c 6 (by decide)⟩

end Cert.Proof.ClaimsK

end
-- ==== Proof.KernelIdeal.BodyDefs.lean ====
import proofs.«901002_g7700000000001003_dist_mlpseq_tp2d_cs_cs_b256_d256_h512_v7x_xy2x2_f32_1_alg».proof.Proof.KernelIdeal.State

/-!
# Names for the body's proof

The part of a buffer a rectangle of it names, held at the full share; what a device still owes once it has issued
the first `j` transfers (in the order of the program: stage by stage, chunk by chunk).
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole buffer at known contents, as the pipeline hands the staging buffers over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The elements of `M`'s buffer that the rectangle `r` of `M` names, on device `c`, at contents `f`. -/
def ptA {sp : Space} {s : Shape} {e : EltTy} (M : Memref sig .tc sp s e) (r : Rect s) (c : Dev nD)
    (f : Buf (Elt F) ((M.access r).loc (c : Thread nD τ))) : sProp 𝕄 :=
  (M.access r).loc (c : Thread nD τ) ↦[(M.access r).set]{fullShare} f

/-- The position of a transfer in the program's order. -/
def idx (t : T) : ℕ := 4 * t.1.val + t.2.val

/-- What device `c` still owes after it has issued the transfers before position `j`: the credits of the others. -/
def Orem (j : ℕ) (c : Dev nD) : CellTallies nD τ sig Unit :=
  ∑ t ∈ Finset.univ.filter (fun t : T => j ≤ idx t), tallyAt (rcvCell (mate t.1 c) t.1 t.2) () (amt t.1 t.2)

theorem Orem_zero (c : Dev nD) : Orem 0 c = OX c := by
  unfold Orem OX; rw [Finset.filter_true_of_mem (fun _ _ => Nat.zero_le _)]

theorem Orem_done (c : Dev nD) : Orem 24 c = 0 := by
  unfold Orem
  rw [Finset.filter_false_of_mem (fun t _ => by have := t.1.isLt; have := t.2.isLt; unfold idx; omega)]
  exact Finset.sum_empty

end Cert.KernelIdeal.Proto

end
-- ==== Proof.KernelIdeal.BodyState.lean ====
import proofs.«901002_g7700000000001003_dist_mlpseq_tp2d_cs_cs_b256_d256_h512_v7x_xy2x2_f32_1_alg».proof.Proof.KernelIdeal.BodyDefs

/-!
# The per-transfer resources of the body

Before transfer `t = (s, k)` is issued the device holds, for it: its positions at the two cells, the two duty tokens it
pays with, the receive cell's credit, its own slab to send from and the mate's slab to land in. After both its waits:
the sent slab back, the landing slab, both cells closed.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The landing slab of transfer `(s, k)` on device `c`, at some contents. -/
def landedAny (s : Fin 6) (k : Fin 4) (c : Dev nD) : sProp 𝕄 :=
  if s.val % 2 = 0 then iprop(∃ f, slab (hRcvSl (layerOf s) k) c f) else iprop(∃ f, slab (xRcvSl (layerOf s) k) c f)

/-- What device `c` holds for a transfer it has not issued yet. -/
def Fut (c : Dev nD) (t : T) : sProp 𝕄 :=
  iprop(atPos ER (sndCell c t.1 t.2) 0 ∅ 0 ∗ atPos ER (rcvCell c t.1 t.2) 0 ∅ 0
    ∗ dutyTok ER (sndCell c t.1 t.2) 0 false ∗ dutyTok ER (rcvCell (mate t.1 c) t.1 t.2) 0 false
    ∗ cred (tallyAt (rcvCell c t.1 t.2) () (amt t.1 t.2))
    ∗ returned t.1 t.2 c ∗ landedAny t.1 t.2 (mate t.1 c))

/-- What device `c` holds of a transfer after both its waits. -/
def Done (c : Dev nD) (t : T) : sProp 𝕄 :=
  iprop(returned t.1 t.2 c ∗ landedAny t.1 t.2 c ∗ semVal (sndCell c t.1 t.2) 0 ∗ semVal (rcvCell c t.1 t.2) 0)

end Cert.KernelIdeal.Proto

end
-- ==== Proof.KernelIdeal.Slabs.lean ====
import proofs.«901002_g7700000000001003_dist_mlpseq_tp2d_cs_cs_b256_d256_h512_v7x_xy2x2_f32_1_alg».proof.Proof.KernelIdeal.BodyDefs
import Idealize.ShloMosaic.Lib.Pipeline.Value

/-!
# The slab algebra of the six scratch buffers

Each scratch buffer is a `3 × 4 × 64 × W` array; slab `(L, k)` is the rectangle `rH L k` (`W = 512`) or `rX L k`
(`W = 256`) of it. The transfers name a slab through the sliced and squeezed memref (shape `64 × W`), the loads and
stores through the rectangle of the whole memref (shape `1 × 1 × 64 × W`). Both spellings name the same elements; the
twelve slabs are pairwise disjoint and cover the buffer; what is stored through a slab is read back through it, in
either spelling, and is not seen through another slab.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The same elements, two spellings -/

/-- The squeeze of a slice of a memref names the elements the rectangle of the memref names. -/
theorem slab_squeeze_slice {s s' : Shape} {e : EltTy} (M : Memref sig .tc .vmem s e) (r : Rect s) (hr : ∀ a, r.stride a = 1)
    (hq : r.shape.Squeezes s') (c : Dev nD) (f : Buf (Elt F) ((M.access r).loc (c : Thread nD τ))) :
    slab ((M.slice r hr).squeeze s' hq) c f = ptA M r c f := by
  unfold slab ptA
  exact congrArg (fun S => (M.access r).loc (c : Thread nD τ) ↦[S]{fullShare} f) (View.set_reshape _ _)

theorem slab_hSndSl (L : Fin 3) (k : Fin 4) (c : Dev nD) (f : Buf (Elt F) ((hSnd.access (rH L k)).loc (c : Thread nD τ))) :
    slab (hSndSl L k) c f = ptA hSnd (rH L k) c f := slab_squeeze_slice hSnd (rH L k) (fun _ => rfl) squeezes_S1x1x64x512_S64x512 c f
theorem slab_hRcvSl (L : Fin 3) (k : Fin 4) (c : Dev nD) (f : Buf (Elt F) ((hRcv.access (rH L k)).loc (c : Thread nD τ))) :
    slab (hRcvSl L k) c f = ptA hRcv (rH L k) c f := slab_squeeze_slice hRcv (rH L k) (fun _ => rfl) squeezes_S1x1x64x512_S64x512 c f
theorem slab_xSndSl (L : Fin 3) (k : Fin 4) (c : Dev nD) (f : Buf (Elt F) ((xSnd.access (rX L k)).loc (c : Thread nD τ))) :
    slab (xSndSl L k) c f = ptA xSnd (rX L k) c f := slab_squeeze_slice xSnd (rX L k) (fun _ => rfl) squeezes_S1x1x64x256_S64x256 c f
theorem slab_xRcvSl (L : Fin 3) (k : Fin 4) (c : Dev nD) (f : Buf (Elt F) ((xRcv.access (rX L k)).loc (c : Thread nD τ))) :
    slab (xRcvSl L k) c f = ptA xRcv (rX L k) c f := slab_squeeze_slice xRcv (rX L k) (fun _ => rfl) squeezes_S1x1x64x256_S64x256 c f

/-! ## Reads -/

/-- What is stored through a rectangle with the whole mask is what a load at the rectangle reads. -/
theorem readAt_write_same {s : Shape} {e : EltTy} (M : Memref sig .tc .vmem s e) (r : Rect s)
    (f : (M.access r).ty.Contents (Elt F)) (w : r.shape.Idx → Elt F e) :
    M.view.readAt (Elt F) r.toLoadRect ((M.access r).write (Elt F) f w Finset.univ) = w :=
  View.read_write_univ f w

/-- The same through the squeeze of the slice: the stored vector, shape-cast. -/
theorem squeeze_read_write {s s' : Shape} {e : EltTy} (M : Memref sig .tc .vmem s e) (r : Rect s) (hr : ∀ a, r.stride a = 1)
    (hq : r.shape.Squeezes s') (hc : r.shape.ShapeCasts s')
    (f : (M.access r).ty.Contents (Elt F)) (w : r.shape.Idx → Elt F e) :
    ((M.slice r hr).squeeze s' hq).view.read (Elt F) ((M.access r).write (Elt F) f w Finset.univ) = shapeCast s' w hc := by
  rw [Memref.read_squeeze_slice M r hr hq hc, readAt_write_same]

theorem hSndSl_read_write (L : Fin 3) (k : Fin 4) (f : (hSnd.access (rH L k)).ty.Contents (Elt F)) (w : (rH L k).shape.Idx → Elt F .bf16) :
    (hSndSl L k).view.read (Elt F) ((hSnd.access (rH L k)).write (Elt F) f w Finset.univ)
      = shapeCast S64x512 w shapeCasts_S1x1x64x512_S64x512 :=
  squeeze_read_write hSnd (rH L k) (fun _ => rfl) squeezes_S1x1x64x512_S64x512 shapeCasts_S1x1x64x512_S64x512 f w
theorem xSndSl_read_write (L : Fin 3) (k : Fin 4) (f : (xSnd.access (rX L k)).ty.Contents (Elt F)) (w : (rX L k).shape.Idx → Elt F .bf16) :
    (xSndSl L k).view.read (Elt F) ((xSnd.access (rX L k)).write (Elt F) f w Finset.univ)
      = shapeCast S64x256 w shapeCasts_S1x1x64x256_S64x256 :=
  squeeze_read_write xSnd (rX L k) (fun _ => rfl) squeezes_S1x1x64x256_S64x256 shapeCasts_S1x1x64x256_S64x256 f w

/-- A landed slab, loaded through the whole memref at the slab's rectangle and shape-cast, is what the transfer's view reads. -/
theorem hRcv_load_landed (L : Fin 3) (k : Fin 4) (f : hRcv.view.ty.Contents (Elt F)) :
    shapeCast S64x512 (hRcv.view.readAt (Elt F) (rH L k).toLoadRect f) shapeCasts_S1x1x64x512_S64x512
      = (hRcvSl L k).view.read (Elt F) f := rfl
theorem xRcv_load_landed (L : Fin 3) (k : Fin 4) (f : xRcv.view.ty.Contents (Elt F)) :
    shapeCast S64x256 (xRcv.view.readAt (Elt F) (rX L k).toLoadRect f) shapeCasts_S1x1x64x256_S64x256
      = (xRcvSl L k).view.read (Elt F) f := rfl

/-! ## The twelve slabs: pairwise disjoint, covering the buffer -/

theorem rH_disjoint {L L' : Fin 3} {k k' : Fin 4} (h : (L, k) ≠ (L', k')) : Disjoint (rH L k).set (rH L' k').set := by
  by_cases hL : L = L'
  · have hk : k.val ≠ k'.val := fun e => h (by rw [hL, Fin.ext e])
    exact Rect.unit_disjoint (s := S3x4x64x512) (1 : Fin 4)
      (show k.val + 1 ≤ k'.val ∨ k'.val + 1 ≤ k.val by omega)
  · have hL' : L.val ≠ L'.val := fun e => hL (Fin.ext e)
    exact Rect.unit_disjoint (s := S3x4x64x512) (0 : Fin 4)
      (show L.val + 1 ≤ L'.val ∨ L'.val + 1 ≤ L.val by omega)

theorem rX_disjoint {L L' : Fin 3} {k k' : Fin 4} (h : (L, k) ≠ (L', k')) : Disjoint (rX L k).set (rX L' k').set := by
  by_cases hL : L = L'
  · have hk : k.val ≠ k'.val := fun e => h (by rw [hL, Fin.ext e])
    exact Rect.unit_disjoint (s := S3x4x64x256) (1 : Fin 4)
      (show k.val + 1 ≤ k'.val ∨ k'.val + 1 ≤ k.val by omega)
  · have hL' : L.val ≠ L'.val := fun e => hL (Fin.ext e)
    exact Rect.unit_disjoint (s := S3x4x64x256) (0 : Fin 4)
      (show L.val + 1 ≤ L'.val ∨ L'.val + 1 ≤ L.val by omega)

theorem rH_cover : (Finset.univ : Finset S3x4x64x512.Idx) = Finset.univ.biUnion (fun Lk : Fin 3 × Fin 4 => (rH Lk.1 Lk.2).set) := by
  ext i
  simp only [Finset.mem_univ, Finset.mem_biUnion, true_and, true_iff]
  have h0 : (i 0).val < 3 := (i 0).isLt
  have h1 : (i 1).val < 4 := (i 1).isLt
  have h2 : (i 2).val < 64 := (i 2).isLt
  have h3 : (i 3).val < 512 := (i 3).isLt
  refine ⟨(⟨(i 0).val, h0⟩, ⟨(i 1).val, h1⟩), ?_⟩
  unfold rH
  rw [Rect.mem_set_unit]
  intro a
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 64; omega
  · show 0 ≤ (i 3).val ∧ (i 3).val < 0 + 512; omega

theorem rX_cover : (Finset.univ : Finset S3x4x64x256.Idx) = Finset.univ.biUnion (fun Lk : Fin 3 × Fin 4 => (rX Lk.1 Lk.2).set) := by
  ext i
  simp only [Finset.mem_univ, Finset.mem_biUnion, true_and, true_iff]
  have h0 : (i 0).val < 3 := (i 0).isLt
  have h1 : (i 1).val < 4 := (i 1).isLt
  have h2 : (i 2).val < 64 := (i 2).isLt
  have h3 : (i 3).val < 256 := (i 3).isLt
  refine ⟨(⟨(i 0).val, h0⟩, ⟨(i 1).val, h1⟩), ?_⟩
  unfold rX
  rw [Rect.mem_set_unit]
  intro a
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 64; omega
  · show 0 ≤ (i 3).val ∧ (i 3).val < 0 + 256; omega

/-- Disjoint rectangles of a memref name disjoint elements of its buffer. -/
theorem access_disjoint {s : Shape} {e : EltTy} (M : Memref sig .tc .vmem s e) {r r' : Rect s} (h : Disjoint r.set r'.set) :
    Disjoint (M.access r).set (M.access r').set := by
  rw [View.set_slice, View.set_slice]; exact (Finset.disjoint_map _).mpr h

/-- The rectangles of a family that covers the shape name all the memref's elements. -/
theorem access_cover {s : Shape} {e : EltTy} (M : Memref sig .tc .vmem s e) {T : Type} (S : Finset T) (R : T → Rect s)
    (h : (Finset.univ : Finset s.Idx) = S.biUnion (fun t => (R t).set)) :
    M.view.set = S.biUnion (fun t => (M.access (R t)).set) := by
  ext i
  simp only [Finset.mem_biUnion, View.set_slice, Finset.mem_map]
  constructor
  · intro hi
    obtain ⟨x, -, rfl⟩ := Finset.mem_map.mp hi
    have hx : x ∈ S.biUnion (fun t => (R t).set) := h ▸ Finset.mem_univ x
    obtain ⟨t, ht, hxt⟩ := Finset.mem_biUnion.mp hx
    exact ⟨t, ht, x, hxt, rfl⟩
  · rintro ⟨t, -, x, -, rfl⟩
    exact M.view.emb_mem_set x

/-- A store through one slab is not seen by a load through another. -/
theorem readAt_write_disjoint {s : Shape} {e : EltTy} (M : Memref sig .tc .vmem s e) (r r' : Rect s) (h : Disjoint r.set r'.set)
    (f : (M.access r).ty.Contents (Elt F)) (w : r.shape.Idx → Elt F e) :
    M.view.readAt (Elt F) r'.toLoadRect ((M.access r).write (Elt F) f w Finset.univ) = M.view.readAt (Elt F) r'.toLoadRect f :=
  View.read_slice_write_slice_of_disjoint r' r f w Finset.univ (access_disjoint M h.symm)

theorem read_write_other_H {e : EltTy} (M : Memref sig .tc .vmem S3x4x64x512 e) (L L' : Fin 3) (k k' : Fin 4) (h : (L, k) ≠ (L', k'))
    (f : (M.access (rH L k)).ty.Contents (Elt F)) (w : (rH L k).shape.Idx → Elt F e) :
    M.view.readAt (Elt F) (rH L' k').toLoadRect ((M.access (rH L k)).write (Elt F) f w Finset.univ)
      = M.view.readAt (Elt F) (rH L' k').toLoadRect f :=
  readAt_write_disjoint M _ _ (rH_disjoint h) f w
theorem read_write_other_X {e : EltTy} (M : Memref sig .tc .vmem S3x4x64x256 e) (L L' : Fin 3) (k k' : Fin 4) (h : (L, k) ≠ (L', k'))
    (f : (M.access (rX L k)).ty.Contents (Elt F)) (w : (rX L k).shape.Idx → Elt F e) :
    M.view.readAt (Elt F) (rX L' k').toLoadRect ((M.access (rX L k)).write (Elt F) f w Finset.univ)
      = M.view.readAt (Elt F) (rX L' k').toLoadRect f :=
  readAt_write_disjoint M _ _ (rX_disjoint h) f w

/-- A store or a load through a rectangle of a memref goes through elements the memref names: what the store and load
    rules ask of a buffer held through the memref's own view. -/
theorem access_subset {s : Shape} {e : EltTy} (M : Memref sig .tc .vmem s e) (r : Rect s) :
    (M.access r).setOn Finset.univ ⊆ M.view.set := View.set_slice_subset _ r
theorem access_set_subset {s : Shape} {e : EltTy} (M : Memref sig .tc .vmem s e) (r : Rect s) :
    (M.access r).set ⊆ M.view.set := View.set_slice_subset _ r

/-- A whole buffer held through its memref is held at every element, as the store rule through a rectangle of it states it. -/
theorem slab_whole (b : Ref sig .tc) (c : Dev nD) (f : Buf (Elt F) ((c : Thread nD τ).loc b)) :
    slab (Memref.whole b) c f = (((c : Thread nD τ).loc b) ↦[Finset.univ]{fullShare} f : sProp 𝕄) := by
  unfold slab
  exact congrArg (fun S => ((c : Thread nD τ).loc b) ↦[S]{fullShare} f) (View.set_whole b)

/-! ## Split and join of a buffer into its slabs -/

/-- A buffer held through a memref is its rectangles of a family that covers the shape and is pairwise disjoint, one by one. -/
theorem slab_eq_bigSep {s : Shape} {e : EltTy} (M : Memref sig .tc .vmem s e) {T : Type} (S : Finset T) (R : T → Rect s)
    (hc : (Finset.univ : Finset s.Idx) = S.biUnion (fun t => (R t).set))
    (hd : ∀ t ∈ S, ∀ t' ∈ S, t ≠ t' → Disjoint (R t).set (R t').set)
    (c : Dev nD) (f : Buf (Elt F) (M.view.loc (c : Thread nD τ))) :
    slab M c f = bigSep S (fun t => ptA M (R t) c f) := by
  have hd' : ∀ t ∈ S, ∀ t' ∈ S, t ≠ t' → Disjoint (M.access (R t)).set (M.access (R t')).set :=
    fun t ht t' ht' hne => access_disjoint M (hd t ht t' ht' hne)
  have hcov : M.view.set = S.biUnion (fun t => (M.access (R t)).set) := access_cover M S R hc
  have key : ((M.view.loc (c : Thread nD τ)) ↦[S.biUnion (fun t => (M.access (R t)).set)]{fullShare} f : sProp 𝕄)
      = bigSep S (fun t => ((M.view.loc (c : Thread nD τ)) ↦[(M.access (R t)).set]{fullShare} f : sProp 𝕄)) :=
    pointsTo_biUnion (ℓ := M.view.loc (c : Thread nD τ)) (q := fullShare) (f := f) S (fun t => (M.access (R t)).set) hd'
  show ((M.view.loc (c : Thread nD τ)) ↦[M.view.set]{fullShare} f : sProp 𝕄)
      = bigSep S (fun t => ((M.view.loc (c : Thread nD τ)) ↦[(M.access (R t)).set]{fullShare} f : sProp 𝕄))
  exact (congrArg (fun I => ((M.view.loc (c : Thread nD τ)) ↦[I]{fullShare} f : sProp 𝕄)) hcov).trans key

/-- The rectangles held one by one, each at contents of its own, are the buffer held at some contents. -/
theorem bigSep_join {s : Shape} {e : EltTy} (M : Memref sig .tc .vmem s e) {T : Type} [DecidableEq T] (S : Finset T) (R : T → Rect s)
    (hc : (Finset.univ : Finset s.Idx) = S.biUnion (fun t => (R t).set))
    (hd : ∀ t ∈ S, ∀ t' ∈ S, t ≠ t' → Disjoint (R t).set (R t').set)
    (c : Dev nD) :
    bigSep S (fun t => iprop(∃ f, ptA M (R t) c f)) ⊢ (iprop(∃ f, slab M c f) : sProp 𝕄) := by
  have hd' : ∀ t ∈ S, ∀ t' ∈ S, t ≠ t' → Disjoint (M.access (R t)).set (M.access (R t')).set :=
    fun t ht t' ht' hne => access_disjoint M (hd t ht t' ht' hne)
  have hcov : M.view.set = S.biUnion (fun t => (M.access (R t)).set) := access_cover M S R hc
  have h1 : bigSep S (fun t => iprop(∃ f, ((M.view.loc (c : Thread nD τ)) ↦[(M.access (R t)).set]{fullShare} f : sProp 𝕄)))
      ⊢ (iprop(∃ fs : T → Buf (Elt F) (M.view.loc (c : Thread nD τ)),
          bigSep S (fun t => ((M.view.loc (c : Thread nD τ)) ↦[(M.access (R t)).set]{fullShare} fs t))) : sProp 𝕄) :=
    bigSep_exists_pi (Y := fun _ => Buf (Elt F) (M.view.loc (c : Thread nD τ))) S
      (fun t f => ((M.view.loc (c : Thread nD τ)) ↦[(M.access (R t)).set]{fullShare} f : sProp 𝕄))
  have h2 : ∀ fs : T → Buf (Elt F) (M.view.loc (c : Thread nD τ)),
      bigSep S (fun t => ((M.view.loc (c : Thread nD τ)) ↦[(M.access (R t)).set]{fullShare} fs t))
      ⊢ (iprop(∃ g, ⌜∀ t ∈ S, ∀ i ∈ (M.access (R t)).set, g i = fs t i⌝
          ∗ (M.view.loc (c : Thread nD τ)) ↦[S.biUnion (fun t => (M.access (R t)).set)]{fullShare} g) : sProp 𝕄) :=
    fun fs => pointsTo_biUnion_join (ℓ := M.view.loc (c : Thread nD τ)) (q := fullShare) S (fun t => (M.access (R t)).set) fs default hd'
  have h3 : ∀ g : Buf (Elt F) (M.view.loc (c : Thread nD τ)),
      ((M.view.loc (c : Thread nD τ)) ↦[S.biUnion (fun t => (M.access (R t)).set)]{fullShare} g : sProp 𝕄)
        = ((M.view.loc (c : Thread nD τ)) ↦[M.view.set]{fullShare} g : sProp 𝕄) :=
    fun g => congrArg (fun I => ((M.view.loc (c : Thread nD τ)) ↦[I]{fullShare} g : sProp 𝕄)) hcov.symm
  show bigSep S (fun t => iprop(∃ f, ((M.view.loc (c : Thread nD τ)) ↦[(M.access (R t)).set]{fullShare} f : sProp 𝕄)))
      ⊢ (iprop(∃ f, ((M.view.loc (c : Thread nD τ)) ↦[M.view.set]{fullShare} f)) : sProp 𝕄)
  refine h1.trans ?_
  iintro ⟨%fs, H⟩
  ihave H' := (h2 fs) $$ H
  icases H' with ⟨%g, -, H'⟩
  iexists g
  ihave H'' := (Entails.of_eq (h3 g)) $$ H'
  iexact H''

theorem split_H {e : EltTy} (M : Memref sig .tc .vmem S3x4x64x512 e) (c : Dev nD) (f : Buf (Elt F) (M.view.loc (c : Thread nD τ))) :
    slab M c f = bigSep Finset.univ (fun Lk : Fin 3 × Fin 4 => ptA M (rH Lk.1 Lk.2) c f) :=
  slab_eq_bigSep M Finset.univ (fun Lk : Fin 3 × Fin 4 => rH Lk.1 Lk.2) rH_cover (fun t _ t' _ hne => rH_disjoint hne) c f
theorem split_X {e : EltTy} (M : Memref sig .tc .vmem S3x4x64x256 e) (c : Dev nD) (f : Buf (Elt F) (M.view.loc (c : Thread nD τ))) :
    slab M c f = bigSep Finset.univ (fun Lk : Fin 3 × Fin 4 => ptA M (rX Lk.1 Lk.2) c f) :=
  slab_eq_bigSep M Finset.univ (fun Lk : Fin 3 × Fin 4 => rX Lk.1 Lk.2) rX_cover (fun t _ t' _ hne => rX_disjoint hne) c f

theorem join_H {e : EltTy} (M : Memref sig .tc .vmem S3x4x64x512 e) (c : Dev nD) :
    bigSep Finset.univ (fun Lk : Fin 3 × Fin 4 => iprop(∃ f, ptA M (rH Lk.1 Lk.2) c f)) ⊢ (iprop(∃ f, slab M c f) : sProp 𝕄) :=
  bigSep_join M Finset.univ (fun Lk : Fin 3 × Fin 4 => rH Lk.1 Lk.2) rH_cover (fun t _ t' _ hne => rH_disjoint hne) c
theorem join_X {e : EltTy} (M : Memref sig .tc .vmem S3x4x64x256 e) (c : Dev nD) :
    bigSep Finset.univ (fun Lk : Fin 3 × Fin 4 => iprop(∃ f, ptA M (rX Lk.1 Lk.2) c f)) ⊢ (iprop(∃ f, slab M c f) : sProp 𝕄) :=
  bigSep_join M Finset.univ (fun Lk : Fin 3 × Fin 4 => rX Lk.1 Lk.2) rX_cover (fun t _ t' _ hne => rX_disjoint hne) c

/-- The same, the contents kept: the joined buffer reads, through each rectangle, what that rectangle held. -/
theorem bigSep_join_at {s : Shape} {e : EltTy} (M : Memref sig .tc .vmem s e) {T : Type} [DecidableEq T] (S : Finset T) (R : T → Rect s)
    (hc : (Finset.univ : Finset s.Idx) = S.biUnion (fun t => (R t).set))
    (hd : ∀ t ∈ S, ∀ t' ∈ S, t ≠ t' → Disjoint (R t).set (R t').set)
    (c : Dev nD) (fs : T → Buf (Elt F) (M.view.loc (c : Thread nD τ))) :
    bigSep S (fun t => ptA M (R t) c (fs t))
      ⊢ (iprop(∃ g, ⌜∀ t ∈ S, M.view.readAt (Elt F) (R t).toLoadRect g = M.view.readAt (Elt F) (R t).toLoadRect (fs t)⌝ ∗ slab M c g) : sProp 𝕄) := by
  have hd' : ∀ t ∈ S, ∀ t' ∈ S, t ≠ t' → Disjoint (M.access (R t)).set (M.access (R t')).set :=
    fun t ht t' ht' hne => access_disjoint M (hd t ht t' ht' hne)
  have hcov : M.view.set = S.biUnion (fun t => (M.access (R t)).set) := access_cover M S R hc
  have h2 : bigSep S (fun t => ((M.view.loc (c : Thread nD τ)) ↦[(M.access (R t)).set]{fullShare} fs t))
      ⊢ (iprop(∃ g, ⌜∀ t ∈ S, ∀ i ∈ (M.access (R t)).set, g i = fs t i⌝
          ∗ (M.view.loc (c : Thread nD τ)) ↦[S.biUnion (fun t => (M.access (R t)).set)]{fullShare} g) : sProp 𝕄) :=
    pointsTo_biUnion_join (ℓ := M.view.loc (c : Thread nD τ)) (q := fullShare) S (fun t => (M.access (R t)).set) fs default hd'
  have h3 : ∀ g : Buf (Elt F) (M.view.loc (c : Thread nD τ)),
      ((M.view.loc (c : Thread nD τ)) ↦[S.biUnion (fun t => (M.access (R t)).set)]{fullShare} g : sProp 𝕄)
        = ((M.view.loc (c : Thread nD τ)) ↦[M.view.set]{fullShare} g : sProp 𝕄) :=
    fun g => congrArg (fun I => ((M.view.loc (c : Thread nD τ)) ↦[I]{fullShare} g : sProp 𝕄)) hcov.symm
  show bigSep S (fun t => ((M.view.loc (c : Thread nD τ)) ↦[(M.access (R t)).set]{fullShare} fs t))
      ⊢ (iprop(∃ g, ⌜∀ t ∈ S, M.view.readAt (Elt F) (R t).toLoadRect g = M.view.readAt (Elt F) (R t).toLoadRect (fs t)⌝
          ∗ ((M.view.loc (c : Thread nD τ)) ↦[M.view.set]{fullShare} g)) : sProp 𝕄)
  refine h2.trans ?_
  iintro ⟨%g, %hg, H'⟩
  iexists g
  isplitr
  · ipureintro
    intro t ht
    exact View.read_congr (v := M.access (R t)) (fun i hi => hg t ht i hi)
  · ihave H'' := (Entails.of_eq (h3 g)) $$ H'
    iexact H''

theorem join_H_at {e : EltTy} (M : Memref sig .tc .vmem S3x4x64x512 e) (c : Dev nD) (fs : Fin 3 × Fin 4 → Buf (Elt F) (M.view.loc (c : Thread nD τ))) :
    bigSep Finset.univ (fun Lk : Fin 3 × Fin 4 => ptA M (rH Lk.1 Lk.2) c (fs Lk))
      ⊢ (iprop(∃ g, ⌜∀ Lk : Fin 3 × Fin 4, M.view.readAt (Elt F) (rH Lk.1 Lk.2).toLoadRect g = M.view.readAt (Elt F) (rH Lk.1 Lk.2).toLoadRect (fs Lk)⌝
          ∗ slab M c g) : sProp 𝕄) :=
  (bigSep_join_at M Finset.univ (fun Lk : Fin 3 × Fin 4 => rH Lk.1 Lk.2) rH_cover (fun t _ t' _ hne => rH_disjoint hne) c fs).trans
    (exists_mono fun g => sep_mono_left (BI.pure_mono fun h Lk => h Lk (Finset.mem_univ _)))
theorem join_X_at {e : EltTy} (M : Memref sig .tc .vmem S3x4x64x256 e) (c : Dev nD) (fs : Fin 3 × Fin 4 → Buf (Elt F) (M.view.loc (c : Thread nD τ))) :
    bigSep Finset.univ (fun Lk : Fin 3 × Fin 4 => ptA M (rX Lk.1 Lk.2) c (fs Lk))
      ⊢ (iprop(∃ g, ⌜∀ Lk : Fin 3 × Fin 4, M.view.readAt (Elt F) (rX Lk.1 Lk.2).toLoadRect g = M.view.readAt (Elt F) (rX Lk.1 Lk.2).toLoadRect (fs Lk)⌝
          ∗ slab M c g) : sProp 𝕄) :=
  (bigSep_join_at M Finset.univ (fun Lk : Fin 3 × Fin 4 => rX Lk.1 Lk.2) rX_cover (fun t _ t' _ hne => rX_disjoint hne) c fs).trans
    (exists_mono fun g => sep_mono_left (BI.pure_mono fun h Lk => h Lk (Finset.mem_univ _)))

/-- info: 'Cert.KernelIdeal.Proto.join_H' depends on axioms: [propext, Classical.choice, Quot.sound] -/
#guard_msgs in #print axioms join_H
/-- info: 'Cert.KernelIdeal.Proto.split_X' depends on axioms: [propext, Classical.choice, Quot.sound] -/
#guard_msgs in #print axioms split_X

end Cert.KernelIdeal.Proto

end
-- ==== Proof.KernelIdeal.Steps.lean ====
import proofs.«901002_g7700000000001003_dist_mlpseq_tp2d_cs_cs_b256_d256_h512_v7x_xy2x2_f32_1_alg».proof.Proof.KernelIdeal.BodyDefs
import proofs.«901002_g7700000000001003_dist_mlpseq_tp2d_cs_cs_b256_d256_h512_v7x_xy2x2_f32_1_alg».proof.Proof.KernelIdeal.Tables
import Idealize.ShloMosaic.Lib.Tactic

/-!
# The step rules of the exchange: the transfers

The transfer of an even stage copies the sent slab of the first matmul's half into the row mate's landing slab; it
pays the one duty of the issuer's send cell, whose payload is the sent slab back, and the one duty of the row mate's
receive cell, whose payload is the landing slab holding what the issuer sent. The transfer of an odd stage does the
same with the second matmul's half and the column mate. Also: what a device still owes after the first `j` transfers
is, summand by summand, a credit to a receive cell of a later transfer.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One cell's invariant and its reached round, out of the records -/

theorem records_inv_at (K : Dev nD × CI → ℕ) (ck : Dev nD × CI) :
    records m K ⊢ cellInv ER (Rd m) (K ck) (kcell ck) := by
  unfold records
  exact (BI.Entails.trans BI.sep_and and_elimL).trans (bigSep_elim (Finset.mem_univ ck))

theorem records_reached_at (K : Dev nD × CI → ℕ) (ck : Dev nD × CI) :
    records m K ⊢ reached ER (kcell ck) 0 := by
  unfold records
  exact (BI.Entails.trans BI.sep_and and_elimR).trans (bigSep_elim (Finset.mem_univ ck))

/-! ## The transfer of an even stage: the first matmul's half, to the row mate -/

theorem wp_send_even (K : Dev nD × CI → ℕ) (c n : Dev nD) (hn : n = yp c) (s : Fin 6) (k : Fin 4) (hs : s.val % 2 = 0)
    (Ly : Fin 3) (hLy : Ly = layerOf s)
    (src : Memref sig .tc .vmem S64x512 .bf16) (hsrcE : src = hSndSl Ly k)
    (dst : Memref sig (Dev.tc n : Thread nD τ).2.kind .vmem S64x512 .bf16) (hdstE : dst = hRcvSl Ly k)
    (qs qr : DmaSem sig) (hqs : qs = sndSem s k) (hqr : qr = rcvSem s k)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {kont : PUnit → Prog (TpuEff nD τ sig (Elt F) Λ₀ .tc) α}
    (fs : Buf (Elt F) ((hSndSl Ly k).view.loc (c : Thread nD τ)))
    (hfs : (hSndSl Ly k).view.read (Elt F) fs = hSent m Ly c k)
    (O : CellTallies nD τ sig Unit) (W : Waits sig Unit) :
    iprop(records m K ∗ slab (hSndSl Ly k) c fs ∗ (∃ fn, slab (hRcvSl Ly k) (yp c) fn)
        ∗ owes (c : Thread nD τ) (O + tallyAt (rcvCell (yp c) s k) () (amt s k)) W
        ∗ dutyTok ER (sndCell c s k) 0 false ∗ dutyTok ER (rcvCell (yp c) s k) 0 false)
      ⊢ iprop(((cred (tallyAt (sndCell c s k) () (amt s k)) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) kont) Q) := by
  subst hn hLy hsrcE hdstE hqs hqr
  iintro ⟨#Hrec, Hs, ⟨%fn, Hd⟩, HO, Ht1, Ht2⟩
  unfold slab
  iapply (Rounds.wp_send_pointsTo 𝒱₀ ER (Rd m) (c : Thread nD τ) none
      (κ₁ := K (c, .snd (s, k))) (κ₂ := K (yp c, .rcv (s, k)))
      (r₁ := 0) (r₂ := 0) (d₁ := false) (d₂ := false) (fs := fs) (fd := fn)
      (by rw [duties_snd]; exact Finset.mem_singleton_self _) (by rw [duties_rcv]; exact Finset.mem_singleton_self _)
      () () (amt s k) (by unfold amt; rw [if_pos hs]) (amount_snd m c s k false) (amount_rcv m (yp c) s k false)
      O rfl (W := W)
      (by rw [payload_snd]; unfold returned slab; rw [if_pos hs]; iintro H; iexists fs; iexact H)
      (by
        rw [payload_rcv]; unfold landed slab; rw [if_pos hs]
        iintro H; iexists _; isplitl [H]
        · iexact H
        · ipureintro
          rw [View.read_write_univ, hfs]; unfold mate; rw [if_pos hs, yp_yp]))
    $$ [Hs Hd HO Ht1 Ht2]
  isplitr; · iapply (records_inv_at m K (c, .snd (s, k))); iexact Hrec
  isplitr; · iapply (records_inv_at m K (yp c, .rcv (s, k))); iexact Hrec
  isplitl [Hs]; · iexact Hs
  isplitl [Hd]; · iexact Hd
  isplitl [HO]; · iexact HO
  isplitl [Ht1]; · iexact Ht1
  isplitr; · iapply (records_reached_at m K (c, .snd (s, k))); iexact Hrec
  isplitl [Ht2]; · iexact Ht2
  iapply (records_reached_at m K (yp c, .rcv (s, k))); iexact Hrec

/-! ## The transfer of an odd stage: the second matmul's half, to the column mate -/

theorem wp_send_odd (K : Dev nD × CI → ℕ) (c n : Dev nD) (hn : n = xp c) (s : Fin 6) (k : Fin 4) (hs : ¬ s.val % 2 = 0)
    (Ly : Fin 3) (hLy : Ly = layerOf s)
    (src : Memref sig .tc .vmem S64x256 .bf16) (hsrcE : src = xSndSl Ly k)
    (dst : Memref sig (Dev.tc n : Thread nD τ).2.kind .vmem S64x256 .bf16) (hdstE : dst = xRcvSl Ly k)
    (qs qr : DmaSem sig) (hqs : qs = sndSem s k) (hqr : qr = rcvSem s k)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {kont : PUnit → Prog (TpuEff nD τ sig (Elt F) Λ₀ .tc) α}
    (fs : Buf (Elt F) ((xSndSl Ly k).view.loc (c : Thread nD τ)))
    (hfs : (xSndSl Ly k).view.read (Elt F) fs = xSent m Ly c k)
    (O : CellTallies nD τ sig Unit) (W : Waits sig Unit) :
    iprop(records m K ∗ slab (xSndSl Ly k) c fs ∗ (∃ fn, slab (xRcvSl Ly k) (xp c) fn)
        ∗ owes (c : Thread nD τ) (O + tallyAt (rcvCell (xp c) s k) () (amt s k)) W
        ∗ dutyTok ER (sndCell c s k) 0 false ∗ dutyTok ER (rcvCell (xp c) s k) 0 false)
      ⊢ iprop(((cred (tallyAt (sndCell c s k) () (amt s k)) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) kont) Q) := by
  subst hn hLy hsrcE hdstE hqs hqr
  iintro ⟨#Hrec, Hs, ⟨%fn, Hd⟩, HO, Ht1, Ht2⟩
  unfold slab
  iapply (Rounds.wp_send_pointsTo 𝒱₀ ER (Rd m) (c : Thread nD τ) none
      (κ₁ := K (c, .snd (s, k))) (κ₂ := K (xp c, .rcv (s, k)))
      (r₁ := 0) (r₂ := 0) (d₁ := false) (d₂ := false) (fs := fs) (fd := fn)
      (by rw [duties_snd]; exact Finset.mem_singleton_self _) (by rw [duties_rcv]; exact Finset.mem_singleton_self _)
      () () (amt s k) (by unfold amt; rw [if_neg hs]) (amount_snd m c s k false) (amount_rcv m (xp c) s k false)
      O rfl (W := W)
      (by rw [payload_snd]; unfold returned slab; rw [if_neg hs]; iintro H; iexists fs; iexact H)
      (by
        rw [payload_rcv]; unfold landed slab; rw [if_neg hs]
        iintro H; iexists _; isplitl [H]
        · iexact H
        · ipureintro
          rw [View.read_write_univ, hfs]; unfold mate; rw [if_neg hs, xp_xp]))
    $$ [Hs Hd HO Ht1 Ht2]
  isplitr; · iapply (records_inv_at m K (c, .snd (s, k))); iexact Hrec
  isplitr; · iapply (records_inv_at m K (xp c, .rcv (s, k))); iexact Hrec
  isplitl [Hs]; · iexact Hs
  isplitl [Hd]; · iexact Hd
  isplitl [HO]; · iexact HO
  isplitl [Ht1]; · iexact Ht1
  isplitr; · iapply (records_reached_at m K (c, .snd (s, k))); iexact Hrec
  isplitl [Ht2]; · iexact Ht2
  iapply (records_reached_at m K (xp c, .rcv (s, k))); iexact Hrec

/-! ## What is still owed after the first `j` transfers -/

theorem idx_inj {t t' : T} (h : idx t = idx t') : t = t' := by
  unfold idx at h
  have := t.2.isLt; have := t'.2.isLt
  exact Prod.ext (Fin.ext (by omega)) (Fin.ext (by omega))

/-- Every summand still owed is the credit of a transfer not yet issued, to the receive cell of its stage's mate. -/
theorem Orem_pos {j : ℕ} {c : Dev nD} {g : GSem nD τ sig} {u : Unit} (h : 0 < Orem j c g u) :
    ∃ t : T, j ≤ idx t ∧ g = rcvCell (mate t.1 c) t.1 t.2 := by
  unfold Orem at h
  rw [Finset.sum_apply, Finsupp.finset_sum_apply] at h
  obtain ⟨t, ht, hpos⟩ : ∃ t ∈ Finset.univ.filter (fun t : T => j ≤ idx t),
      0 < tallyAt (rcvCell (mate t.1 c) t.1 t.2) () (amt t.1 t.2) g u := by
    by_contra hne
    push Not at hne
    rw [Finset.sum_eq_zero (fun t ht => Nat.le_zero.mp (hne t ht))] at h
    exact Nat.lt_irrefl 0 h
  refine ⟨t, (Finset.mem_filter.mp ht).2, ?_⟩
  rw [tallyAt_apply] at hpos
  by_cases hc : g = rcvCell (mate t.1 c) t.1 t.2 ∧ u = ()
  · exact hc.1
  · rw [if_neg hc] at hpos; exact absurd hpos (Nat.lt_irrefl 0)

/-- Issuing the transfer at position `idx t` peels its credit off what is owed. -/
theorem Orem_succ' (c : Dev nD) (t : T) :
    Orem (idx t) c = Orem (idx t + 1) c + tallyAt (rcvCell (mate t.1 c) t.1 t.2) () (amt t.1 t.2) := by
  unfold Orem
  have hset : Finset.univ.filter (fun t' : T => idx t ≤ idx t')
      = insert t (Finset.univ.filter (fun t' : T => idx t + 1 ≤ idx t')) := by
    ext t'
    simp only [Finset.mem_filter, Finset.mem_univ, true_and, Finset.mem_insert]
    constructor
    · intro h
      by_cases he : idx t' = idx t
      · exact Or.inl (idx_inj he)
      · exact Or.inr (by omega)
    · rintro (rfl | h)
      · exact le_refl _
      · omega
  rw [hset, Finset.sum_insert (by rw [Finset.mem_filter]; exact fun h => absurd h.2 (Nat.not_succ_le_self _)), add_comm]

end Cert.KernelIdeal.Proto

end
-- ==== Proof.KernelIdeal.StepAux.lean ====
import proofs.«901002_g7700000000001003_dist_mlpseq_tp2d_cs_cs_b256_d256_h512_v7x_xy2x2_f32_1_alg».proof.Proof.KernelIdeal.BodyDefs
import proofs.«901002_g7700000000001003_dist_mlpseq_tp2d_cs_cs_b256_d256_h512_v7x_xy2x2_f32_1_alg».proof.Proof.KernelIdeal.Tables
import proofs.«901002_g7700000000001003_dist_mlpseq_tp2d_cs_cs_b256_d256_h512_v7x_xy2x2_f32_1_alg».proof.Proof.KernelIdeal.BodyState
import proofs.«901002_g7700000000001003_dist_mlpseq_tp2d_cs_cs_b256_d256_h512_v7x_xy2x2_f32_1_alg».proof.Proof.KernelIdeal.Slabs
import proofs.«901002_g7700000000001003_dist_mlpseq_tp2d_cs_cs_b256_d256_h512_v7x_xy2x2_f32_1_alg».proof.Proof.KernelIdeal.Steps
import Idealize.ShloMosaic.Lib.Tactic

/-!
# Small facts for stepping the body

The per-transfer bundle unfolded; the returned, landed and landing slabs at a stage of known parity; a slab's
points-to in the spelling of the store and load rules; a load and a store whose value is known under another name;
one summand peeled off what a device still owes; that what it still owes lies on receive cells of later transfers.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem Fut_eq (c : Dev nD) (s : Fin 6) (k : Fin 4) : Fut (F := F) c (s, k) =
    iprop(atPos ER (sndCell c s k) 0 ∅ 0 ∗ atPos ER (rcvCell c s k) 0 ∅ 0
      ∗ dutyTok ER (sndCell c s k) 0 false ∗ dutyTok ER (rcvCell (mate s c) s k) 0 false
      ∗ cred (tallyAt (rcvCell c s k) () (amt s k))
      ∗ returned s k c ∗ landedAny s k (mate s c)) := rfl

omit [FloatOps F] in
theorem returned_even (s : Fin 6) (k : Fin 4) (c : Dev nD) (hs : s.val % 2 = 0) (Ly : Fin 3) (hLy : Ly = layerOf s) :
    returned (F := F) s k c = iprop(∃ f, slab (hSndSl Ly k) c f) := by subst hLy; exact if_pos hs
omit [FloatOps F] in
theorem returned_odd (s : Fin 6) (k : Fin 4) (c : Dev nD) (hs : ¬ s.val % 2 = 0) (Ly : Fin 3) (hLy : Ly = layerOf s) :
    returned (F := F) s k c = iprop(∃ f, slab (xSndSl Ly k) c f) := by subst hLy; exact if_neg hs
omit [FloatOps F] in
theorem landedAny_even (s : Fin 6) (k : Fin 4) (c : Dev nD) (hs : s.val % 2 = 0) (Ly : Fin 3) (hLy : Ly = layerOf s) :
    landedAny (F := F) s k c = iprop(∃ f, slab (hRcvSl Ly k) c f) := by subst hLy; exact if_pos hs
omit [FloatOps F] in
theorem landedAny_odd (s : Fin 6) (k : Fin 4) (c : Dev nD) (hs : ¬ s.val % 2 = 0) (Ly : Fin 3) (hLy : Ly = layerOf s) :
    landedAny (F := F) s k c = iprop(∃ f, slab (xRcvSl Ly k) c f) := by subst hLy; exact if_neg hs
theorem mate_even (s : Fin 6) (c : Dev nD) (hs : s.val % 2 = 0) : mate s c = yp c := if_pos hs
theorem mate_odd (s : Fin 6) (c : Dev nD) (hs : ¬ s.val % 2 = 0) : mate s c = xp c := if_neg hs

/-- A store of a payload known under another name. -/
theorem wp_store_as {cs : CoreSpace} {s : Shape} {e : EltTy} {α : Type} {Q : α → sProp 𝕄} (c : Dev nD) {M : Memref sig .tc cs s e} {r : Rect s}
    {w : r.shape.Idx → Elt F e} {Mk : Finset r.shape.Idx} {hx : (M.access r).Stores Mk} {hm : Mk = Finset.univ ∨ ∀ a, r.stride a = 1}
    {kont : PUnit → Prog (TpuEff nD τ sig (Elt F) Λ₀ .tc) α}
    {S : Finset (Idx ((M.access r).loc (c : Thread nD τ)))} {f : Buf (Elt F) ((M.access r).loc (c : Thread nD τ))}
    (hS : (M.access r).setOn Mk ⊆ S) (w' : r.shape.Idx → Elt F e) (hw : w = w') :
    ((M.access r).loc (c : Thread nD τ) ↦[S]{fullShare} f)
      ⊢ iprop((((M.access r).loc (c : Thread nD τ) ↦[S]{fullShare} ((M.access r).write (Elt F) f w' Mk))
            -∗ wp frame (wpE (defs₀ (F := F)) 𝒱₀ (c : Thread nD τ) none) Set.univ (kont ⟨⟩) Q)
        -∗ wp frame (wpE (defs₀ (F := F)) 𝒱₀ (c : Thread nD τ) none) Set.univ (.op (.store M r w Mk hx hm) kont) Q) := by
  subst hw
  exact wp_store 𝒱₀ (c : Thread nD τ) none Set.univ hS

theorem owes_peel (c : Dev nD) (s : Fin 6) (k : Fin 4) (j : ℕ) (hj : j = idx (s, k)) (W : Waits sig Unit) :
    (owes (c : Thread nD τ) (Orem j c) W : sProp 𝕄)
      = owes (c : Thread nD τ) (Orem (j + 1) c + tallyAt (rcvCell (mate s c) s k) () (amt s k)) W := by
  subst hj; rw [← Orem_succ' c (s, k)]

theorem pt_hSndSl (L : Fin 3) (k : Fin 4) (c : Dev nD) (f : Buf (Elt F) ((hSnd.access (rH L k)).loc (c : Thread nD τ))) :
    ((hSnd.access (rH L k)).loc (c : Thread nD τ) ↦[(hSnd.access (rH L k)).set]{fullShare} f : sProp 𝕄) = slab (hSndSl L k) c f :=
  (slab_hSndSl L k c f).symm
theorem pt_xSndSl (L : Fin 3) (k : Fin 4) (c : Dev nD) (f : Buf (Elt F) ((xSnd.access (rX L k)).loc (c : Thread nD τ))) :
    ((xSnd.access (rX L k)).loc (c : Thread nD τ) ↦[(xSnd.access (rX L k)).set]{fullShare} f : sProp 𝕄) = slab (xSndSl L k) c f :=
  (slab_xSndSl L k c f).symm

/-- A load whose value is already known under another name. -/
theorem wp_load_as {cs : CoreSpace} {s : Shape} {e : EltTy} {α : Type} {Q : α → sProp 𝕄} (c : Dev nD) {M : Memref sig .tc cs s e} {r : LoadRect s} {hl : M.view.LoadsAt r}
    {kont : (r.shape.Idx → Elt F e) → Prog (TpuEff nD τ sig (Elt F) Λ₀ .tc) α}
    {S : Finset (Idx (M.view.loc (c : Thread nD τ)))} {q : PosShare TreeShare} {f : Buf (Elt F) (M.view.loc (c : Thread nD τ))}
    (hS : M.view.setOn r.set ⊆ S) (v : r.shape.Idx → Elt F e) (hv : M.view.readAt (Elt F) r f = v) :
    (M.view.loc (c : Thread nD τ) ↦[S]{q} f)
      ⊢ iprop(((M.view.loc (c : Thread nD τ) ↦[S]{q} f) -∗ wp frame (wpE (defs₀ (F := F)) 𝒱₀ (c : Thread nD τ) none) Set.univ (kont v) Q)
        -∗ wp frame (wpE (defs₀ (F := F)) 𝒱₀ (c : Thread nD τ) none) Set.univ (.op (.load M r hl) kont) Q) := by
  subst hv
  exact wp_load 𝒱₀ (c : Thread nD τ) none Set.univ hS

theorem Orem_hO_snd {j : ℕ} {c : Dev nD} : ∀ g u, 0 < Orem j c g u → ∃ (c' : Dev nD) (t : T), g = rcvCell c' t.1 t.2 :=
  fun g u h => by obtain ⟨t, -, rfl⟩ := Orem_pos h; exact ⟨_, t, rfl⟩

theorem Orem_hO_rcv {j : ℕ} {c : Dev nD} (s : Fin 6) (k : Fin 4) (hj : 4 * s.val + k.val < j) :
    ∀ g u, 0 < Orem j c g u → ∃ (c' : Dev nD) (t : T), g = rcvCell c' t.1 t.2 ∧ 4 * s.val + k.val < 4 * t.1.val + t.2.val :=
  fun g u h => by obtain ⟨t, ht, rfl⟩ := Orem_pos h; exact ⟨_, t, rfl, by unfold idx at ht; omega⟩

theorem landed_even (s : Fin 6) (k : Fin 4) (c : Dev nD) (hs : s.val % 2 = 0) (Ly : Fin 3) (hLy : Ly = layerOf s) :
    landed m s k c = iprop(∃ f, slab (hRcvSl Ly k) c f ∗ ⌜(hRcvSl Ly k).view.read (Elt F) f = hSent m Ly (yp c) k⌝) := by
  subst hLy; unfold landed mate; rw [if_pos hs, if_pos hs]
theorem landed_odd (s : Fin 6) (k : Fin 4) (c : Dev nD) (hs : ¬ s.val % 2 = 0) (Ly : Fin 3) (hLy : Ly = layerOf s) :
    landed m s k c = iprop(∃ f, slab (xRcvSl Ly k) c f ∗ ⌜(xRcvSl Ly k).view.read (Elt F) f = xSent m Ly (xp c) k⌝) := by
  subst hLy; unfold landed mate; rw [if_neg hs, if_neg hs]

theorem pt_hRcvSl (L : Fin 3) (k : Fin 4) (c : Dev nD) (f : Buf (Elt F) ((hRcv.access (rH L k)).loc (c : Thread nD τ))) :
    ((hRcv.access (rH L k)).loc (c : Thread nD τ) ↦[(hRcv.access (rH L k)).set]{fullShare} f : sProp 𝕄) = slab (hRcvSl L k) c f :=
  (slab_hRcvSl L k c f).symm
theorem pt_xRcvSl (L : Fin 3) (k : Fin 4) (c : Dev nD) (f : Buf (Elt F) ((xRcv.access (rX L k)).loc (c : Thread nD τ))) :
    ((xRcv.access (rX L k)).loc (c : Thread nD τ) ↦[(xRcv.access (rX L k)).set]{fullShare} f : sProp 𝕄) = slab (xRcvSl L k) c f :=
  (slab_xRcvSl L k c f).symm

end Cert.KernelIdeal.Proto

end
-- ==== Proof.KernelIdeal.DevEqs.lean ====
import proofs.«901002_g7700000000001003_dist_mlpseq_tp2d_cs_cs_b256_d256_h512_v7x_xy2x2_f32_1_alg».proof.Proof.KernelIdeal.Proto

/-!
# The devices the body addresses

Each signal and each transfer names its target by arithmetic on the device's own mesh coordinates; over the four
devices each such chain is the row mate (the entry signal to it, and the transfers of the even stages) or the column
mate (the other entry signal, and the transfers of the odd stages).
-/

noncomputable section

namespace Cert.KernelIdeal.Proto

open Cert.KernelIdeal Cert.KernelIdeal.Gen
open Idealize.ShloMosaic

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)
theorem dev10_eq (c : Dev nD) : (⟨k0_dev10 c, k0_dev10_lt c⟩ : Dev nD) = xp c := Fin.ext (k0_dev10_eq c)
theorem dev11_eq (c : Dev nD) : (⟨k0_dev11 c, k0_dev11_lt c⟩ : Dev nD) = yp c := Fin.ext (k0_dev11_eq c)
theorem dev12_eq (c : Dev nD) : (⟨k0_dev12 c, k0_dev12_lt c⟩ : Dev nD) = yp c := Fin.ext (k0_dev12_eq c)
theorem dev13_eq (c : Dev nD) : (⟨k0_dev13 c, k0_dev13_lt c⟩ : Dev nD) = yp c := Fin.ext (k0_dev13_eq c)
theorem dev14_eq (c : Dev nD) : (⟨k0_dev14 c, k0_dev14_lt c⟩ : Dev nD) = yp c := Fin.ext (k0_dev14_eq c)
theorem dev15_eq (c : Dev nD) : (⟨k0_dev15 c, k0_dev15_lt c⟩ : Dev nD) = xp c := Fin.ext (k0_dev15_eq c)
theorem dev16_eq (c : Dev nD) : (⟨k0_dev16 c, k0_dev16_lt c⟩ : Dev nD) = xp c := Fin.ext (k0_dev16_eq c)
theorem dev17_eq (c : Dev nD) : (⟨k0_dev17 c, k0_dev17_lt c⟩ : Dev nD) = xp c := Fin.ext (k0_dev17_eq c)
theorem dev18_eq (c : Dev nD) : (⟨k0_dev18 c, k0_dev18_lt c⟩ : Dev nD) = xp c := Fin.ext (k0_dev18_eq c)
theorem dev19_eq (c : Dev nD) : (⟨k0_dev19 c, k0_dev19_lt c⟩ : Dev nD) = yp c := Fin.ext (k0_dev19_eq c)
theorem dev20_eq (c : Dev nD) : (⟨k0_dev20 c, k0_dev20_lt c⟩ : Dev nD) = yp c := Fin.ext (k0_dev20_eq c)
theorem dev21_eq (c : Dev nD) : (⟨k0_dev21 c, k0_dev21_lt c⟩ : Dev nD) = yp c := Fin.ext (k0_dev21_eq c)
theorem dev22_eq (c : Dev nD) : (⟨k0_dev22 c, k0_dev22_lt c⟩ : Dev nD) = yp c := Fin.ext (k0_dev22_eq c)
theorem dev23_eq (c : Dev nD) : (⟨k0_dev23 c, k0_dev23_lt c⟩ : Dev nD) = xp c := Fin.ext (k0_dev23_eq c)
theorem dev24_eq (c : Dev nD) : (⟨k0_dev24 c, k0_dev24_lt c⟩ : Dev nD) = xp c := Fin.ext (k0_dev24_eq c)
theorem dev25_eq (c : Dev nD) : (⟨k0_dev25 c, k0_dev25_lt c⟩ : Dev nD) = xp c := Fin.ext (k0_dev25_eq c)
theorem dev26_eq (c : Dev nD) : (⟨k0_dev26 c, k0_dev26_lt c⟩ : Dev nD) = xp c := Fin.ext (k0_dev26_eq c)

end Cert.KernelIdeal.Proto

end
-- ==== Proof.KernelIdeal.Steps2.lean ====
import proofs.«901002_g7700000000001003_dist_mlpseq_tp2d_cs_cs_b256_d256_h512_v7x_xy2x2_f32_1_alg».proof.Proof.KernelIdeal.BodyDefs
import proofs.«901002_g7700000000001003_dist_mlpseq_tp2d_cs_cs_b256_d256_h512_v7x_xy2x2_f32_1_alg».proof.Proof.KernelIdeal.Tables
import proofs.«901002_g7700000000001003_dist_mlpseq_tp2d_cs_cs_b256_d256_h512_v7x_xy2x2_f32_1_alg».proof.Proof.KernelIdeal.DevEqs
import Idealize.ShloMosaic.Lib.Tactic

/-!
# The protocol's step rules: the waits of a transfer, the entry handshake

A wait for the whole credit of a transfer's send or receive cell takes the rest of the cell's one round, which is the
duty's payload (the sent slab back; the landing slab holding what the stage's mate sent), and the cell, no round of
which has a duty from then on, closes: its counter at zero is the device's again. The entry handshake: a device hands
its own two landing buffers to its two mates with its two barrier signals, and its wait for both mates' signals hands
it the mates' landing buffers.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit of a slab -/

/-- Every `64 × 512` bf16 view of the TensorCore's has the credit of an even stage's transfers. -/
theorem credit_h (s : Fin 6) (k : Fin 4) (hs : s.val % 2 = 0) (M : Memref sig .tc .vmem S64x512 .bf16) : M.view.dmaCredit = amt s k := by
  unfold amt; rw [if_pos hs]

/-- Every `64 × 256` bf16 view of the TensorCore's has the credit of an odd stage's transfers. -/
theorem credit_x (s : Fin 6) (k : Fin 4) (hs : ¬ s.val % 2 = 0) (M : Memref sig .tc .vmem S64x256 .bf16) : M.view.dmaCredit = amt s k := by
  unfold amt; rw [if_neg hs]

variable (K : Dev nD × CI → ℕ)

/-- The invariant of one cell, out of the records. -/
theorem inv_at (ck : Dev nD × CI) : records m K ⊢ cellInv ER (Rd m) (K ck) (kcell ck) := by
  unfold records
  iintro ⟨H, -⟩
  iapply (show ((bigSep Finset.univ fun ck : Dev nD × CI => cellInv ER (Rd m) (K ck) (kcell ck)) : sProp 𝕄) ⊢ cellInv ER (Rd m) (K ck) (kcell ck) from
    bigSep_elim (Finset.mem_univ ck)) $$ H

/-- That one cell has reached round 0, out of the records. -/
theorem reached_at (ck : Dev nD × CI) : records m K ⊢ reached ER (kcell ck) 0 := by
  unfold records
  iintro ⟨-, H⟩
  iapply (show ((bigSep Finset.univ fun ck : Dev nD × CI => reached ER (kcell ck) 0) : sProp 𝕄) ⊢ reached ER (kcell ck) 0 from
    bigSep_elim (Finset.mem_univ ck)) $$ H

/-! ## The waits of a transfer -/

/-- The wait for the credit of the send cell of `(s, k)`, while the device owes receive cells only: the sent slab is
    back, the cell closes. -/
theorem wp_wait_snd (c : Dev nD) (s : Fin 6) (k : Fin 4) (q : DmaSem sig) (hq : q = sndSem s k)
    {sp sp' : Space} {sh sh' : Shape} {e e' : EltTy}
    {src : Memref sig .tc sp' sh' e'} {dst : Memref sig .tc sp sh e} {hsrc : src.view.WordExact} {hdst : dst.view.WordExact}
    (hamt : dst.view.dmaCredit = amt s k)
    {α : Type} {Q : α → sProp 𝕄} {kont : PUnit → Prog (TpuEff nD τ sig (Elt F) Λ₀ .tc) α}
    (O : CellTallies nD τ sig Unit) (W : Waits sig Unit)
    (hO : ∀ g u, 0 < O g u → ∃ (c' : Dev nD) (t : T), g = rcvCell c' t.1 t.2) :
    iprop(records m K ∗ cred (tallyAt (sndCell c s k) () (amt s k)) ∗ owes (c : Thread nD τ) O W
        ∗ atPos ER (sndCell c s k) 0 ∅ 0 ∗ levAts L lv)
      ⊢ iprop(((returned s k c ∗ semVal (sndCell c s k) 0 ∗ owes (c : Thread nD τ) O (insert (SemLoc.dma (sndSem s k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 q src dst hsrc hdst) kont) Q) := by
  subst hq
  iintro ⟨#Hrec, Hc, HO, Hat, #Hlev⟩ Hk
  ihave #HI := (inv_at m K (c, CI.snd (s, k))) $$ Hrec
  iapply (Rounds.wp_wait_rest_token 𝒱₀ ER (Rd m) (c : Thread nD τ) none (κ := K (c, CI.snd (s, k)))
      (wpE_waitDma2_eq 𝒱₀ (c : Thread nD τ) none Set.univ) (Set.mem_univ _) () (O := O) (W := W) (R := 0) (m := 0) (T := ∅)
      (by rw [Nat.zero_add, expect_snd, hamt])) $$ [Hc HO Hat]
  · isplitr; · iexact HI
    isplitl [Hc]; · rw [hamt]; iexact Hc
    isplitl [HO]; · iexact HO
    isplitr; · iapply (mayWait_low c (sndSem s k) (sndSem_lt s k).2 O hO); iexact Hlev
    iexact Hat
  iintro ⟨HO, Hat, -, Hpay⟩
  ihave Hret := (Entails.of_eq (rest_snd m c s k)) $$ Hpay
  imod (Rounds.cell_close ER (Rd m) (Set.mem_univ (K (c, CI.snd (s, k)))) (fun h => h) (R := 0 + 1) (duties_later m (sndCell c s k))) $$ [Hat] with Hz
  · isplitr; · iexact HI
    iexact Hat
  iapply Hk
  isplitl [Hret]; · iexact Hret
  isplitl [Hz]; · iexact Hz
  iexact HO

/-- The wait for the credit of the receive cell of `(s, k)`, while the device owes only receive cells of later
    transfers: the landing slab holds what the stage's mate sent, the cell closes. -/
theorem wp_wait_rcv (c : Dev nD) (s : Fin 6) (k : Fin 4) (q : DmaSem sig) (hq : q = rcvSem s k)
    {sp sp' : Space} {sh sh' : Shape} {e e' : EltTy}
    {src : Memref sig .tc sp' sh' e'} {dst : Memref sig .tc sp sh e} {hsrc : src.view.WordExact} {hdst : dst.view.WordExact}
    (hamt : dst.view.dmaCredit = amt s k)
    {α : Type} {Q : α → sProp 𝕄} {kont : PUnit → Prog (TpuEff nD τ sig (Elt F) Λ₀ .tc) α}
    (O : CellTallies nD τ sig Unit) (W : Waits sig Unit)
    (hO : ∀ g u, 0 < O g u → ∃ (c' : Dev nD) (t : T), g = rcvCell c' t.1 t.2 ∧ 4 * s.val + k.val < 4 * t.1.val + t.2.val) :
    iprop(records m K ∗ cred (tallyAt (rcvCell c s k) () (amt s k)) ∗ owes (c : Thread nD τ) O W
        ∗ atPos ER (rcvCell c s k) 0 ∅ 0 ∗ levAts L lv)
      ⊢ iprop(((landed m s k c ∗ semVal (rcvCell c s k) 0 ∗ owes (c : Thread nD τ) O (insert (SemLoc.dma (rcvSem s k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 q src dst hsrc hdst) kont) Q) := by
  subst hq
  iintro ⟨#Hrec, Hc, HO, Hat, #Hlev⟩ Hk
  ihave #HI := (inv_at m K (c, CI.rcv (s, k))) $$ Hrec
  iapply (Rounds.wp_wait_rest_token 𝒱₀ ER (Rd m) (c : Thread nD τ) none (κ := K (c, CI.rcv (s, k)))
      (wpE_waitDma2_eq 𝒱₀ (c : Thread nD τ) none Set.univ) (Set.mem_univ _) () (O := O) (W := W) (R := 0) (m := 0) (T := ∅)
      (by rw [Nat.zero_add, expect_rcv, hamt])) $$ [Hc HO Hat]
  · isplitr; · iexact HI
    isplitl [Hc]; · rw [hamt]; iexact Hc
    isplitl [HO]; · iexact HO
    isplitr; · iapply (mayWait_rcv c s k O hO); iexact Hlev
    iexact Hat
  iintro ⟨HO, Hat, -, Hpay⟩
  ihave Hland := (Entails.of_eq (rest_rcv m c s k)) $$ Hpay
  imod (Rounds.cell_close ER (Rd m) (Set.mem_univ (K (c, CI.rcv (s, k)))) (fun h => h) (R := 0 + 1) (duties_later m (rcvCell c s k))) $$ [Hat] with Hz
  · isplitr; · iexact HI
    iexact Hat
  iapply Hk
  isplitl [Hland]; · iexact Hland
  isplitl [Hz]; · iexact Hz
  iexact HO

/-! ## The entry handshake -/

/-- The signal to the row mate's barrier cell: its duty `false`, paid with the device's own landing buffer of the
    first matmuls' halves; the unit is off what the device owes. -/
theorem wp_signal_row (c n : Dev nD) (hn : n = yp c) (sem : Sem sig) (hsem : sem = barS) (a : ℕ) (ha : a = 1)
    {α : Type} {Q : α → sProp 𝕄} {kont : PUnit → Prog (TpuEff nD τ sig (Elt F) Λ₀ .tc) α}
    (O : CellTallies nD τ sig Unit) (W : Waits sig Unit) :
    iprop(records m K ∗ owes (c : Thread nD τ) (O + tallyAt (barCell (yp c)) () 1) W ∗ dutyTok ER (barCell (yp c)) 0 false
        ∗ (∃ f, slab hRcv c f))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (Dev.tc n : Thread nD τ) sem a) kont) Q) := by
  subst hn hsem ha
  iintro ⟨#Hrec, HO, Htok, Hbuf⟩ Hk
  ihave #HI := (inv_at m K (yp c, CI.bar)) $$ Hrec
  ihave #Hr := (reached_at m K (yp c, CI.bar)) $$ Hrec
  iapply (Rounds.wp_signal 𝒱₀ ER (Rd m) (c : Thread nD τ) none (dst := (yp c : Thread nD τ)) (κ := K (yp c, CI.bar))
      (d := false) (by rw [duties_bar]; exact Finset.mem_univ _) (amount_bar m (yp c) false) () O rfl) $$ [HO Htok Hbuf]
  · isplitr; · iexact HI
    isplitl [HO]; · iexact HO
    isplitl [Htok]; · iexact Htok
    isplitl [Hbuf]
    · rw [payload_bar_false]; unfold barPayY; rw [yp_yp]; iexact Hbuf
    · iexact Hr
  iexact Hk

/-- The signal to the column mate's barrier cell: its duty `true`, paid with the device's own landing buffer of the
    second matmuls' halves. -/
theorem wp_signal_col (c n : Dev nD) (hn : n = xp c) (sem : Sem sig) (hsem : sem = barS) (a : ℕ) (ha : a = 1)
    {α : Type} {Q : α → sProp 𝕄} {kont : PUnit → Prog (TpuEff nD τ sig (Elt F) Λ₀ .tc) α}
    (O : CellTallies nD τ sig Unit) (W : Waits sig Unit) :
    iprop(records m K ∗ owes (c : Thread nD τ) (O + tallyAt (barCell (xp c)) () 1) W ∗ dutyTok ER (barCell (xp c)) 0 true
        ∗ (∃ f, slab xRcv c f))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (Dev.tc n : Thread nD τ) sem a) kont) Q) := by
  subst hn hsem ha
  iintro ⟨#Hrec, HO, Htok, Hbuf⟩ Hk
  ihave #HI := (inv_at m K (xp c, CI.bar)) $$ Hrec
  ihave #Hr := (reached_at m K (xp c, CI.bar)) $$ Hrec
  iapply (Rounds.wp_signal 𝒱₀ ER (Rd m) (c : Thread nD τ) none (dst := (xp c : Thread nD τ)) (κ := K (xp c, CI.bar))
      (d := true) (by rw [duties_bar]; exact Finset.mem_univ _) (amount_bar m (xp c) true) () O rfl) $$ [HO Htok Hbuf]
  · isplitr; · iexact HI
    isplitl [HO]; · iexact HO
    isplitl [Htok]; · iexact Htok
    isplitl [Hbuf]
    · rw [payload_bar_true]; unfold barPayX; rw [xp_xp]; iexact Hbuf
    · iexact Hr
  iexact Hk

/-- The wait for both mates' signals, while the device owes the transfers' credits only: the mates' landing buffers
    come with them. -/
theorem wp_wait_bar (c : Dev nD) (sem : Sem sig) (hsem : sem = barS) (a : ℕ) (ha : a = 2)
    {α : Type} {Q : α → sProp 𝕄} {kont : PUnit → Prog (TpuEff nD τ sig (Elt F) Λ₀ .tc) α}
    (W : Waits sig Unit) :
    iprop(records m K ∗ cred (tallyAt (barCell c) () 2) ∗ owes (c : Thread nD τ) (OX c) W
        ∗ atPos ER (barCell c) 0 ∅ 0 ∗ levAts L lv)
      ⊢ iprop((((∃ f, slab hRcv (yp c) f) ∗ (∃ f, slab xRcv (xp c) f)
              ∗ owes (c : Thread nD τ) (OX c) (insert (SemLoc.reg barS, ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.semWait sem a) kont) Q) := by
  subst hsem ha
  iintro ⟨#Hrec, Hc, HO, Hat, #Hlev⟩ Hk
  ihave #HI := (inv_at m K (c, CI.bar)) $$ Hrec
  iapply (Rounds.wp_wait_rest_token 𝒱₀ ER (Rd m) (c : Thread nD τ) none (κ := K (c, CI.bar))
      (wpE_semWait_eq 𝒱₀ (c : Thread nD τ) none Set.univ) (Set.mem_univ _) () (O := OX c) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  unfold barPayY barPayX
  icases Hp with ⟨HY, HX⟩
  iapply Hk
  isplitl [HY]; · iexact HY
  isplitl [HX]; · iexact HX
  iexact HO

end Cert.KernelIdeal.Proto

end
-- ==== Proof.KernelIdeal.Glue.lean ====
import proofs.«901002_g7700000000001003_dist_mlpseq_tp2d_cs_cs_b256_d256_h512_v7x_xy2x2_f32_1_alg».proof.Proof.KernelIdeal.Slabs

/-!
# The values the body stores and sends

The body loads vectors, computes with them and stores or sends the results. Here: that what it computes from the
canonical values of the previous stage (its own half, read back from its own slab; the mate's half, landed in the
receive slab; its weights, read whole) is the canonical value of the stage, and that the four row chunks it stores
into the result buffer make up the result array.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads of a whole staging buffer -/

theorem hz2 : (![0, 0] : Fin 2 → Nat) = fun _ => 0 := funext fun a => by fin_cases a <;> rfl

/-! ## Stores read back -/

/-- The own half of a first matmul, stored to its slab and loaded back. -/
theorem hLoc_stored (L : Fin 3) (k : Fin 4) (f : (hLoc.access (rH L k)).ty.Contents (Elt F)) (p : FVec F S64x512 .f32) :
    shapeCast S64x512 (hLoc.view.readAt (Elt F) (rH L k).toLoadRect
      ((hLoc.access (rH L k)).write (Elt F) f (shapeCast S1x1x64x512 p shapeCasts_S64x512_S1x1x64x512) Finset.univ)) shapeCasts_S1x1x64x512_S64x512 = p := by
  have h := readAt_write_same (F := F) hLoc (rH L k) f (shapeCast S1x1x64x512 p shapeCasts_S64x512_S1x1x64x512)
  exact (congrArg (fun v : S1x1x64x512.Idx → Elt F .f32 => shapeCast S64x512 v shapeCasts_S1x1x64x512_S64x512) h).trans (shapeCast_shapeCast p _ _)

/-- The own half of a second matmul, stored to its slab and loaded back. -/
theorem xLoc_stored (L : Fin 3) (k : Fin 4) (f : (xLoc.access (rX L k)).ty.Contents (Elt F)) (p : FVec F S64x256 .f32) :
    shapeCast S64x256 (xLoc.view.readAt (Elt F) (rX L k).toLoadRect
      ((xLoc.access (rX L k)).write (Elt F) f (shapeCast S1x1x64x256 p shapeCasts_S64x256_S1x1x64x256) Finset.univ)) shapeCasts_S1x1x64x256_S64x256 = p := by
  have h := readAt_write_same (F := F) xLoc (rX L k) f (shapeCast S1x1x64x256 p shapeCasts_S64x256_S1x1x64x256)
  exact (congrArg (fun v : S1x1x64x256.Idx → Elt F .f32 => shapeCast S64x256 v shapeCasts_S1x1x64x256_S64x256) h).trans (shapeCast_shapeCast p _ _)

/-- The half of a first matmul, cast to bf16 and stored to the send slab, is what the transfer sends. -/
theorem hSnd_sent (L : Fin 3) (k : Fin 4) (c : Dev nD) (f : (hSnd.access (rH L k)).ty.Contents (Elt F)) (p : FVec F S64x512 .f32)
    (hp : p = Vals.hpart (insOf m) yp xp L c k) :
    (hSndSl L k).view.read (Elt F) ((hSnd.access (rH L k)).write (Elt F) f
      (shapeCast S1x1x64x512 (truncf .bf16 p bitsLt_bf16_f32) shapeCasts_S64x512_S1x1x64x512) Finset.univ) = hSent m L c k := by
  have h := hSndSl_read_write (F := F) L k f (shapeCast S1x1x64x512 (truncf .bf16 p bitsLt_bf16_f32) shapeCasts_S64x512_S1x1x64x512)
  exact h.trans ((shapeCast_shapeCast _ _ _).trans (by rw [hp]; rfl))

/-- The half of a second matmul, cast to bf16 and stored to the send slab, is what the transfer sends. -/
theorem xSnd_sent (L : Fin 3) (k : Fin 4) (c : Dev nD) (f : (xSnd.access (rX L k)).ty.Contents (Elt F)) (p : FVec F S64x256 .f32)
    (hp : p = Vals.xpart (insOf m) yp xp L c k) :
    (xSndSl L k).view.read (Elt F) ((xSnd.access (rX L k)).write (Elt F) f
      (shapeCast S1x1x64x256 (truncf .bf16 p bitsLt_bf16_f32) shapeCasts_S64x256_S1x1x64x256) Finset.univ) = xSent m L c k := by
  have h := xSndSl_read_write (F := F) L k f (shapeCast S1x1x64x256 (truncf .bf16 p bitsLt_bf16_f32) shapeCasts_S64x256_S1x1x64x256)
  exact h.trans ((shapeCast_shapeCast _ _ _).trans (by rw [hp]; rfl))

/-! ## The stages' values -/

/-- The first stage: rows `64 k …` of the device's block of `x`, times its block of the first layer's `Win`. -/
theorem stage0_hpart (c : Dev nD) (k : Fin 4) (w : Vec F S256x512 .f32) (hw : w = stgWin m 0 c) :
    k0_pay2 ((Memref.whole cc0_stg0_0 : Memref sig .tc .vmem S256x256 .f32).view.readAt (Elt F) (Vals.rRow k).toLoadRect (stgX m c)) w
      = Vals.hpart (insOf m) yp xp 0 c k := by
  subst hw; rfl

/-- An odd stage: from the own half and the row mate's landed half of the first matmul, the half of the second. -/
theorem odd_xpart (L : Fin 3) (c : Dev nD) (k : Fin 4) (v129 : Vec F S1x1x64x512 .f32) (v131 : Vec F S1x1x64x512 .bf16) (w : Vec F S512x256 .f32)
    (h1 : shapeCast S64x512 v129 shapeCasts_S1x1x64x512_S64x512 = Vals.hpart (insOf m) yp xp L c k)
    (h2 : shapeCast S64x512 v131 shapeCasts_S1x1x64x512_S64x512 = hSent m L (yp c) k)
    (hw : w = stgWout m L c) :
    k0_pay15 v129 v131 w = Vals.xpart (insOf m) yp xp L c k := by
  show Vals.mmOut (Vals.hsumOf (shapeCast S64x512 v129 shapeCasts_S1x1x64x512_S64x512) (shapeCast S64x512 v131 shapeCasts_S1x1x64x512_S64x512)) w = _
  rw [h1, h2, hw]; rfl

/-- The same, the mate's half as the load of the landed slab. -/
theorem odd_xpart_landed (L : Fin 3) (c : Dev nD) (k : Fin 4) (v129 : Vec F S1x1x64x512 .f32) (fr : hRcv.view.ty.Contents (Elt F)) (w : Vec F S512x256 .f32)
    (h1 : shapeCast S64x512 v129 shapeCasts_S1x1x64x512_S64x512 = Vals.hpart (insOf m) yp xp L c k)
    (h2 : (hRcvSl L k).view.read (Elt F) fr = hSent m L (yp c) k)
    (hw : w = stgWout m L c) :
    k0_pay15 v129 (hRcv.view.readAt (Elt F) (rH L k).toLoadRect fr) w = Vals.xpart (insOf m) yp xp L c k :=
  odd_xpart m L c k v129 _ w h1 ((hRcv_load_landed L k fr).trans h2) hw

/-- An even stage after the first: from the own half and the column mate's landed half of the previous layer's second
    matmul, the half of this layer's first. -/
theorem even_hpart (L L' : Fin 3) (hL : L'.val = L.val + 1) (c : Dev nD) (k : Fin 4)
    (v313 : Vec F S1x1x64x256 .f32) (v315 : Vec F S1x1x64x256 .bf16) (w : Vec F S256x512 .f32)
    (h1 : shapeCast S64x256 v313 shapeCasts_S1x1x64x256_S64x256 = Vals.xpart (insOf m) yp xp L c k)
    (h2 : shapeCast S64x256 v315 shapeCasts_S1x1x64x256_S64x256 = xSent m L (xp c) k)
    (hw : w = stgWin m L' c) :
    k0_pay29 v313 v315 w = Vals.hpart (insOf m) yp xp L' c k := by
  show Vals.mmIn (Vals.xsumOf (shapeCast S64x256 v313 shapeCasts_S1x1x64x256_S64x256) (shapeCast S64x256 v315 shapeCasts_S1x1x64x256_S64x256)) w = _
  rw [h1, h2, hw]
  unfold Vals.hpart
  rw [hL, Vals.xin_succ]; rfl

theorem even_hpart_landed (L L' : Fin 3) (hL : L'.val = L.val + 1) (c : Dev nD) (k : Fin 4)
    (v313 : Vec F S1x1x64x256 .f32) (fr : xRcv.view.ty.Contents (Elt F)) (w : Vec F S256x512 .f32)
    (h1 : shapeCast S64x256 v313 shapeCasts_S1x1x64x256_S64x256 = Vals.xpart (insOf m) yp xp L c k)
    (h2 : (xRcvSl L k).view.read (Elt F) fr = xSent m L (xp c) k)
    (hw : w = stgWin m L' c) :
    k0_pay29 v313 (xRcv.view.readAt (Elt F) (rX L k).toLoadRect fr) w = Vals.hpart (insOf m) yp xp L' c k :=
  even_hpart m L L' hL c k v313 _ w h1 ((xRcv_load_landed L k fr).trans h2) hw

/-- The end: the own half and the column mate's landed half of the last layer's second matmul add up to the result's chunk. -/
theorem final_xin (c : Dev nD) (k : Fin 4) (v1033 : Vec F S1x1x64x256 .f32) (v1035 : Vec F S1x1x64x256 .bf16)
    (h1 : shapeCast S64x256 v1033 shapeCasts_S1x1x64x256_S64x256 = Vals.xpart (insOf m) yp xp 2 c k)
    (h2 : shapeCast S64x256 v1035 shapeCasts_S1x1x64x256_S64x256 = xSent m 2 (xp c) k) :
    k0_pay83 v1033 v1035 = Vals.xin (insOf m) yp xp 3 c k := by
  show Vals.xsumOf (shapeCast S64x256 v1033 shapeCasts_S1x1x64x256_S64x256) (shapeCast S64x256 v1035 shapeCasts_S1x1x64x256_S64x256) = _
  rw [h1, h2]; exact (Vals.xin_succ (insOf m) yp xp 2 c k).symm

theorem final_xin_landed (c : Dev nD) (k : Fin 4) (v1033 : Vec F S1x1x64x256 .f32) (fr : xRcv.view.ty.Contents (Elt F))
    (h1 : shapeCast S64x256 v1033 shapeCasts_S1x1x64x256_S64x256 = Vals.xpart (insOf m) yp xp 2 c k)
    (h2 : (xRcvSl 2 k).view.read (Elt F) fr = xSent m 2 (xp c) k) :
    k0_pay83 v1033 (xRcv.view.readAt (Elt F) (rX 2 k).toLoadRect fr) = Vals.xin (insOf m) yp xp 3 c k :=
  final_xin m c k v1033 _ h1 ((xRcv_load_landed 2 k fr).trans h2)

/-! ## Every copy of a payload is the same function -/

example : (k0_pay6 : Vec F S64x256 .f32 → Vec F S256x512 .f32 → FVec F S64x512 .f32) = k0_pay2 := rfl
example : (k0_pay12 : Vec F S64x256 .f32 → Vec F S256x512 .f32 → FVec F S64x512 .f32) = k0_pay2 := rfl
example (v w) : (k0_pay3 v w : FVec F S1x1x64x512 .f32) = shapeCast S1x1x64x512 (k0_pay2 v w) shapeCasts_S64x512_S1x1x64x512 := rfl
example (v w) : (k0_pay5 (k0_pay4 v w) : FVec F S1x1x64x512 .bf16) = shapeCast S1x1x64x512 (truncf .bf16 (k0_pay2 v w) bitsLt_bf16_f32) shapeCasts_S64x512_S1x1x64x512 := rfl
example (v w) : (k0_pay8 v w : FVec F S1x1x64x512 .bf16) = shapeCast S1x1x64x512 (truncf .bf16 (k0_pay2 v w) bitsLt_bf16_f32) shapeCasts_S64x512_S1x1x64x512 := rfl
example (v221 v223 w) : (k0_pay22 (k0_pay21 v221) v223 w : FVec F S64x256 .f32) = k0_pay15 v221 v223 w := rfl
example (v267 v269 w) : (k0_pay26 (k0_pay25 v267 v269) (Scalar.ofBits .f32 0x00000000#32) w : FVec F S64x256 .f32) = k0_pay15 v267 v269 w := rfl
example (a b w) : (k0_pay42 a b w : FVec F S64x256 .f32) = k0_pay15 a b w := rfl
example (a b w) : (k0_pay16 a b w : FVec F S1x1x64x256 .f32) = shapeCast S1x1x64x256 (k0_pay15 a b w) shapeCasts_S64x256_S1x1x64x256 := rfl
example (a b w) : (k0_pay17 a b w : FVec F S1x1x64x256 .bf16) = shapeCast S1x1x64x256 (truncf .bf16 (k0_pay15 a b w) bitsLt_bf16_f32) shapeCasts_S64x256_S1x1x64x256 := rfl
example (a b w) : (k0_pay32 a b w : FVec F S64x512 .f32) = k0_pay29 a b w := rfl
example (a b w) : (k0_pay31 (k0_pay29 a b w) : FVec F S1x1x64x512 .bf16) = shapeCast S1x1x64x512 (truncf .bf16 (k0_pay29 a b w) bitsLt_bf16_f32) shapeCasts_S64x512_S1x1x64x512 := rfl
example (a b) : (k0_pay84 a b : FVec F S64x256 .f32) = k0_pay83 a b := rfl
example (a b) : (k0_pay87 (k0_pay85 a) (k0_pay86 b) : FVec F S64x256 .f32) = k0_pay83 a b := rfl
example (a b) : (k0_pay1 (k0_pay88 a) b : FVec F S64x256 .f32) = k0_pay83 a b := rfl

/-! ## The result buffer -/

/-- The result's staging buffer. -/
abbrev oM : Memref sig .tc .vmem S256x256 .f32 := Memref.whole cc0_stg7_0

/-- A store of a `64 × 256` chunk at rows `64 k …`, read at an index: the chunk's element on those rows, the former
    contents elsewhere. -/
theorem row_write_apply (k : Fin 4) (f : Vec F S256x256 .f32) (w : FVec F S64x256 .f32) (i : S256x256.Idx) :
    (oM.access (Vals.rRow k)).write (Elt F) f w Finset.univ i
      = if (i 0).val / 64 = k.val then w (ValueIdx.ix2 (n0 := 64) (n1 := 256) ⟨(i 0).val % 64, Nat.mod_lt _ (by decide)⟩ (i 1)) else f i := by
  by_cases h : (i 0).val / 64 = k.val
  · rw [if_pos h]
    have hi : i = (oM.access (Vals.rRow k)).emb (ValueIdx.ix2 (n0 := 64) (n1 := 256) ⟨(i 0).val % 64, Nat.mod_lt _ (by decide)⟩ (i 1)) := by
      funext a; apply Fin.ext; fin_cases a
      · show (i 0).val = 64 * k.val + 1 * ((i 0).val % 64); omega
      · show (i 1).val = 0 + 1 * (i 1).val; omega
    refine (congrArg (fun j => (oM.access (Vals.rRow k)).write (Elt F) f w Finset.univ j) hi).trans ?_
    exact (View.write_emb_of_mem (v := oM.access (Vals.rRow k)) (Val := Elt F) f w (Finset.mem_univ _)).trans rfl
  · rw [if_neg h]
    refine View.write_of_not_mem (v := oM.access (Vals.rRow k)) (Val := Elt F) f w Finset.univ fun hm => h ?_
    rw [View.setOn_univ, View.set_slice] at hm
    obtain ⟨x, hx, rfl⟩ := Finset.mem_map.mp hm
    have h0 := Rect.mem_set_unit.mp hx 0
    have h0' : 64 * k.val ≤ (x 0).val ∧ (x 0).val < 64 * k.val + 64 := h0
    show (x 0).val / 64 = k.val
    omega

theorem sel4 {α : Type} (q : Fin 4) (a : Fin 4 → α) (d : α) :
    (if q.val = (3 : Fin 4).val then a 3 else if q.val = (2 : Fin 4).val then a 2 else if q.val = (1 : Fin 4).val then a 1
      else if q.val = (0 : Fin 4).val then a 0 else d) = a q := by
  fin_cases q <;> rfl

/-- The four chunks, stored at rows 0, 64, 128, 192 into any contents, make up the result array. -/
theorem out_writes (c : Dev nD) (g : Vec F S256x256 .f32) :
    (oM.access (Vals.rRow 3)).write (Elt F)
      ((oM.access (Vals.rRow 2)).write (Elt F)
        ((oM.access (Vals.rRow 1)).write (Elt F)
          ((oM.access (Vals.rRow 0)).write (Elt F) g (Vals.xin (insOf m) yp xp 3 c 0) Finset.univ)
          (Vals.xin (insOf m) yp xp 3 c 1) Finset.univ)
        (Vals.xin (insOf m) yp xp 3 c 2) Finset.univ)
      (Vals.xin (insOf m) yp xp 3 c 3) Finset.univ = outAt m c := by
  funext i
  rw [row_write_apply, row_write_apply, row_write_apply, row_write_apply]
  have hq : (i 0).val / 64 < 4 := by have := ValueIdx.idx2_lt0 i; omega
  exact sel4 ⟨(i 0).val / 64, hq⟩
    (fun k => Vals.xin (insOf m) yp xp 3 c k (ValueIdx.ix2 (n0 := 64) (n1 := 256) ⟨(i 0).val % 64, Nat.mod_lt _ (by decide)⟩ (i 1))) (g i)

end Cert.KernelIdeal.Proto

end
-- ==== Proof.KernelIdeal.Facts.lean ====
import proofs.«901002_g7700000000001003_dist_mlpseq_tp2d_cs_cs_b256_d256_h512_v7x_xy2x2_f32_1_alg».proof.Proof.KernelIdeal.Glue

/-!
# What the own-half buffers hold, store by store

The buffers of the own halves are never sent: a device holds them whole. After the chunks `k' < n` of a layer have
been stored, their slabs read back as the canonical halves; a store into the next slab extends this by one chunk, and a
store into a slab of another layer keeps it.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One more chunk of the own halves of a layer's first matmul. -/
theorem hLoc_facts_step (Ly : Fin 3) (c : Dev nD) (n : Fin 4) (fL : (hLoc.access (rH Ly n)).ty.Contents (Elt F)) (p : FVec F S64x512 .f32)
    (hp : p = Vals.hpart (insOf m) yp xp Ly c n)
    (h : ∀ k' : Fin 4, k'.val < n.val → shapeCast S64x512 (hLoc.view.readAt (Elt F) (rH Ly k').toLoadRect fL) shapeCasts_S1x1x64x512_S64x512
      = Vals.hpart (insOf m) yp xp Ly c k') :
    ∀ k' : Fin 4, k'.val < n.val + 1 → shapeCast S64x512 (hLoc.view.readAt (Elt F) (rH Ly k').toLoadRect
        ((hLoc.access (rH Ly n)).write (Elt F) fL (shapeCast S1x1x64x512 p shapeCasts_S64x512_S1x1x64x512) Finset.univ)) shapeCasts_S1x1x64x512_S64x512
      = Vals.hpart (insOf m) yp xp Ly c k' := by
  intro k' hk
  by_cases e : k' = n
  · subst e; rw [← hp]; exact hLoc_stored Ly k' fL p
  · have hne : (Ly, n) ≠ (Ly, k') := fun q => e (congrArg Prod.snd q).symm
    have hr := read_write_other_H (F := F) hLoc Ly Ly n k' hne fL (shapeCast S1x1x64x512 p shapeCasts_S64x512_S1x1x64x512)
    have hlt : k'.val < n.val := by have : k'.val ≠ n.val := fun q => e (Fin.ext q); omega
    exact (congrArg (fun v : S1x1x64x512.Idx → Elt F .f32 => shapeCast S64x512 v shapeCasts_S1x1x64x512_S64x512) hr).trans (h k' hlt)

/-- One more chunk of the own halves of a layer's second matmul. -/
theorem xLoc_facts_step (Ly : Fin 3) (c : Dev nD) (n : Fin 4) (fX : (xLoc.access (rX Ly n)).ty.Contents (Elt F)) (p : FVec F S64x256 .f32)
    (hp : p = Vals.xpart (insOf m) yp xp Ly c n)
    (h : ∀ k' : Fin 4, k'.val < n.val → shapeCast S64x256 (xLoc.view.readAt (Elt F) (rX Ly k').toLoadRect fX) shapeCasts_S1x1x64x256_S64x256
      = Vals.xpart (insOf m) yp xp Ly c k') :
    ∀ k' : Fin 4, k'.val < n.val + 1 → shapeCast S64x256 (xLoc.view.readAt (Elt F) (rX Ly k').toLoadRect
        ((xLoc.access (rX Ly n)).write (Elt F) fX (shapeCast S1x1x64x256 p shapeCasts_S64x256_S1x1x64x256) Finset.univ)) shapeCasts_S1x1x64x256_S64x256
      = Vals.xpart (insOf m) yp xp Ly c k' := by
  intro k' hk
  by_cases e : k' = n
  · subst e; rw [← hp]; exact xLoc_stored Ly k' fX p
  · have hne : (Ly, n) ≠ (Ly, k') := fun q => e (congrArg Prod.snd q).symm
    have hr := read_write_other_X (F := F) xLoc Ly Ly n k' hne fX (shapeCast S1x1x64x256 p shapeCasts_S64x256_S1x1x64x256)
    have hlt : k'.val < n.val := by have : k'.val ≠ n.val := fun q => e (Fin.ext q); omega
    exact (congrArg (fun v : S1x1x64x256.Idx → Elt F .f32 => shapeCast S64x256 v shapeCasts_S1x1x64x256_S64x256) hr).trans (h k' hlt)

/-- A store into a slab of another layer keeps what a layer's slabs of first halves read. -/
theorem hLoc_facts_keep (Ly Ly' : Fin 3) (hL : Ly' ≠ Ly) (c : Dev nD) (n' : Fin 4) (N : ℕ) (fL : (hLoc.access (rH Ly' n')).ty.Contents (Elt F))
    (w : FVec F S1x1x64x512 .f32)
    (h : ∀ k' : Fin 4, k'.val < N → shapeCast S64x512 (hLoc.view.readAt (Elt F) (rH Ly k').toLoadRect fL) shapeCasts_S1x1x64x512_S64x512
      = Vals.hpart (insOf m) yp xp Ly c k') :
    ∀ k' : Fin 4, k'.val < N → shapeCast S64x512 (hLoc.view.readAt (Elt F) (rH Ly k').toLoadRect
        ((hLoc.access (rH Ly' n')).write (Elt F) fL w Finset.univ)) shapeCasts_S1x1x64x512_S64x512
      = Vals.hpart (insOf m) yp xp Ly c k' := by
  intro k' hk
  have hne : (Ly', n') ≠ (Ly, k') := fun q => hL (congrArg Prod.fst q)
  have hr := read_write_other_H (F := F) hLoc Ly' Ly n' k' hne fL w
  exact (congrArg (fun v : S1x1x64x512.Idx → Elt F .f32 => shapeCast S64x512 v shapeCasts_S1x1x64x512_S64x512) hr).trans (h k' hk)

/-- A store into a slab of another layer keeps what a layer's slabs of second halves read. -/
theorem xLoc_facts_keep (Ly Ly' : Fin 3) (hL : Ly' ≠ Ly) (c : Dev nD) (n' : Fin 4) (N : ℕ) (fX : (xLoc.access (rX Ly' n')).ty.Contents (Elt F))
    (w : FVec F S1x1x64x256 .f32)
    (h : ∀ k' : Fin 4, k'.val < N → shapeCast S64x256 (xLoc.view.readAt (Elt F) (rX Ly k').toLoadRect fX) shapeCasts_S1x1x64x256_S64x256
      = Vals.xpart (insOf m) yp xp Ly c k') :
    ∀ k' : Fin 4, k'.val < N → shapeCast S64x256 (xLoc.view.readAt (Elt F) (rX Ly k').toLoadRect
        ((xLoc.access (rX Ly' n')).write (Elt F) fX w Finset.univ)) shapeCasts_S1x1x64x256_S64x256
      = Vals.xpart (insOf m) yp xp Ly c k' := by
  intro k' hk
  have hne : (Ly', n') ≠ (Ly, k') := fun q => hL (congrArg Prod.fst q)
  have hr := read_write_other_X (F := F) xLoc Ly' Ly n' k' hne fX w
  exact (congrArg (fun v : S1x1x64x256.Idx → Elt F .f32 => shapeCast S64x256 v shapeCasts_S1x1x64x256_S64x256) hr).trans (h k' hk)

end Cert.KernelIdeal.Proto

end
-- ==== Proof.KernelIdeal.Regroup.lean ====
import proofs.«901002_g7700000000001003_dist_mlpseq_tp2d_cs_cs_b256_d256_h512_v7x_xy2x2_f32_1_alg».proof.Proof.KernelIdeal.BodyState
import proofs.«901002_g7700000000001003_dist_mlpseq_tp2d_cs_cs_b256_d256_h512_v7x_xy2x2_f32_1_alg».proof.Proof.KernelIdeal.Slabs
import Idealize.ShloMosaic.Lib.Tactic

/-!
# Regrouping the buffers by transfer

The transfers `(s, k)` are the even stages `s = 2 L`, whose slabs are the slabs `(L, k)` of the 512-wide buffers and
whose mate is the row mate, and the odd stages `s = 2 L + 1`, whose slabs are the slabs `(L, k)` of the 256-wide buffers
and whose mate is the column mate. So a 512-wide and a 256-wide buffer, each whole, are together one slab per transfer,
and back. With this the resources a device starts from regroup into one bundle per transfer not yet issued, and the
bundles of the transfers all waited for regroup into the whole buffers and the closed semaphores.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Two small rules -/

omit [FloatOps F] in
/-- A family over a whole index type, summand by summand. -/
theorem bigSep_mono_univ {I : Type} [Fintype I] {Φ Ψ : I → sProp 𝕄} (h : ∀ i, Φ i ⊢ Ψ i) :
    bigSep Finset.univ Φ ⊢ bigSep Finset.univ Ψ :=
  bigSep_mono fun i _ => h i

omit [FloatOps F] in
theorem exists_of {α : Type} (Ψ : α → sProp 𝕄) (a : α) : Ψ a ⊢ iprop(∃ x, Ψ x) := by
  iintro P; iexists a; iexact P

omit [FloatOps F] in
theorem bigSep_sep_univ {I : Type} [Fintype I] (Φ Ψ : I → sProp 𝕄) :
    bigSep Finset.univ (fun i => iprop(Φ i ∗ Ψ i)) = iprop(bigSep Finset.univ Φ ∗ bigSep Finset.univ Ψ) :=
  bigSep_sep _ Φ Ψ

omit [FloatOps F] in
/-- Five families, zipped summand by summand. -/
theorem bigSep_zip5 {I : Type} [Fintype I] (A B C D E : I → sProp 𝕄) :
    iprop(bigSep Finset.univ A ∗ bigSep Finset.univ B ∗ bigSep Finset.univ C ∗ bigSep Finset.univ D ∗ bigSep Finset.univ E)
      ⊢ bigSep Finset.univ (fun i => iprop(A i ∗ B i ∗ C i ∗ D i ∗ E i)) := by
  rw [bigSep_sep_univ A, bigSep_sep_univ B, bigSep_sep_univ C, bigSep_sep_univ D]

omit [FloatOps F] in
/-- A family of triples, unzipped. -/
theorem bigSep_unzip3 {I : Type} [Fintype I] (A B C : I → sProp 𝕄) :
    bigSep Finset.univ (fun i => iprop(A i ∗ B i ∗ C i))
      ⊢ iprop(bigSep Finset.univ A ∗ bigSep Finset.univ B ∗ bigSep Finset.univ C) := by
  rw [bigSep_sep_univ A, bigSep_sep_univ B]

/-! ## The transfers are the even and the odd stages -/

/-- The transfer of the first matmul of layer `L`, chunk `k`. -/
def evenT (Lk : Fin 3 × Fin 4) : T := (⟨2 * Lk.1.val, by have := Lk.1.isLt; omega⟩, Lk.2)
/-- The transfer of the second matmul of layer `L`, chunk `k`. -/
def oddT (Lk : Fin 3 × Fin 4) : T := (⟨2 * Lk.1.val + 1, by have := Lk.1.isLt; omega⟩, Lk.2)

theorem evenT_even (Lk : Fin 3 × Fin 4) : (evenT Lk).1.val % 2 = 0 := by
  show (2 * Lk.1.val) % 2 = 0; omega
theorem oddT_odd (Lk : Fin 3 × Fin 4) : ¬ (oddT Lk).1.val % 2 = 0 := by
  show ¬ (2 * Lk.1.val + 1) % 2 = 0; omega
theorem layerOf_evenT (Lk : Fin 3 × Fin 4) : layerOf (evenT Lk).1 = Lk.1 :=
  Fin.ext (by show (2 * Lk.1.val) / 2 = Lk.1.val; omega)
theorem layerOf_oddT (Lk : Fin 3 × Fin 4) : layerOf (oddT Lk).1 = Lk.1 :=
  Fin.ext (by show (2 * Lk.1.val + 1) / 2 = Lk.1.val; omega)
theorem mate_evenT (Lk : Fin 3 × Fin 4) (c : Dev nD) : mate (evenT Lk).1 c = yp c := by
  unfold mate; rw [if_pos (evenT_even Lk)]
theorem mate_oddT (Lk : Fin 3 × Fin 4) (c : Dev nD) : mate (oddT Lk).1 c = xp c := by
  unfold mate; rw [if_neg (oddT_odd Lk)]

/-- Every transfer is the even or the odd stage of exactly one `(L, k)`. -/
def stageEquiv : (Fin 3 × Fin 4) ⊕ (Fin 3 × Fin 4) ≃ T where
  toFun := Sum.elim evenT oddT
  invFun t := if t.1.val % 2 = 0 then .inl (layerOf t.1, t.2) else .inr (layerOf t.1, t.2)
  left_inv := by
    rintro (Lk | Lk)
    · show (if (evenT Lk).1.val % 2 = 0 then Sum.inl (layerOf (evenT Lk).1, (evenT Lk).2)
          else Sum.inr (layerOf (evenT Lk).1, (evenT Lk).2)) = Sum.inl Lk
      rw [if_pos (evenT_even Lk), layerOf_evenT]; rfl
    · show (if (oddT Lk).1.val % 2 = 0 then Sum.inl (layerOf (oddT Lk).1, (oddT Lk).2)
          else Sum.inr (layerOf (oddT Lk).1, (oddT Lk).2)) = Sum.inr Lk
      rw [if_neg (oddT_odd Lk), layerOf_oddT]; rfl
  right_inv := by
    intro t
    by_cases h : t.1.val % 2 = 0
    · show Sum.elim evenT oddT (if t.1.val % 2 = 0 then Sum.inl (layerOf t.1, t.2) else Sum.inr (layerOf t.1, t.2)) = t
      rw [if_pos h]
      exact Prod.ext (Fin.ext (by show 2 * (t.1.val / 2) = t.1.val; omega)) rfl
    · show Sum.elim evenT oddT (if t.1.val % 2 = 0 then Sum.inl (layerOf t.1, t.2) else Sum.inr (layerOf t.1, t.2)) = t
      rw [if_neg h]
      exact Prod.ext (Fin.ext (by show 2 * (t.1.val / 2) + 1 = t.1.val; omega)) rfl

omit [FloatOps F] in
/-- A family over the transfers is the family over the even stages and the family over the odd ones. -/
theorem bigSep_stages (Φ : T → sProp 𝕄) :
    bigSep Finset.univ Φ
      = iprop(bigSep Finset.univ (fun Lk : Fin 3 × Fin 4 => Φ (evenT Lk)) ∗ bigSep Finset.univ (fun Lk : Fin 3 × Fin 4 => Φ (oddT Lk))) := by
  rw [bigSep_univ_equiv stageEquiv Φ, bigSep_univ_sum]; rfl

/-! ## A 512-wide and a 256-wide buffer, whole, are one slab per transfer -/

/-- From the buffers to the transfers: each slab makes its transfer's resource. -/
theorem stages_of_buffers {e e' : EltTy} (MH : Memref sig .tc .vmem S3x4x64x512 e) (MX : Memref sig .tc .vmem S3x4x64x256 e')
    (cH cX : Dev nD) (Φ : T → sProp 𝕄)
    (hE : ∀ Lk : Fin 3 × Fin 4, iprop(∃ f, ptA (F := F) MH (rH Lk.1 Lk.2) cH f) ⊢ Φ (evenT Lk))
    (hO : ∀ Lk : Fin 3 × Fin 4, iprop(∃ f, ptA (F := F) MX (rX Lk.1 Lk.2) cX f) ⊢ Φ (oddT Lk)) :
    iprop((∃ f, slab MH cH f) ∗ (∃ f, slab MX cX f)) ⊢ bigSep Finset.univ Φ := by
  rw [bigSep_stages]
  iintro ⟨⟨%f, H⟩, ⟨%g, X⟩⟩
  isplitl [H]
  · iapply (bigSep_mono_univ (Φ := fun Lk : Fin 3 × Fin 4 => ptA MH (rH Lk.1 Lk.2) cH f) (Ψ := fun Lk => Φ (evenT Lk))
      (fun Lk => (exists_of (fun f' => ptA (F := F) MH (rH Lk.1 Lk.2) cH f') f).trans (hE Lk)))
    rw [← split_H MH cH f]; iexact H
  · iapply (bigSep_mono_univ (Φ := fun Lk : Fin 3 × Fin 4 => ptA MX (rX Lk.1 Lk.2) cX g) (Ψ := fun Lk => Φ (oddT Lk))
      (fun Lk => (exists_of (fun g' => ptA (F := F) MX (rX Lk.1 Lk.2) cX g') g).trans (hO Lk)))
    rw [← split_X MX cX g]; iexact X

/-- From the transfers back to the buffers: each transfer's resource holds its slab at some contents. -/
theorem buffers_of_stages {e e' : EltTy} (MH : Memref sig .tc .vmem S3x4x64x512 e) (MX : Memref sig .tc .vmem S3x4x64x256 e')
    (cH cX : Dev nD) (Φ : T → sProp 𝕄)
    (hE : ∀ Lk : Fin 3 × Fin 4, Φ (evenT Lk) ⊢ iprop(∃ f, ptA (F := F) MH (rH Lk.1 Lk.2) cH f))
    (hO : ∀ Lk : Fin 3 × Fin 4, Φ (oddT Lk) ⊢ iprop(∃ f, ptA (F := F) MX (rX Lk.1 Lk.2) cX f)) :
    bigSep Finset.univ Φ ⊢ iprop((∃ f, slab MH cH f) ∗ (∃ f, slab MX cX f)) := by
  rw [bigSep_stages]
  iintro ⟨H, X⟩
  isplitl [H]
  · iapply (join_H MH cH); iapply (bigSep_mono_univ (Φ := fun Lk : Fin 3 × Fin 4 => Φ (evenT Lk)) hE); iexact H
  · iapply (join_X MX cX); iapply (bigSep_mono_univ (Φ := fun Lk : Fin 3 × Fin 4 => Φ (oddT Lk)) hO); iexact X

/-! ## The sent slabs and the landing slabs of the transfers -/

theorem returned_evenT (Lk : Fin 3 × Fin 4) (c : Dev nD) :
    (returned (F := F) (evenT Lk).1 (evenT Lk).2 c) = iprop(∃ f, slab (hSndSl Lk.1 Lk.2) c f) := by
  unfold returned; rw [if_pos (evenT_even Lk), layerOf_evenT]; rfl
theorem returned_oddT (Lk : Fin 3 × Fin 4) (c : Dev nD) :
    (returned (F := F) (oddT Lk).1 (oddT Lk).2 c) = iprop(∃ f, slab (xSndSl Lk.1 Lk.2) c f) := by
  unfold returned; rw [if_neg (oddT_odd Lk), layerOf_oddT]; rfl
theorem landedAny_evenT (Lk : Fin 3 × Fin 4) (c : Dev nD) :
    (landedAny (F := F) (evenT Lk).1 (evenT Lk).2 c) = iprop(∃ f, slab (hRcvSl Lk.1 Lk.2) c f) := by
  unfold landedAny; rw [if_pos (evenT_even Lk), layerOf_evenT]; rfl
theorem landedAny_oddT (Lk : Fin 3 × Fin 4) (c : Dev nD) :
    (landedAny (F := F) (oddT Lk).1 (oddT Lk).2 c) = iprop(∃ f, slab (xRcvSl Lk.1 Lk.2) c f) := by
  unfold landedAny; rw [if_neg (oddT_odd Lk), layerOf_oddT]; rfl

/-- The two send buffers, whole, are every transfer's sent slab. -/
theorem returned_all (c : Dev nD) :
    iprop((∃ f, slab hSnd c f) ∗ (∃ f, slab xSnd c f)) ⊢ (bigSep Finset.univ (fun t : T => returned (F := F) t.1 t.2 c) : sProp 𝕄) :=
  stages_of_buffers hSnd xSnd c c _
    (fun Lk => by rw [returned_evenT]; exact exists_mono fun f => Entails.of_eq (slab_hSndSl Lk.1 Lk.2 c f).symm)
    (fun Lk => by rw [returned_oddT]; exact exists_mono fun f => Entails.of_eq (slab_xSndSl Lk.1 Lk.2 c f).symm)

/-- The mates' landing buffers, whole, are every transfer's landing slab on its stage's mate. -/
theorem landedAny_mates (c : Dev nD) :
    iprop((∃ f, slab hRcv (yp c) f) ∗ (∃ f, slab xRcv (xp c) f))
      ⊢ (bigSep Finset.univ (fun t : T => landedAny (F := F) t.1 t.2 (mate t.1 c)) : sProp 𝕄) :=
  stages_of_buffers hRcv xRcv (yp c) (xp c) _
    (fun Lk => by rw [landedAny_evenT, mate_evenT]; exact exists_mono fun f => Entails.of_eq (slab_hRcvSl Lk.1 Lk.2 (yp c) f).symm)
    (fun Lk => by rw [landedAny_oddT, mate_oddT]; exact exists_mono fun f => Entails.of_eq (slab_xRcvSl Lk.1 Lk.2 (xp c) f).symm)

/-- Every transfer's sent slab back: the two send buffers, whole. -/
theorem returned_join (c : Dev nD) :
    (bigSep Finset.univ (fun t : T => returned (F := F) t.1 t.2 c) : sProp 𝕄) ⊢ iprop((∃ f, slab hSnd c f) ∗ (∃ f, slab xSnd c f)) :=
  buffers_of_stages hSnd xSnd c c _
    (fun Lk => by rw [returned_evenT]; exact exists_mono fun f => Entails.of_eq (slab_hSndSl Lk.1 Lk.2 c f))
    (fun Lk => by rw [returned_oddT]; exact exists_mono fun f => Entails.of_eq (slab_xSndSl Lk.1 Lk.2 c f))

/-- Every transfer's own landing slab: the two landing buffers, whole. -/
theorem landedAny_join (c : Dev nD) :
    (bigSep Finset.univ (fun t : T => landedAny (F := F) t.1 t.2 c) : sProp 𝕄) ⊢ iprop((∃ f, slab hRcv c f) ∗ (∃ f, slab xRcv c f)) :=
  buffers_of_stages hRcv xRcv c c _
    (fun Lk => by rw [landedAny_evenT]; exact exists_mono fun f => Entails.of_eq (slab_hRcvSl Lk.1 Lk.2 c f))
    (fun Lk => by rw [landedAny_oddT]; exact exists_mono fun f => Entails.of_eq (slab_xRcvSl Lk.1 Lk.2 c f))

/-! ## The two regroupings -/

/-- What a device holds after the entry handshake is one bundle per transfer not yet issued. -/
theorem pre_to_fut (c : Dev nD) :
    iprop((∃ f, slab hSnd c f) ∗ (∃ f, slab xSnd c f) ∗ (∃ f, slab hRcv (yp c) f) ∗ (∃ f, slab xRcv (xp c) f)
        ∗ (bigSep Finset.univ fun t : T => iprop(atPos ER (sndCell c t.1 t.2) 0 ∅ 0 ∗ atPos ER (rcvCell c t.1 t.2) 0 ∅ 0))
        ∗ (bigSep Finset.univ fun t : T => iprop(dutyTok ER (sndCell c t.1 t.2) 0 false ∗ dutyTok ER (rcvCell (mate t.1 c) t.1 t.2) 0 false))
        ∗ (bigSep Finset.univ fun t : T => cred (tallyAt (rcvCell c t.1 t.2) () (amt t.1 t.2))))
      ⊢ (bigSep Finset.univ (Fut (F := F) c) : sProp 𝕄) := by
  iintro ⟨HS, XS, HR, XR, Bp, Bt, Bc⟩
  iapply (bigSep_mono_univ (Φ := fun t : T => iprop(
      iprop(atPos ER (sndCell c t.1 t.2) 0 ∅ 0 ∗ atPos ER (rcvCell c t.1 t.2) 0 ∅ 0)
      ∗ iprop(dutyTok ER (sndCell c t.1 t.2) 0 false ∗ dutyTok ER (rcvCell (mate t.1 c) t.1 t.2) 0 false)
      ∗ cred (tallyAt (rcvCell c t.1 t.2) () (amt t.1 t.2))
      ∗ returned (F := F) t.1 t.2 c ∗ landedAny (F := F) t.1 t.2 (mate t.1 c))) (Ψ := Fut (F := F) c) (fun t => by
    unfold Fut
    iintro ⟨⟨A1, A2⟩, ⟨D1, D2⟩, C, R, Ld⟩
    isplitl [A1]; · iexact A1
    isplitl [A2]; · iexact A2
    isplitl [D1]; · iexact D1
    isplitl [D2]; · iexact D2
    isplitl [C]; · iexact C
    isplitl [R]; · iexact R
    iexact Ld))
  iapply (bigSep_zip5
      (fun t : T => iprop(atPos ER (sndCell c t.1 t.2) 0 ∅ 0 ∗ atPos ER (rcvCell c t.1 t.2) 0 ∅ 0))
      (fun t : T => iprop(dutyTok ER (sndCell c t.1 t.2) 0 false ∗ dutyTok ER (rcvCell (mate t.1 c) t.1 t.2) 0 false))
      (fun t : T => cred (tallyAt (rcvCell c t.1 t.2) () (amt t.1 t.2)))
      (fun t : T => returned (F := F) t.1 t.2 c)
      (fun t : T => landedAny (F := F) t.1 t.2 (mate t.1 c)))
  isplitl [Bp]; · iexact Bp
  isplitl [Bt]; · iexact Bt
  isplitl [Bc]; · iexact Bc
  isplitl [HS XS]
  · iapply (returned_all (F := F) c); isplitl [HS]; · iexact HS
    iexact XS
  · iapply (landedAny_mates (F := F) c); isplitl [HR]; · iexact HR
    iexact XR

/-- The bundles of the transfers all waited for, with the two local buffers, are the six scratch buffers whole and the
    own DMA semaphores closed at zero. -/
theorem done_to_post (c : Dev nD) (fL : Buf (Elt F) (hLoc.view.loc (c : Thread nD τ))) (fX : Buf (Elt F) (xLoc.view.loc (c : Thread nD τ))) :
    iprop(slab hLoc c fL ∗ slab xLoc c fX ∗ bigSep Finset.univ (Done (F := F) c)) ⊢ (Φ₁ c : sProp 𝕄) := by
  iintro ⟨HL, XL, B⟩
  ihave B' := (bigSep_mono_univ (Φ := Done (F := F) c) (Ψ := fun t : T => iprop(returned (F := F) t.1 t.2 c ∗ landedAny (F := F) t.1 t.2 c
      ∗ iprop(semVal (sndCell c t.1 t.2) 0 ∗ semVal (rcvCell c t.1 t.2) 0))) (fun t => by
    unfold Done
    iintro ⟨R, Ld, S1, S2⟩
    isplitl [R]; · iexact R
    isplitl [Ld]; · iexact Ld
    isplitl [S1]; · iexact S1
    iexact S2)) $$ B
  ihave B'' := (bigSep_unzip3
      (fun t : T => returned (F := F) t.1 t.2 c)
      (fun t : T => landedAny (F := F) t.1 t.2 c)
      (fun t : T => iprop(semVal (sndCell c t.1 t.2) 0 ∗ semVal (rcvCell c t.1 t.2) 0))) $$ B'
  icases B'' with ⟨BR, BL, BS⟩
  ihave HX := (returned_join (F := F) c) $$ BR
  ihave RX := (landedAny_join (F := F) c) $$ BL
  icases HX with ⟨HSn, XSn⟩
  icases RX with ⟨HRc, XRc⟩
  unfold Φ₁ scratch semsZero
  isplitr [BS]
  · isplitl [HL]; · iexists fL; iexact HL
    isplitl [HSn]; · iexact HSn
    isplitl [HRc]; · iexact HRc
    isplitl [XL]; · iexists fX; iexact XL
    isplitl [XSn]; · iexact XSn
    iexact XRc
  · iexact BS

end Cert.KernelIdeal.Proto

end
-- ==== Proof.KernelIdeal.DoneAcc.lean ====
import proofs.«901002_g7700000000001003_dist_mlpseq_tp2d_cs_cs_b256_d256_h512_v7x_xy2x2_f32_1_alg».proof.Proof.KernelIdeal.BodyDefs
import proofs.«901002_g7700000000001003_dist_mlpseq_tp2d_cs_cs_b256_d256_h512_v7x_xy2x2_f32_1_alg».proof.Proof.KernelIdeal.BodyState

/-!
# The finished transfers, gathered

The transfers finish in the order of the program; what a device holds of the first `n` of them is one iterated
conjunction over the transfers at a position below `n`: empty at the start, one more with each pair of waits, all
twenty-four at the end.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No transfer is at a position below 0. -/
theorem done_start (c : Dev nD) :
    (iprop(emp) : sProp 𝕄) ⊢ bigSep (Finset.univ.filter (fun t : T => idx t < 0)) (Done (F := F) c) := by
  rw [Finset.filter_false_of_mem (fun t _ => Nat.not_lt_zero _), bigSep_empty]
  exact .rfl

/-- The transfer at position `n` joins those below `n`. -/
theorem done_put (c : Dev nD) (n : ℕ) (t : T) (ht : idx t = n) :
    iprop(Done (F := F) c t ∗ bigSep (Finset.univ.filter (fun t : T => idx t < n)) (Done (F := F) c))
      ⊢ (bigSep (Finset.univ.filter (fun t : T => idx t < n + 1)) (Done (F := F) c) : sProp 𝕄) := by
  have hset : Finset.univ.filter (fun t' : T => idx t' < n + 1) = insert t (Finset.univ.filter (fun t' : T => idx t' < n)) := by
    ext t'
    simp only [Finset.mem_filter, Finset.mem_univ, true_and, Finset.mem_insert]
    constructor
    · intro h
      by_cases he : idx t' = n
      · left
        unfold idx at he ht
        have := t.2.isLt; have := t'.2.isLt
        exact Prod.ext (Fin.ext (by omega)) (Fin.ext (by omega))
      · right; omega
    · rintro (rfl | h)
      · omega
      · omega
  have hnot : t ∉ Finset.univ.filter (fun t' : T => idx t' < n) := by
    rw [Finset.mem_filter]; exact fun h => absurd h.2 (by omega)
  rw [hset, bigSep_insert hnot]
  exact .rfl

/-- Every transfer is at a position below 24. -/
theorem done_all (c : Dev nD) :
    bigSep (Finset.univ.filter (fun t : T => idx t < 24)) (Done (F := F) c) ⊢ (bigSep Finset.univ (Done (F := F) c) : sProp 𝕄) := by
  rw [Finset.filter_true_of_mem (fun t _ => by have := t.1.isLt; have := t.2.isLt; unfold idx; omega)]

/-- What the two waits of a transfer of an even stage leave: the sent slab back, the landing slab, both cells closed. -/
theorem done_even (c : Dev nD) (s : Fin 6) (k : Fin 4) (hs : s.val % 2 = 0) (Ly : Fin 3) (hLy : Ly = layerOf s)
    (f : Buf (Elt F) ((hRcvSl Ly k).view.loc (c : Thread nD τ))) :
    iprop(returned s k c ∗ slab (hRcvSl Ly k) c f ∗ semVal (sndCell c s k) 0 ∗ semVal (rcvCell c s k) 0)
      ⊢ (Done (F := F) c (s, k) : sProp 𝕄) := by
  subst hLy
  unfold Done landedAny
  rw [if_pos hs]
  iintro ⟨H1, H2, H3, H4⟩
  isplitl [H1]; · iexact H1
  isplitl [H2]; · iexists f; iexact H2
  isplitl [H3]; · iexact H3
  iexact H4

/-- The same for a transfer of an odd stage. -/
theorem done_odd (c : Dev nD) (s : Fin 6) (k : Fin 4) (hs : ¬ s.val % 2 = 0) (Ly : Fin 3) (hLy : Ly = layerOf s)
    (f : Buf (Elt F) ((xRcvSl Ly k).view.loc (c : Thread nD τ))) :
    iprop(returned s k c ∗ slab (xRcvSl Ly k) c f ∗ semVal (sndCell c s k) 0 ∗ semVal (rcvCell c s k) 0)
      ⊢ (Done (F := F) c (s, k) : sProp 𝕄) := by
  subst hLy
  unfold Done landedAny
  rw [if_neg hs]
  iintro ⟨H1, H2, H3, H4⟩
  isplitl [H1]; · iexact H1
  isplitl [H2]; · iexists f; iexact H2
  isplitl [H3]; · iexact H3
  iexact H4

end Cert.KernelIdeal.Proto

end
-- ==== Proof.KernelIdeal.BodyTac.lean ====
import proofs.«901002_g7700000000001003_dist_mlpseq_tp2d_cs_cs_b256_d256_h512_v7x_xy2x2_f32_1_alg».proof.Proof.KernelIdeal.StepAux
import proofs.«901002_g7700000000001003_dist_mlpseq_tp2d_cs_cs_b256_d256_h512_v7x_xy2x2_f32_1_alg».proof.Proof.KernelIdeal.Steps2
import proofs.«901002_g7700000000001003_dist_mlpseq_tp2d_cs_cs_b256_d256_h512_v7x_xy2x2_f32_1_alg».proof.Proof.KernelIdeal.Glue
import proofs.«901002_g7700000000001003_dist_mlpseq_tp2d_cs_cs_b256_d256_h512_v7x_xy2x2_f32_1_alg».proof.Proof.KernelIdeal.Facts
import proofs.«901002_g7700000000001003_dist_mlpseq_tp2d_cs_cs_b256_d256_h512_v7x_xy2x2_f32_1_alg».proof.Proof.KernelIdeal.Regroup
import proofs.«901002_g7700000000001003_dist_mlpseq_tp2d_cs_cs_b256_d256_h512_v7x_xy2x2_f32_1_alg».proof.Proof.KernelIdeal.DevEqs
import proofs.«901002_g7700000000001003_dist_mlpseq_tp2d_cs_cs_b256_d256_h512_v7x_xy2x2_f32_1_alg».proof.Proof.KernelIdeal.DoneAcc
import Idealize.ShloMosaic.Lib.Tactic

/-!
# Steps of the body's proof

The body is an unrolled loop: for each stage and each row chunk the same few effects with other literals. Each kind of
step is proved once here, as a tactic over the literals; the proof of the body calls them in the program's order.
The context they keep: `HR` (every cell's invariant), `Hlev` (the levels), `HO` (what is still owed: the credits of the
transfers from the next one on), `HF` (the resources of the transfers not yet issued), `HD` (the finished transfers),
`HhL` / `HxL` (the two local buffers, whole), `Hi0` … `Hi6` (the argument arrays' staging buffers), `Hout` (the
result's), and for the transfer in flight on chunk `k` its two credits `Hcs k`, `Hcr k` and positions `Hps k`, `Hpr k`.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- One summand out of a `bigSep`, in the proof mode's spelling. -/
theorem bigSep_take {I : Type} [DecidableEq I] {s : Finset I} {i : I} (hi : i ∈ s) (Φ : I → sProp 𝕄) :
    bigSep s Φ = iprop(Φ i ∗ bigSep (s.erase i) Φ) := bigSep_erase hi

omit [FloatOps F] in
theorem slab_def {sp : Space} {s : Shape} {e : EltTy} (M : Memref sig .tc sp s e) (c : Dev nD) (f : Buf (Elt F) (M.view.loc (c : Thread nD τ))) :
    (slab M c f : sProp 𝕄) = (M.view.loc (c : Thread nD τ) ↦[M.view.set]{fullShare} f) := rfl

omit [FloatOps F] in
/-- A load through a rectangle of a memref reads elements the memref names. -/
theorem loadSub {s : Shape} {e : EltTy} (M : Memref sig .tc .vmem s e) (r : Rect s) :
    M.view.setOn r.toLoadRect.set ⊆ M.view.set := by
  have h := access_set_subset M r
  rwa [View.set_slice] at h

/-- A store whose new contents get a name. -/
theorem wp_store_new {cs : CoreSpace} {s : Shape} {e : EltTy} {α : Type} {Q : α → sProp 𝕄} (c : Dev nD) {M : Memref sig .tc cs s e} {r : Rect s}
    {w : r.shape.Idx → Elt F e} {hx : (M.access r).Stores Finset.univ} {hm : (Finset.univ : Finset r.shape.Idx) = Finset.univ ∨ ∀ a, r.stride a = 1}
    {kont : PUnit → Prog (TpuEff nD τ sig (Elt F) Λ₀ .tc) α}
    {S : Finset (Idx ((M.access r).loc (c : Thread nD τ)))} (f : Buf (Elt F) ((M.access r).loc (c : Thread nD τ)))
    (hS : (M.access r).setOn Finset.univ ⊆ S) (w' : r.shape.Idx → Elt F e) (hw : w = w') :
    iprop(((M.access r).loc (c : Thread nD τ) ↦[S]{fullShare} f)
        ∗ (∀ g, ⌜g = (M.access r).write (Elt F) f w' Finset.univ⌝ -∗ ((M.access r).loc (c : Thread nD τ) ↦[S]{fullShare} g)
            -∗ wp frame (wpE (defs₀ (F := F)) 𝒱₀ (c : Thread nD τ) none) Set.univ (kont ⟨⟩) Q))
      ⊢ wp frame (wpE (defs₀ (F := F)) 𝒱₀ (c : Thread nD τ) none) Set.univ (.op (.store M r w Finset.univ hx hm) kont) Q := by
  subst hw
  iintro ⟨H, Hk⟩
  iapply (wp_store 𝒱₀ (c : Thread nD τ) none Set.univ hS) $$ H
  iintro H
  iapply Hk $$ [] H
  ipureintro; rfl

theorem owes_next (c : Dev nD) (j j' : ℕ) (hj : j = j') (W : Waits sig Unit) :
    (owes (c : Thread nD τ) (Orem j c) W : sProp 𝕄) = owes (c : Thread nD τ) (Orem j' c) W := by subst hj; rfl

open Lean in
/-- Open the next printed part. -/
macro "open_part " n:num : tactic => do
  let e := mkIdent (Name.mkSimple s!"k0_part{n.getNat}_eq_skeleton")
  let s := mkIdent (Name.mkSimple s!"k0_part{n.getNat}_skel")
  `(tactic| (simp only [$e:ident]; unfold $s:ident; simp only [Prog.lift, Prog.bind_op, Prog.bind_ret, Prog.pure_eq_ret]))

open Lean in
/-- The wait on the send cell of transfer `(s, k)`, while owing what is left from position `j` on. -/
macro "wait_snd " s:num k:num j:num : tactic => do
  let Hcs := mkIdent (Name.mkSimple s!"Hcs{k.getNat}"); let Hps := mkIdent (Name.mkSimple s!"Hps{k.getNat}")
  let cr := mkIdent (if s.getNat % 2 == 0 then `credit_h else `credit_x)
  let HO := mkIdent `HO; let HR := mkIdent `HR; let Hlev := mkIdent `Hlev; let Hret := mkIdent `Hret; let Hza := mkIdent `Hza; let m := mkIdent `m; let c := mkIdent `c; let K := mkIdent `K
  `(tactic| (
    iapply (wp_wait_snd $m $K $c $s $k _ rfl ($cr $s $k (by decide) _) (Orem $j $c) _ Orem_hO_snd) $$ [$Hcs:ident $HO:ident $Hps:ident]
    · isplitr; · iexact $HR:ident
      isplitl [$Hcs:ident]; · iexact $Hcs:ident
      isplitl [$HO:ident]; · iexact $HO:ident
      isplitl [$Hps:ident]; · iexact $Hps:ident
      iexact $Hlev:ident
    iintro ⟨$Hret:ident, $Hza:ident, $HO:ident⟩
  ))

open Lean in
/-- The wait on the receive cell of transfer `(s, k)`. -/
macro "wait_rcv " s:num k:num j:num : tactic => do
  let Hcr := mkIdent (Name.mkSimple s!"Hcr{k.getNat}"); let Hpr := mkIdent (Name.mkSimple s!"Hpr{k.getNat}")
  let cr := mkIdent (if s.getNat % 2 == 0 then `credit_h else `credit_x)
  let HO := mkIdent `HO; let HR := mkIdent `HR; let Hlev := mkIdent `Hlev; let Hland := mkIdent `Hland; let Hzb := mkIdent `Hzb; let m := mkIdent `m; let c := mkIdent `c; let K := mkIdent `K
  `(tactic| (
    iapply (wp_wait_rcv $m $K $c $s $k _ rfl ($cr $s $k (by decide) _) (Orem $j $c) _ (Orem_hO_rcv $s $k (by decide))) $$ [$Hcr:ident $HO:ident $Hpr:ident]
    · isplitr; · iexact $HR:ident
      isplitl [$Hcr:ident]; · iexact $Hcr:ident
      isplitl [$HO:ident]; · iexact $HO:ident
      isplitl [$Hpr:ident]; · iexact $Hpr:ident
      iexact $Hlev:ident
    iintro ⟨$Hland:ident, $Hzb:ident, $HO:ident⟩
  ))

open Lean in
/-- The resources of transfer `(s, k)` out of the bundle of those not yet issued. -/
macro "take_fut " s:num k:num : tactic => do
  let Hps := mkIdent (Name.mkSimple s!"Hps{k.getNat}"); let Hpr := mkIdent (Name.mkSimple s!"Hpr{k.getNat}"); let Hcr := mkIdent (Name.mkSimple s!"Hcr{k.getNat}")
  let HF := mkIdent `HF; let Hf := mkIdent `Hf; let Hts := mkIdent `Hts; let Htr := mkIdent `Htr; let Hsrc := mkIdent `Hsrc; let Hdst := mkIdent `Hdst; let c := mkIdent `c; let F := mkIdent `F
  `(tactic| (
    ihave $Hf:ident := (Entails.of_eq (bigSep_take (i := ((($s : Fin 6), ($k : Fin 4)) : T)) (by decide) (Fut (F := $F) $c))) $$ $HF:ident
    icases $Hf:ident with ⟨$Hf:ident, $HF:ident⟩
    ihave $Hf:ident := (Entails.of_eq (Fut_eq (F := $F) $c $s $k)) $$ $Hf:ident
    icases $Hf:ident with ⟨$Hps:ident, $Hpr:ident, $Hts:ident, $Htr:ident, $Hcr:ident, $Hsrc:ident, $Hdst:ident⟩
  ))

open Lean in
/-- Stage 0 on row chunk `k`: the loads and the half product into the local buffer (`fo`/`ho` its contents and what is
    known of them before, `fn`/`hn` after). -/
macro "s0_ld " k:num fo:ident ho:ident fn:ident hn:ident : tactic => do
  let HhL := mkIdent `HhL; let Hi0 := mkIdent `Hi0; let Hi1 := mkIdent `Hi1; let hfL := mkIdent `hfL; let hp := mkIdent `hp; let m := mkIdent `m; let c := mkIdent `c; let F := mkIdent `F
  `(tactic| (
    take_fut 0 $k
    have $hp:ident := stage0_hpart (F := $F) $m $c $k (stgWin $m 0 $c) rfl
    iapply (wp_load_as $c (M := stage0_0 0) (Finset.subset_univ _)
      ((Memref.whole cc0_stg0_0 : Memref sig .tc .vmem S256x256 .f32).view.readAt (Elt $F) (Vals.rRow $k).toLoadRect (stgX $m $c)) rfl) $$ $Hi0:ident; iintro $Hi0:ident
    iapply (wp_load_as $c (M := stage0_1 0) (Finset.subset_univ _) (stgWin $m 0 $c) (Memref.readAt_unit_zero (Elt $F) cc0_stg1_0 hz2 _ _)) $$ $Hi1:ident; iintro $Hi1:ident
    iapply (wp_load 𝒱₀ ($c : Thread nD τ) none Set.univ (m := hLoc) (loadSub hLoc (rH 0 $k))) $$ $HhL:ident; iintro $HhL:ident
    iapply (wp_store_new $c (M := hLoc) (r := rH 0 $k) $fo (access_subset hLoc _)
      (shapeCast S1x1x64x512 (Vals.hpart (insOf $m) yp xp 0 $c $k) shapeCasts_S64x512_S1x1x64x512)
      (congrArg (fun p => shapeCast S1x1x64x512 p shapeCasts_S64x512_S1x1x64x512) $hp))
    isplitl [$HhL:ident]; · iexact $HhL:ident
    iintro %$fn:ident %$hfL:ident $HhL:ident
    have $hn:ident := hLoc_facts_step (F := $F) $m 0 $c $k $fo (Vals.hpart (insOf $m) yp xp 0 $c $k) rfl $ho
    rw [← $hfL] at $hn:ident
    clear $hfL
  ))

open Lean in
/-- An even stage (layer `Ly`) on row chunk `k`: the half product cast to bf16 into the send slab. -/
macro "ev_st " Ly:num k:num : tactic => do
  let Hsrc := mkIdent `Hsrc; let hfs := mkIdent `hfs; let hp := mkIdent `hp; let m := mkIdent `m; let c := mkIdent `c; let F := mkIdent `F
  let s := Syntax.mkNumLit (toString (2 * Ly.getNat))
  `(tactic| (
    ihave $Hsrc:ident := (Entails.of_eq (returned_even (F := $F) $s $k $c (by decide) $Ly rfl)) $$ $Hsrc:ident
    icases $Hsrc:ident with ⟨%fS, $Hsrc:ident⟩
    ihave $Hsrc:ident := (Entails.of_eq (slab_hSndSl (F := $F) $Ly $k $c fS)) $$ $Hsrc:ident
    unfold ptA
    iapply (wp_load_rect 𝒱₀ ($c : Thread nD τ) none Set.univ (m := hSnd) (r := rH $Ly $k) (f := fS) (Finset.Subset.refl _)) $$ $Hsrc:ident; iintro $Hsrc:ident
    iapply (wp_store_as $c (M := hSnd) (r := rH $Ly $k) (Mk := Finset.univ) (f := fS) (le_of_eq (View.setOn_univ _))
      (shapeCast S1x1x64x512 (truncf .bf16 (Vals.hpart (insOf $m) yp xp $Ly $c $k) bitsLt_bf16_f32) shapeCasts_S64x512_S1x1x64x512)
      (congrArg (fun p => shapeCast S1x1x64x512 (truncf .bf16 p bitsLt_bf16_f32) shapeCasts_S64x512_S1x1x64x512) $hp)) $$ $Hsrc:ident; iintro $Hsrc:ident
    have $hfs:ident := hSnd_sent (F := $F) $m $Ly $k $c fS (Vals.hpart (insOf $m) yp xp $Ly $c $k) rfl
    ihave $Hsrc:ident := (Entails.of_eq (pt_hSndSl (F := $F) $Ly $k $c _)) $$ $Hsrc:ident
  ))

open Lean in
/-- An even stage on row chunk `k`: the transfer to the row mate. -/
macro "ev_send " Ly:num k:num dv:num : tactic => do
  let dev := mkIdent (Name.mkSimple s!"dev{dv.getNat}_eq")
  let Hcs := mkIdent (Name.mkSimple s!"Hcs{k.getNat}")
  let Hsrc := mkIdent `Hsrc; let Hdst := mkIdent `Hdst; let HO := mkIdent `HO; let Hts := mkIdent `Hts; let Htr := mkIdent `Htr; let HR := mkIdent `HR; let hfs := mkIdent `hfs; let m := mkIdent `m; let c := mkIdent `c; let K := mkIdent `K; let F := mkIdent `F
  let s := Syntax.mkNumLit (toString (2 * Ly.getNat))
  let j := Syntax.mkNumLit (toString (8 * Ly.getNat + k.getNat))
  let j1 := Syntax.mkNumLit (toString (8 * Ly.getNat + k.getNat + 1))
  `(tactic| (
    ihave $Hdst:ident := (Entails.of_eq (landedAny_even (F := $F) $s $k (mate $s $c) (by decide) $Ly rfl)) $$ $Hdst:ident
    ihave $HO:ident := (Entails.of_eq (owes_peel (F := $F) $c $s $k $j rfl _)) $$ $HO:ident
    iapply (wp_send_even $m $K $c _ ($dev $c) $s $k (by decide) $Ly rfl _ rfl _ rfl _ _ rfl rfl _ $hfs (Orem ($j + 1) $c) _) $$ [$Hsrc:ident $Hdst:ident $HO:ident $Hts:ident $Htr:ident]
    · isplitr; · iexact $HR:ident
      isplitl [$Hsrc:ident]; · iexact $Hsrc:ident
      isplitl [$Hdst:ident]; · iexact $Hdst:ident
      isplitl [$HO:ident]; · iexact $HO:ident
      isplitl [$Hts:ident]; · iexact $Hts:ident
      iexact $Htr:ident
    iintro ⟨$Hcs:ident, $HO:ident⟩
    ihave $HO:ident := (Entails.of_eq (owes_next (F := $F) $c ($j + 1) $j1 rfl _)) $$ $HO:ident
  ))

open Lean in
/-- Transfer `(s, k)` (an even stage, layer `Ly`) is finished: its landing slab at contents `fr` goes with the rest into the
    finished ones. -/
macro "retire_even " Ly:num k:num : tactic => do
  let Hret := mkIdent `Hret; let Hland := mkIdent `Hland; let Hza := mkIdent `Hza; let Hzb := mkIdent `Hzb; let Hd := mkIdent `Hd; let HD := mkIdent `HD; let c := mkIdent `c; let F := mkIdent `F
  let s := Syntax.mkNumLit (toString (2 * Ly.getNat))
  let n := Syntax.mkNumLit (toString (8 * Ly.getNat + k.getNat))
  `(tactic| (
    ihave $Hd:ident := (done_even (F := $F) $c $s $k (by decide) $Ly rfl _) $$ [$Hret:ident $Hland:ident $Hza:ident $Hzb:ident]
    · isplitl [$Hret:ident]; · iexact $Hret:ident
      isplitl [$Hland:ident]; · iexact $Hland:ident
      isplitl [$Hza:ident]; · iexact $Hza:ident
      iexact $Hzb:ident
    ihave $HD:ident := (done_put (F := $F) $c $n ((($s : Fin 6), ($k : Fin 4)) : T) rfl) $$ [$Hd:ident $HD:ident]
    · isplitl [$Hd:ident]; · iexact $Hd:ident
      iexact $HD:ident
  ))

open Lean in
macro "retire_odd " Ly:num k:num : tactic => do
  let Hret := mkIdent `Hret; let Hland := mkIdent `Hland; let Hza := mkIdent `Hza; let Hzb := mkIdent `Hzb; let Hd := mkIdent `Hd; let HD := mkIdent `HD; let c := mkIdent `c; let F := mkIdent `F
  let s := Syntax.mkNumLit (toString (2 * Ly.getNat + 1))
  let n := Syntax.mkNumLit (toString (8 * Ly.getNat + 4 + k.getNat))
  `(tactic| (
    ihave $Hd:ident := (done_odd (F := $F) $c $s $k (by decide) $Ly rfl _) $$ [$Hret:ident $Hland:ident $Hza:ident $Hzb:ident]
    · isplitl [$Hret:ident]; · iexact $Hret:ident
      isplitl [$Hland:ident]; · iexact $Hland:ident
      isplitl [$Hza:ident]; · iexact $Hza:ident
      iexact $Hzb:ident
    ihave $HD:ident := (done_put (F := $F) $c $n ((($s : Fin 6), ($k : Fin 4)) : T) rfl) $$ [$Hd:ident $HD:ident]
    · isplitl [$Hd:ident]; · iexact $Hd:ident
      iexact $HD:ident
  ))

end Cert.KernelIdeal.Proto

end
-- ==== Proof.KernelIdeal.BodyTacOdd.lean ====
import proofs.«901002_g7700000000001003_dist_mlpseq_tp2d_cs_cs_b256_d256_h512_v7x_xy2x2_f32_1_alg».proof.Proof.KernelIdeal.BodyTac
import proofs.«901002_g7700000000001003_dist_mlpseq_tp2d_cs_cs_b256_d256_h512_v7x_xy2x2_f32_1_alg».proof.Proof.KernelIdeal.DoneAcc
import Idealize.ShloMosaic.Lib.Tactic

/-!
# Steps of the body's proof: an odd stage

Stage `2 Ly + 1` on row chunk `k`, after the two waits of transfer `(2 Ly, k)`: from the own half of the layer's first
matmul and the row mate's landed half, the own half of the second; it goes to the local buffer's slab and, cast to bf16,
to the send slab, from where it is sent to the column mate.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Lean in
/-- An odd stage (layer `Ly`) on row chunk `k`: the loads of the own and of the landed half of the first matmul and of the
    second matmul's weights; transfer `(2 Ly, k)` is finished; the half product into the local buffer (`fxo`/`hxo` its
    contents and what is known of them before, `fxn`/`hxn` after; `hh` what is known of the first halves' buffer). -/
macro "od_ld " Ly:num k:num fxo:ident hxo:ident fxn:ident hxn:ident hh:ident : tactic => do
  let HhL := mkIdent `HhL; let HxL := mkIdent `HxL; let Hland := mkIdent `Hland; let hfX := mkIdent `hfX; let hp := mkIdent `hp
  let m := mkIdent `m; let c := mkIdent `c; let F := mkIdent `F
  let s := Syntax.mkNumLit (toString (2 * Ly.getNat))
  let s1 := Syntax.mkNumLit (toString (2 * Ly.getNat + 1))
  let w := 2 * Ly.getNat + 2
  let Hiw := mkIdent (Name.mkSimple s!"Hi{w}")
  let stw := mkIdent (Name.mkSimple s!"stage0_{w}")
  let ccw := mkIdent (Name.mkSimple s!"cc0_stg{w}_0")
  `(tactic| (
    ihave $Hland:ident := (Entails.of_eq (landed_even (F := $F) $m $s $k $c (by decide) $Ly rfl)) $$ $Hland:ident
    icases $Hland:ident with ⟨%fr, $Hland:ident, %hfr⟩
    ihave $Hland:ident := (Entails.of_eq (slab_hRcvSl (F := $F) $Ly $k $c fr)) $$ $Hland:ident
    unfold ptA
    iapply (wp_load 𝒱₀ ($c : Thread nD τ) none Set.univ (m := hLoc) (loadSub hLoc (rH $Ly $k))) $$ $HhL:ident; iintro $HhL:ident
    iapply (wp_load_rect 𝒱₀ ($c : Thread nD τ) none Set.univ (m := hRcv) (r := rH $Ly $k) (f := fr) (Finset.Subset.refl _)) $$ $Hland:ident; iintro $Hland:ident
    iapply (wp_load_as $c (M := $stw 0) (Finset.subset_univ _) (stgWout $m $Ly $c) (Memref.readAt_unit_zero (Elt $F) $ccw hz2 _ _)) $$ $Hiw:ident; iintro $Hiw:ident
    have $hp:ident := odd_xpart_landed (F := $F) $m $Ly $c $k _ fr _ ($hh $k (by decide)) hfr rfl
    ihave $Hland:ident := (Entails.of_eq (pt_hRcvSl (F := $F) $Ly $k $c fr)) $$ $Hland:ident
    retire_even $Ly $k
    take_fut $s1 $k
    iapply (wp_load 𝒱₀ ($c : Thread nD τ) none Set.univ (m := xLoc) (loadSub xLoc (rX $Ly $k))) $$ $HxL:ident; iintro $HxL:ident
    iapply (wp_store_new $c (M := xLoc) (r := rX $Ly $k) $fxo (access_subset xLoc _)
      (shapeCast S1x1x64x256 (Vals.xpart (insOf $m) yp xp $Ly $c $k) shapeCasts_S64x256_S1x1x64x256)
      (congrArg (fun p => shapeCast S1x1x64x256 p shapeCasts_S64x256_S1x1x64x256) $hp))
    isplitl [$HxL:ident]; · iexact $HxL:ident
    iintro %$fxn:ident %$hfX:ident $HxL:ident
    have $hxn:ident := xLoc_facts_step (F := $F) $m $Ly $c $k $fxo (Vals.xpart (insOf $m) yp xp $Ly $c $k) rfl $hxo
    rw [← $hfX] at $hxn:ident
    clear $hfX
  ))

open Lean in
/-- An odd stage (layer `Ly`) on row chunk `k`: the half product cast to bf16 into the send slab. -/
macro "od_st " Ly:num k:num : tactic => do
  let Hsrc := mkIdent `Hsrc; let hfs := mkIdent `hfs; let hp := mkIdent `hp; let m := mkIdent `m; let c := mkIdent `c; let F := mkIdent `F
  let s := Syntax.mkNumLit (toString (2 * Ly.getNat + 1))
  `(tactic| (
    ihave $Hsrc:ident := (Entails.of_eq (returned_odd (F := $F) $s $k $c (by decide) $Ly rfl)) $$ $Hsrc:ident
    icases $Hsrc:ident with ⟨%fS, $Hsrc:ident⟩
    ihave $Hsrc:ident := (Entails.of_eq (slab_xSndSl (F := $F) $Ly $k $c fS)) $$ $Hsrc:ident
    unfold ptA
    iapply (wp_load_rect 𝒱₀ ($c : Thread nD τ) none Set.univ (m := xSnd) (r := rX $Ly $k) (f := fS) (Finset.Subset.refl _)) $$ $Hsrc:ident; iintro $Hsrc:ident
    iapply (wp_store_as $c (M := xSnd) (r := rX $Ly $k) (Mk := Finset.univ) (f := fS) (le_of_eq (View.setOn_univ _))
      (shapeCast S1x1x64x256 (truncf .bf16 (Vals.xpart (insOf $m) yp xp $Ly $c $k) bitsLt_bf16_f32) shapeCasts_S64x256_S1x1x64x256)
      (congrArg (fun p => shapeCast S1x1x64x256 (truncf .bf16 p bitsLt_bf16_f32) shapeCasts_S64x256_S1x1x64x256) $hp)) $$ $Hsrc:ident; iintro $Hsrc:ident
    have $hfs:ident := xSnd_sent (F := $F) $m $Ly $k $c fS (Vals.xpart (insOf $m) yp xp $Ly $c $k) rfl
    ihave $Hsrc:ident := (Entails.of_eq (pt_xSndSl (F := $F) $Ly $k $c _)) $$ $Hsrc:ident
  ))

open Lean in
/-- An odd stage on row chunk `k`: the transfer to the column mate. -/
macro "od_send " Ly:num k:num dv:num : tactic => do
  let dev := mkIdent (Name.mkSimple s!"dev{dv.getNat}_eq")
  let Hcs := mkIdent (Name.mkSimple s!"Hcs{k.getNat}")
  let Hsrc := mkIdent `Hsrc; let Hdst := mkIdent `Hdst; let HO := mkIdent `HO; let Hts := mkIdent `Hts; let Htr := mkIdent `Htr; let HR := mkIdent `HR; let hfs := mkIdent `hfs; let m := mkIdent `m; let c := mkIdent `c; let K := mkIdent `K; let F := mkIdent `F
  let s := Syntax.mkNumLit (toString (2 * Ly.getNat + 1))
  let j := Syntax.mkNumLit (toString (8 * Ly.getNat + 4 + k.getNat))
  let j1 := Syntax.mkNumLit (toString (8 * Ly.getNat + 4 + k.getNat + 1))
  `(tactic| (
    ihave $Hdst:ident := (Entails.of_eq (landedAny_odd (F := $F) $s $k (mate $s $c) (by decide) $Ly rfl)) $$ $Hdst:ident
    ihave $HO:ident := (Entails.of_eq (owes_peel (F := $F) $c $s $k $j rfl _)) $$ $HO:ident
    iapply (wp_send_odd $m $K $c _ ($dev $c) $s $k (by decide) $Ly rfl _ rfl _ rfl _ _ rfl rfl _ $hfs (Orem ($j + 1) $c) _) $$ [$Hsrc:ident $Hdst:ident $HO:ident $Hts:ident $Htr:ident]
    · isplitr; · iexact $HR:ident
      isplitl [$Hsrc:ident]; · iexact $Hsrc:ident
      isplitl [$Hdst:ident]; · iexact $Hdst:ident
      isplitl [$HO:ident]; · iexact $HO:ident
      isplitl [$Hts:ident]; · iexact $Hts:ident
      iexact $Htr:ident
    iintro ⟨$Hcs:ident, $HO:ident⟩
    ihave $HO:ident := (Entails.of_eq (owes_next (F := $F) $c ($j + 1) $j1 rfl _)) $$ $HO:ident
  ))

end Cert.KernelIdeal.Proto

end
-- ==== Proof.KernelIdeal.BodyTacEven.lean ====
import proofs.«901002_g7700000000001003_dist_mlpseq_tp2d_cs_cs_b256_d256_h512_v7x_xy2x2_f32_1_alg».proof.Proof.KernelIdeal.BodyTac
import proofs.«901002_g7700000000001003_dist_mlpseq_tp2d_cs_cs_b256_d256_h512_v7x_xy2x2_f32_1_alg».proof.Proof.KernelIdeal.DoneAcc
import Idealize.ShloMosaic.Lib.Tactic

/-!
# Steps of the body's proof: the even stages of the later layers

An even stage after the first, on one row chunk: the own half of the previous layer's second matmul read back from its
slab, the column mate's half from the landed slab, this layer's weights; their product's own half goes into its slab
of the local buffer. The transfer that brought the mate's half is finished by then.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Lean

variable {F : FTy → Type} [FloatOps F]

local notation "𝕄" => MT nD τ sig Unit (Elt F) ℕ UU ℕ

variable (m : (ℓ : Loc nD τ sig) → Buf (Elt F) ℓ) (ρ : Dev nD → PrngReg)

/-- The even stage `2 Ly` (`Ly` = 1, 2) on row chunk `k`, after both waits of the transfer `(2 Ly - 1, k)`: the three loads,
    that transfer finished, the resources of the transfer `(2 Ly, k)` taken out, the half product into the local buffer
    (`fo`/`ho` its contents and what is known of them before, `fn`/`hn` after; `hx` what the slabs of the previous layer's
    second halves read). -/
macro "ev_ld " Ly:num k:num fo:ident ho:ident fn:ident hn:ident hx:ident : tactic => do
  let Lm := Syntax.mkNumLit (toString (Ly.getNat - 1))
  let sp := Syntax.mkNumLit (toString (2 * Ly.getNat - 1))
  let s := Syntax.mkNumLit (toString (2 * Ly.getNat))
  let stage := mkIdent (Name.mkSimple s!"stage0_{2 * Ly.getNat + 1}")
  let stg := mkIdent (Name.mkSimple s!"cc0_stg{2 * Ly.getNat + 1}_0")
  let Hi := mkIdent (Name.mkSimple s!"Hi{2 * Ly.getNat + 1}")
  let HhL := mkIdent `HhL; let HxL := mkIdent `HxL; let Hland := mkIdent `Hland; let hp := mkIdent `hp; let hfL := mkIdent `hfL
  let m := mkIdent `m; let c := mkIdent `c; let F := mkIdent `F
  `(tactic| (
    ihave $Hland:ident := (Entails.of_eq (landed_odd (F := $F) $m $sp $k $c (by decide) $Lm rfl)) $$ $Hland:ident
    icases $Hland:ident with ⟨%fr, $Hland:ident, %hfr⟩
    ihave $Hland:ident := (Entails.of_eq (slab_xRcvSl (F := $F) $Lm $k $c fr)) $$ $Hland:ident
    unfold ptA
    iapply (wp_load 𝒱₀ ($c : Thread nD τ) none Set.univ (m := xLoc) (loadSub xLoc (rX $Lm $k))) $$ $HxL:ident; iintro $HxL:ident
    iapply (wp_load_as $c (M := xRcv) (View.set_slice xRcv.view (rX $Lm $k)).ge (xRcv.view.readAt (Elt $F) (rX $Lm $k).toLoadRect fr) rfl) $$ $Hland:ident; iintro $Hland:ident
    iapply (wp_load_as $c (M := $stage 0) (Finset.subset_univ _) (stgWin $m $Ly $c) (Memref.readAt_unit_zero (Elt $F) $stg hz2 _ _)) $$ $Hi:ident; iintro $Hi:ident
    have $hp:ident := even_hpart_landed (F := $F) $m $Lm $Ly rfl $c $k _ fr _ ($hx $k (by decide)) hfr rfl
    ihave $Hland:ident := (Entails.of_eq (pt_xRcvSl (F := $F) $Lm $k $c fr)) $$ $Hland:ident
    retire_odd $Lm $k
    take_fut $s $k
    iapply (wp_load 𝒱₀ ($c : Thread nD τ) none Set.univ (m := hLoc) (loadSub hLoc (rH $Ly $k))) $$ $HhL:ident; iintro $HhL:ident
    iapply (wp_store_new $c (M := hLoc) (r := rH $Ly $k) $fo (access_subset hLoc _)
      (shapeCast S1x1x64x512 (Vals.hpart (insOf $m) yp xp $Ly $c $k) shapeCasts_S64x512_S1x1x64x512)
      (congrArg (fun p => shapeCast S1x1x64x512 p shapeCasts_S64x512_S1x1x64x512) $hp))
    isplitl [$HhL:ident]; · iexact $HhL:ident
    iintro %$fn:ident %$hfL:ident $HhL:ident
    have $hn:ident := hLoc_facts_step (F := $F) $m $Ly $c $k $fo (Vals.hpart (insOf $m) yp xp $Ly $c $k) rfl $ho
    rw [← $hfL] at $hn:ident
    clear $hfL
  ))

end Cert.KernelIdeal.Proto

end
-- ==== Proof.KernelIdeal.BodyTacFinal.lean ====
import proofs.«901002_g7700000000001003_dist_mlpseq_tp2d_cs_cs_b256_d256_h512_v7x_xy2x2_f32_1_alg».proof.Proof.KernelIdeal.BodyTac
import proofs.«901002_g7700000000001003_dist_mlpseq_tp2d_cs_cs_b256_d256_h512_v7x_xy2x2_f32_1_alg».proof.Proof.KernelIdeal.DoneAcc

/-!
# The last stage of the body and its return

After the last transfers the device adds, per row chunk, its own half of the last layer's second matmul and the column
mate's landed half, and stores the sum to the chunk's rows of the result buffer; then it returns. Here: that step as a
tactic over the chunk, and the return: every transfer finished, nothing owed, the scratch buffers whole, the argument
arrays' staging buffers as they were, the result's staging buffer holding the result array.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The last stage and the return -/

/-- A load through a rectangle of a memref whose value is already known under another name. -/
theorem wp_load_rect_as {cs : CoreSpace} {s : Shape} {e : EltTy} {α : Type} {Q : α → sProp 𝕄} (c : Dev nD) {M : Memref sig .tc cs s e} {r : Rect s} {hl : M.view.LoadsAt r}
    {kont : (r.shape.Idx → Elt F e) → Prog (TpuEff nD τ sig (Elt F) Λ₀ .tc) α}
    {S : Finset (Idx ((M.access r).loc (c : Thread nD τ)))} {q : PosShare TreeShare} {f : Buf (Elt F) ((M.access r).loc (c : Thread nD τ))}
    (hS : (M.access r).set ⊆ S) (v : r.shape.Idx → Elt F e) (hv : M.view.readAt (Elt F) r.toLoadRect f = v) :
    ((M.access r).loc (c : Thread nD τ) ↦[S]{q} f)
      ⊢ iprop((((M.access r).loc (c : Thread nD τ) ↦[S]{q} f) -∗ wp frame (wpE (defs₀ (F := F)) 𝒱₀ (c : Thread nD τ) none) Set.univ (kont v) Q)
        -∗ wp frame (wpE (defs₀ (F := F)) 𝒱₀ (c : Thread nD τ) none) Set.univ (.op (.load M r hl) kont) Q) := by
  subst hv
  exact wp_load_rect 𝒱₀ (c : Thread nD τ) none Set.univ hS

/-- Every transfer issued, nothing is owed. -/
theorem owes_done (c : Dev nD) (W : Waits sig Unit) :
    (owes (c : Thread nD τ) (Orem 24 c) W : sProp 𝕄) = owes (c : Thread nD τ) 0 W := by rw [Orem_done]

/-- Owing nothing, whatever the waits recorded, is what the pipeline asks after the body. -/
theorem owesAt_of_owes (c : Dev nD) (W : Waits sig Unit) :
    (owes (c : Thread nD τ) 0 W : sProp 𝕄) ⊢ (dats m ρ 0 c).owesAt () t0_0.succ := by
  unfold Dat.owesAt Pipeline.owesWithin
  iintro H; iexists W
  isplitr; · ipureintro; exact fun _ _ => Or.inl trivial
  iexact H

omit [FloatOps F] in
/-- A whole staging buffer at contents known to be `X`. -/
theorem stg_of (c : Dev nD) (b : Ref sig .tc) (f X : b.ty.Contents (Elt F)) (h : f = X) :
    ((((c : Thread nD τ).loc b) ↦{fullShare} f) : sProp 𝕄) ⊢ stg c b X := by
  iintro H; iexists f
  isplitr; · ipureintro; exact h
  iexact H

/-- The four chunks stored through the result's staging buffer make up the result array. -/
theorem out_writes_stage (c : Dev nD) (g : Vec F S256x256 .f32) (w0 w1 w2 w3 : FVec F S64x256 .f32)
    (h0 : w0 = Vals.xin (insOf m) yp xp 3 c 0) (h1 : w1 = Vals.xin (insOf m) yp xp 3 c 1)
    (h2 : w2 = Vals.xin (insOf m) yp xp 3 c 2) (h3 : w3 = Vals.xin (insOf m) yp xp 3 c 3) :
    ((stage0_7 0).access (Vals.rRow 3)).write (Elt F)
      (((stage0_7 0).access (Vals.rRow 2)).write (Elt F)
        (((stage0_7 0).access (Vals.rRow 1)).write (Elt F)
          (((stage0_7 0).access (Vals.rRow 0)).write (Elt F) g w0 Finset.univ) w1 Finset.univ) w2 Finset.univ) w3 Finset.univ
      = outAt m c := by
  subst h0 h1 h2 h3; exact out_writes m c g

open Lean in
/-- The last stage on row chunk `k`, after both waits of transfer `(5, k)`: the own half and the landed half of the last
    layer's second matmul add up to the result's chunk, stored to its rows. -/
macro "fin_iter " k:num hx:ident : tactic => do
  let kn := k.getNat
  let ek := mkIdent (Name.mkSimple s!"e{kn}")
  let HxL := mkIdent `HxL; let Hland := mkIdent `Hland; let Hout := mkIdent `Hout; let m := mkIdent `m; let c := mkIdent `c; let F := mkIdent `F
  let lhs ← match kn with
    | 0 => `(k0_pay83 _ _)
    | 1 => `(k0_pay84 _ _)
    | 2 => `(k0_pay87 (k0_pay85 _) (k0_pay86 _))
    | _ => `(k0_pay1 (k0_pay88 _) _)
  `(tactic| (
    ihave $Hland:ident := (Entails.of_eq (landed_odd (F := $F) $m 5 $k $c (by decide) 2 rfl)) $$ $Hland:ident
    icases $Hland:ident with ⟨%fr, $Hland:ident, %hfr⟩
    ihave $Hland:ident := (Entails.of_eq (slab_xRcvSl (F := $F) 2 $k $c fr)) $$ $Hland:ident
    unfold ptA
    iapply (wp_load_as $c (M := xLoc) (loadSub xLoc (rX 2 $k)) (xLoc.view.readAt (Elt $F) (rX 2 $k).toLoadRect _) rfl) $$ $HxL:ident; iintro $HxL:ident
    iapply (wp_load_rect_as $c (M := xRcv) (r := rX 2 $k) (f := fr) (Finset.Subset.refl _) (xRcv.view.readAt (Elt $F) (rX 2 $k).toLoadRect fr) rfl) $$ $Hland:ident; iintro $Hland:ident
    have $ek:ident : $lhs = Vals.xin (insOf $m) yp xp 3 $c $k := final_xin_landed (F := $F) $m $c $k _ fr ($hx $k (by decide)) hfr
    ihave $Hland:ident := (Entails.of_eq (pt_xRcvSl (F := $F) 2 $k $c fr)) $$ $Hland:ident
    retire_odd 2 $k
    iapply (wp_load 𝒱₀ ($c : Thread nD τ) none Set.univ (m := stage0_7 0) (Finset.subset_univ _)) $$ $Hout:ident; iintro $Hout:ident
    iapply (wp_store 𝒱₀ ($c : Thread nD τ) none Set.univ (m := stage0_7 0) (r := Vals.rRow $k) (Mk := Finset.univ) (Finset.subset_univ _)) $$ $Hout:ident; iintro $Hout:ident
  ))

open Lean in
/-- The return: every transfer finished, nothing owed, the result buffer holding the result array (`g0` its contents
    before the first chunk was stored). -/
macro "finish " g0:ident : tactic => do
  let HhL := mkIdent `HhL; let HxL := mkIdent `HxL; let HD := mkIdent `HD; let HO := mkIdent `HO; let Hk := mkIdent `Hk; let Hout := mkIdent `Hout
  let Hi0 := mkIdent `Hi0; let Hi1 := mkIdent `Hi1; let Hi2 := mkIdent `Hi2; let Hi3 := mkIdent `Hi3; let Hi4 := mkIdent `Hi4; let Hi5 := mkIdent `Hi5; let Hi6 := mkIdent `Hi6
  let e0 := mkIdent `e0; let e1 := mkIdent `e1; let e2 := mkIdent `e2; let e3 := mkIdent `e3
  let m := mkIdent `m; let ρ := mkIdent `ρ; let c := mkIdent `c; let F := mkIdent `F; let bodyPost := mkIdent `bodyPost
  `(tactic| (
    rw [wp_ret]; imodintro
    iapply $Hk:ident
    unfold $bodyPost:ident
    ihave $HD:ident := (done_all (F := $F) $c) $$ $HD:ident
    ihave $HO:ident := (Entails.of_eq (owes_done (F := $F) $c _)) $$ $HO:ident
    isplitl [$HhL:ident $HxL:ident $HD:ident]
    · iapply (done_to_post (F := $F) $c _ _)
      isplitl [$HhL:ident]; · iapply (Entails.of_eq (slab_def (F := $F) hLoc $c _).symm); iexact $HhL:ident
      isplitl [$HxL:ident]; · iapply (Entails.of_eq (slab_def (F := $F) xLoc $c _).symm); iexact $HxL:ident
      iexact $HD:ident
    isplitl [$HO:ident]; · iapply (owesAt_of_owes (F := $F) $m $ρ $c _); iexact $HO:ident
    isplitl [$Hi0:ident]; · iapply (stg_of (F := $F) $c cc0_stg0_0 _ _ rfl); iexact $Hi0:ident
    isplitl [$Hi1:ident]; · iapply (stg_of (F := $F) $c cc0_stg1_0 _ _ rfl); iexact $Hi1:ident
    isplitl [$Hi2:ident]; · iapply (stg_of (F := $F) $c cc0_stg2_0 _ _ rfl); iexact $Hi2:ident
    isplitl [$Hi3:ident]; · iapply (stg_of (F := $F) $c cc0_stg3_0 _ _ rfl); iexact $Hi3:ident
    isplitl [$Hi4:ident]; · iapply (stg_of (F := $F) $c cc0_stg4_0 _ _ rfl); iexact $Hi4:ident
    isplitl [$Hi5:ident]; · iapply (stg_of (F := $F) $c cc0_stg5_0 _ _ rfl); iexact $Hi5:ident
    isplitl [$Hi6:ident]; · iapply (stg_of (F := $F) $c cc0_stg6_0 _ _ rfl); iexact $Hi6:ident
    iapply (stg_of (F := $F) $c cc0_stg7_0 _ _ (out_writes_stage (F := $F) $m $c $g0 _ _ _ _ $e0 $e1 $e2 $e3)); iexact $Hout:ident
  ))

end Cert.KernelIdeal.Proto

end
-- ==== Proof.KernelIdeal.BodyCtx.lean ====
import proofs.«901002_g7700000000001003_dist_mlpseq_tp2d_cs_cs_b256_d256_h512_v7x_xy2x2_f32_1_alg».proof.Proof.KernelIdeal.BodyTac
import proofs.«901002_g7700000000001003_dist_mlpseq_tp2d_cs_cs_b256_d256_h512_v7x_xy2x2_f32_1_alg».proof.Proof.KernelIdeal.BodyTacOdd
import proofs.«901002_g7700000000001003_dist_mlpseq_tp2d_cs_cs_b256_d256_h512_v7x_xy2x2_f32_1_alg».proof.Proof.KernelIdeal.BodyTacEven
import proofs.«901002_g7700000000001003_dist_mlpseq_tp2d_cs_cs_b256_d256_h512_v7x_xy2x2_f32_1_alg».proof.Proof.KernelIdeal.BodyTacFinal

/-!
# The body of one device: statement, and its state between two layers

`bodyPre` / `bodyPost`: what the launch hands the body and what it must hand back. The body is proved in four stretches
(the entry handshake and the first layer; the second layer; the third; the last sums into the result), cut where a stage
begins at the start of a printed part. `StageCtx` is the state at such a cut: the previous stage's four transfers in
flight, the transfers before them finished, the later ones not yet issued.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
omit [FloatOps F] in
theorem bigSep_W (Φ : Fin cfg0.W → sProp 𝕄) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What device `c`'s body starts from. -/
def bodyPre (c : Dev nD) : sProp 𝕄 :=
  iprop(Φ₀ m c ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

/-- What it ends with: the scratch buffers back, its semaphores closed, nothing owed, the inputs' staging buffers as they
    were and the result's holding the three layers' output. -/
def bodyPost (c : Dev nD) : sProp 𝕄 :=
  iprop(Φ₁ c ∗ (dats m ρ 0 c).owesAt () t0_0.succ
    ∗ stg c cc0_stg0_0 (stgX m c) ∗ stg c cc0_stg1_0 (stgWin m 0 c) ∗ stg c cc0_stg2_0 (stgWout m 0 c)
    ∗ stg c cc0_stg3_0 (stgWin m 1 c) ∗ stg c cc0_stg4_0 (stgWout m 1 c)
    ∗ stg c cc0_stg5_0 (stgWin m 2 c) ∗ stg c cc0_stg6_0 (stgWout m 2 c)
    ∗ stg c cc0_stg7_0 (outAt m c))

/-- The body from its printed part 13 on. -/
noncomputable def tail13 (d0 : Dev nD) (v2 v5 v6 v7 : BitVec 32) : Prog (TpuEff nD τ sig (Elt F) Λ₀ .tc) PUnit := do
  let v321 : FVec F S64x512 .f32 ← k0_part13 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  k0_part14 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6 v321
  let v369 : FVec F S64x512 .bf16 ← k0_part15 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  k0_part16 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6 v369
  k0_part17 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let ⟨v436, v437⟩ : Σ' (v436 : BitVec 32), BitVec 32 ← k0_part18 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v5 v6 v7
  let ⟨v461, c0_i32_609⟩ : Σ' (v461 : BitVec 32), BitVec 32 ← k0_part19 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v2 v436 v437
  k0_part20 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6 v461 c0_i32_609
  k0_part21 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  k0_part22 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6
  k0_part23 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let v582 : FVec F S64x512 .f32 ← k0_part24 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6
  k0_part25 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v5 v7 v582
  let ⟨v632, cst_840⟩ : Σ' (v632 : FVec F S64x512 .f32), F .f32 ← k0_part26 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v2 v6
  k0_part27 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v5 v7 v632 cst_840
  let v681 : FVec F S64x512 .f32 ← k0_part28 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  k0_part29 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6 v681
  let v729 : FVec F S64x512 .bf16 ← k0_part30 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  k0_part31 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6 v729
  k0_part32 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let ⟨v796, v797⟩ : Σ' (v796 : BitVec 32), BitVec 32 ← k0_part33 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v5 v6 v7
  let ⟨v821, c0_i32_1108⟩ : Σ' (v821 : BitVec 32), BitVec 32 ← k0_part34 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v2 v796 v797
  k0_part35 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6 v821 c0_i32_1108
  k0_part36 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  k0_part37 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6
  k0_part38 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let v942 : FVec F S64x512 .f32 ← k0_part39 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6
  k0_part40 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v5 v7 v942
  let ⟨v992, cst_1338⟩ : Σ' (v992 : FVec F S64x512 .f32), F .f32 ← k0_part41 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v2 v6
  k0_part42 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v5 v7 v992 cst_1338
  k0_part43 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let v1061 : FVec F S64x256 .f32 ← k0_part44 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let ⟨v1080, v1083⟩ : Σ' (v1080 : FVec F S64x256 .f32), FVec F S64x256 .f32 ← k0_part45 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7 v1061
  let v1103 : FVec F S64x256 .f32 ← k0_part46 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7 v1080 v1083
  let v1104 : Vec F S1x1x64x256 .bf16 ← Prog.lift (.load (Memref.whole cc0_scratch5) (Rect.unit (s := S3x4x64x256) ![2, 3, 0, 0] S1x1x64x256.size inb_S3x4x64x256_S1x1x64x256_2_3_0_0).toLoadRect (View.loadsAt_vmem h_S1x1x64x256))
  let v1108 : Vec F S64x256 .f32 ← Prog.lift (.load (win0_7.stage (cfg0.slots t0_0 7)) (Rect.unit (s := S256x256) ![192, 0] S64x256.size inb_S256x256_S64x256_192_0).toLoadRect (View.loadsAt_vmem h_S64x256))
  Prog.lift (.store (win0_7.stage (cfg0.slots t0_0 7)) (Rect.unit (s := S256x256) ![192, 0] S64x256.size inb_S256x256_S64x256_192_0) (k0_pay1 v1103 v1104) Finset.univ (View.stores_vmem_bits_univ h_S64x256 rfl) (.inl rfl))
  pure ⟨⟩

/-- The body from its printed part 28 on. -/
noncomputable def tail28 (d0 : Dev nD) (v2 v5 v6 v7 : BitVec 32) : Prog (TpuEff nD τ sig (Elt F) Λ₀ .tc) PUnit := do
  let v681 : FVec F S64x512 .f32 ← k0_part28 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  k0_part29 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6 v681
  let v729 : FVec F S64x512 .bf16 ← k0_part30 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  k0_part31 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6 v729
  k0_part32 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let ⟨v796, v797⟩ : Σ' (v796 : BitVec 32), BitVec 32 ← k0_part33 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v5 v6 v7
  let ⟨v821, c0_i32_1108⟩ : Σ' (v821 : BitVec 32), BitVec 32 ← k0_part34 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v2 v796 v797
  k0_part35 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6 v821 c0_i32_1108
  k0_part36 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  k0_part37 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6
  k0_part38 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let v942 : FVec F S64x512 .f32 ← k0_part39 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v2 v6
  k0_part40 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v5 v7 v942
  let ⟨v992, cst_1338⟩ : Σ' (v992 : FVec F S64x512 .f32), F .f32 ← k0_part41 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v2 v6
  k0_part42 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v5 v7 v992 cst_1338
  k0_part43 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let v1061 : FVec F S64x256 .f32 ← k0_part44 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let ⟨v1080, v1083⟩ : Σ' (v1080 : FVec F S64x256 .f32), FVec F S64x256 .f32 ← k0_part45 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7 v1061
  let v1103 : FVec F S64x256 .f32 ← k0_part46 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7 v1080 v1083
  let v1104 : Vec F S1x1x64x256 .bf16 ← Prog.lift (.load (Memref.whole cc0_scratch5) (Rect.unit (s := S3x4x64x256) ![2, 3, 0, 0] S1x1x64x256.size inb_S3x4x64x256_S1x1x64x256_2_3_0_0).toLoadRect (View.loadsAt_vmem h_S1x1x64x256))
  let v1108 : Vec F S64x256 .f32 ← Prog.lift (.load (win0_7.stage (cfg0.slots t0_0 7)) (Rect.unit (s := S256x256) ![192, 0] S64x256.size inb_S256x256_S64x256_192_0).toLoadRect (View.loadsAt_vmem h_S64x256))
  Prog.lift (.store (win0_7.stage (cfg0.slots t0_0 7)) (Rect.unit (s := S256x256) ![192, 0] S64x256.size inb_S256x256_S64x256_192_0) (k0_pay1 v1103 v1104) Finset.univ (View.stores_vmem_bits_univ h_S64x256 rfl) (.inl rfl))
  pure ⟨⟩

/-- The body from its printed part 43 on. -/
noncomputable def tail43 (d0 : Dev nD) (v2 v5 v6 v7 : BitVec 32) : Prog (TpuEff nD τ sig (Elt F) Λ₀ .tc) PUnit := do
  k0_part43 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let v1061 : FVec F S64x256 .f32 ← k0_part44 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7
  let ⟨v1080, v1083⟩ : Σ' (v1080 : FVec F S64x256 .f32), FVec F S64x256 .f32 ← k0_part45 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7 v1061
  let v1103 : FVec F S64x256 .f32 ← k0_part46 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v5 v7 v1080 v1083
  let v1104 : Vec F S1x1x64x256 .bf16 ← Prog.lift (.load (Memref.whole cc0_scratch5) (Rect.unit (s := S3x4x64x256) ![2, 3, 0, 0] S1x1x64x256.size inb_S3x4x64x256_S1x1x64x256_2_3_0_0).toLoadRect (View.loadsAt_vmem h_S1x1x64x256))
  let v1108 : Vec F S64x256 .f32 ← Prog.lift (.load (win0_7.stage (cfg0.slots t0_0 7)) (Rect.unit (s := S256x256) ![192, 0] S64x256.size inb_S256x256_S64x256_192_0).toLoadRect (View.loadsAt_vmem h_S64x256))
  Prog.lift (.store (win0_7.stage (cfg0.slots t0_0 7)) (Rect.unit (s := S256x256) ![192, 0] S64x256.size inb_S256x256_S64x256_192_0) (k0_pay1 v1103 v1104) Finset.univ (View.stores_vmem_bits_univ h_S64x256 rfl) (.inl rfl))
  pure ⟨⟩

/-- The transfers not yet issued when stage 2, 4, and the last sums begin. -/
abbrev S8 : Finset T := (((((((((Finset.univ : Finset T).erase ((0 : Fin 6), (0 : Fin 4))).erase ((0 : Fin 6), (1 : Fin 4))).erase ((0 : Fin 6), (2 : Fin 4))).erase ((0 : Fin 6), (3 : Fin 4))).erase ((1 : Fin 6), (0 : Fin 4))).erase ((1 : Fin 6), (1 : Fin 4))).erase ((1 : Fin 6), (2 : Fin 4))).erase ((1 : Fin 6), (3 : Fin 4)))
abbrev S16 : Finset T := (((((((((((((((((Finset.univ : Finset T).erase ((0 : Fin 6), (0 : Fin 4))).erase ((0 : Fin 6), (1 : Fin 4))).erase ((0 : Fin 6), (2 : Fin 4))).erase ((0 : Fin 6), (3 : Fin 4))).erase ((1 : Fin 6), (0 : Fin 4))).erase ((1 : Fin 6), (1 : Fin 4))).erase ((1 : Fin 6), (2 : Fin 4))).erase ((1 : Fin 6), (3 : Fin 4))).erase ((2 : Fin 6), (0 : Fin 4))).erase ((2 : Fin 6), (1 : Fin 4))).erase ((2 : Fin 6), (2 : Fin 4))).erase ((2 : Fin 6), (3 : Fin 4))).erase ((3 : Fin 6), (0 : Fin 4))).erase ((3 : Fin 6), (1 : Fin 4))).erase ((3 : Fin 6), (2 : Fin 4))).erase ((3 : Fin 6), (3 : Fin 4)))
abbrev S24 : Finset T := (((((((((((((((((((((((((Finset.univ : Finset T).erase ((0 : Fin 6), (0 : Fin 4))).erase ((0 : Fin 6), (1 : Fin 4))).erase ((0 : Fin 6), (2 : Fin 4))).erase ((0 : Fin 6), (3 : Fin 4))).erase ((1 : Fin 6), (0 : Fin 4))).erase ((1 : Fin 6), (1 : Fin 4))).erase ((1 : Fin 6), (2 : Fin 4))).erase ((1 : Fin 6), (3 : Fin 4))).erase ((2 : Fin 6), (0 : Fin 4))).erase ((2 : Fin 6), (1 : Fin 4))).erase ((2 : Fin 6), (2 : Fin 4))).erase ((2 : Fin 6), (3 : Fin 4))).erase ((3 : Fin 6), (0 : Fin 4))).erase ((3 : Fin 6), (1 : Fin 4))).erase ((3 : Fin 6), (2 : Fin 4))).erase ((3 : Fin 6), (3 : Fin 4))).erase ((4 : Fin 6), (0 : Fin 4))).erase ((4 : Fin 6), (1 : Fin 4))).erase ((4 : Fin 6), (2 : Fin 4))).erase ((4 : Fin 6), (3 : Fin 4))).erase ((5 : Fin 6), (0 : Fin 4))).erase ((5 : Fin 6), (1 : Fin 4))).erase ((5 : Fin 6), (2 : Fin 4))).erase ((5 : Fin 6), (3 : Fin 4)))

/-- Transfer `(s, k)` in flight: its two positions and its two credits. -/
def flight (c : Dev nD) (s : Fin 6) (k : Fin 4) : sProp 𝕄 :=
  iprop(atPos ER (sndCell c s k) 0 ∅ 0 ∗ atPos ER (rcvCell c s k) 0 ∅ 0
    ∗ cred (tallyAt (rcvCell c s k) () (amt s k)) ∗ cred (tallyAt (sndCell c s k) () (amt s k)))

/-- The state when a stage begins: stage `sp` in flight, the `n` transfers before it finished, `S` not yet issued, the
    credits of the transfers from position `j` on still owed; the local buffers at `fL`, `fX`, the result's at `g`. -/
def StageCtx (K : Dev nD × CI → ℕ) (c : Dev nD) (Kt : PUnit → sProp 𝕄) (sp : Fin 6) (n j : ℕ) (S : Finset T)
    (fL : Buf (Elt F) (hLoc.view.loc (c : Thread nD τ))) (fX : Buf (Elt F) (xLoc.view.loc (c : Thread nD τ)))
    (g : Buf (Elt F) ((c : Thread nD τ).loc cc0_stg7_0)) : sProp 𝕄 :=
  iprop(records m K ∗ levAts L lv
    ∗ (((c : Thread nD τ).loc cc0_stg0_0) ↦{fullShare} stgX m c)
    ∗ (((c : Thread nD τ).loc cc0_stg1_0) ↦{fullShare} stgWin m 0 c)
    ∗ (((c : Thread nD τ).loc cc0_stg2_0) ↦{fullShare} stgWout m 0 c)
    ∗ (((c : Thread nD τ).loc cc0_stg3_0) ↦{fullShare} stgWin m 1 c)
    ∗ (((c : Thread nD τ).loc cc0_stg4_0) ↦{fullShare} stgWout m 1 c)
    ∗ (((c : Thread nD τ).loc cc0_stg5_0) ↦{fullShare} stgWin m 2 c)
    ∗ (((c : Thread nD τ).loc cc0_stg6_0) ↦{fullShare} stgWout m 2 c)
    ∗ (((c : Thread nD τ).loc cc0_stg7_0) ↦{fullShare} g)
    ∗ (bodyPost m ρ c -∗ Kt ⟨⟩)
    ∗ (hLoc.view.loc (c : Thread nD τ) ↦[hLoc.view.set]{fullShare} fL)
    ∗ (xLoc.view.loc (c : Thread nD τ) ↦[xLoc.view.set]{fullShare} fX)
    ∗ bigSep (Finset.univ.filter (fun t : T => idx t < n)) (Done (F := F) c)
    ∗ bigSep S (Fut (F := F) c)
    ∗ (∃ W : Waits sig Unit, owes (c : Thread nD τ) (Orem j c) W)
    ∗ flight c sp 0 ∗ flight c sp 1 ∗ flight c sp 2 ∗ flight c sp 3)

end Cert.KernelIdeal.Proto

end
-- ==== Proof.KernelIdeal.BodyLast.lean ====
import proofs.«901002_g7700000000001003_dist_mlpseq_tp2d_cs_cs_b256_d256_h512_v7x_xy2x2_f32_1_alg».proof.Proof.KernelIdeal.BodyCtx

/-!
# The body, last stretch: the last layer's halves summed into the result, and the return
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 16000000 in
set_option maxRecDepth 65536 in
/-- From the start of the last sums to the return. -/
theorem body_last (c : Dev nD) (K : Dev nD × CI → ℕ) (Kt : PUnit → sProp 𝕄)
    (fL : Buf (Elt F) (hLoc.view.loc (c : Thread nD τ))) (fX : Buf (Elt F) (xLoc.view.loc (c : Thread nD τ)))
    (g : Buf (Elt F) ((c : Thread nD τ).loc cc0_stg7_0)) (v2 v5 v6 v7 : BitVec 32)
    (hx : ∀ k' : Fin 4, k'.val < 4 → shapeCast S64x256 (xLoc.view.readAt (Elt F) (rX 2 k').toLoadRect fX) shapeCasts_S1x1x64x256_S64x256 = Vals.xpart (insOf m) yp xp 2 c k') :
    StageCtx m ρ K c Kt 5 20 24 S24 fL fX g
      ⊢ wp frame (wpE (defs₀ (F := F)) 𝒱₀ c none) Set.univ (tail43 (F := F) c v2 v5 v6 v7) Kt := by
  unfold tail43 StageCtx flight
  iintro ⟨#HR, #Hlev, Hi0, Hi1, Hi2, Hi3, Hi4, Hi5, Hi6, Hout, Hk, HhL, HxL, HD, HF, ⟨%W, HO⟩, ⟨Hps0, Hpr0, Hcr0, Hcs0⟩, ⟨Hps1, Hpr1, Hcr1, Hcs1⟩, ⟨Hps2, Hpr2, Hcr2, Hcs2⟩, Hps3, Hpr3, Hcr3, Hcs3⟩
  -- the end: both halves of the last layer summed into the result
  open_part 43
  wait_snd 5 0 24
  wait_rcv 5 0 24
  fin_iter 0 hx
  open_part 44
  open_part 45
  wait_snd 5 1 24
  wait_rcv 5 1 24
  fin_iter 1 hx
  open_part 46
  wait_snd 5 2 24
  wait_rcv 5 2 24
  fin_iter 2 hx
  wait_snd 5 3 24
  wait_rcv 5 3 24
  fin_iter 3 hx
  finish g

end Cert.KernelIdeal.Proto

end
-- ==== Proof.KernelIdeal.BodyLayer2.lean ====
import proofs.«901002_g7700000000001003_dist_mlpseq_tp2d_cs_cs_b256_d256_h512_v7x_xy2x2_f32_1_alg».proof.Proof.KernelIdeal.BodyLast

/-!
# The body, third stretch: the third layer
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 16000000 in
set_option maxRecDepth 65536 in
/-- The third layer: stages 4 and 5. -/
theorem body_layer2 (c : Dev nD) (K : Dev nD × CI → ℕ) (Kt : PUnit → sProp 𝕄)
    (fL : Buf (Elt F) (hLoc.view.loc (c : Thread nD τ))) (fX : Buf (Elt F) (xLoc.view.loc (c : Thread nD τ)))
    (g : Buf (Elt F) ((c : Thread nD τ).loc cc0_stg7_0)) (v2 v5 v6 v7 : BitVec 32)
    (hx : ∀ k' : Fin 4, k'.val < 4 → shapeCast S64x256 (xLoc.view.readAt (Elt F) (rX 1 k').toLoadRect fX) shapeCasts_S1x1x64x256_S64x256 = Vals.xpart (insOf m) yp xp 1 c k') :
    StageCtx m ρ K c Kt 3 12 16 S16 fL fX g
      ⊢ wp frame (wpE (defs₀ (F := F)) 𝒱₀ c none) Set.univ (tail28 (F := F) c v2 v5 v6 v7) Kt := by
  unfold tail28 StageCtx flight
  iintro ⟨#HR, #Hlev, Hi0, Hi1, Hi2, Hi3, Hi4, Hi5, Hi6, Hout, Hk, HhL, HxL, HD, HF, ⟨%W, HO⟩, ⟨Hps0, Hpr0, Hcr0, Hcs0⟩, ⟨Hps1, Hpr1, Hcr1, Hcs1⟩, ⟨Hps2, Hpr2, Hcr2, Hcs2⟩, Hps3, Hpr3, Hcr3, Hcs3⟩
  -- stage 4: both halves summed, the halves of layer 2's first matmul, sent to the row mate
  have hk0 : ∀ k' : Fin 4, k'.val < (0 : Fin 4).val → shapeCast S64x512 (hLoc.view.readAt (Elt F) (rH 2 k').toLoadRect fL) shapeCasts_S1x1x64x512_S64x512 = Vals.hpart (insOf m) yp xp 2 c k' :=
    fun k' hk' => absurd hk' (Nat.not_lt_zero _)
  open_part 28
  open_part 29
  wait_snd 3 0 16
  wait_rcv 3 0 16
  ev_ld 2 0 fL hk0 fL9 hk1 hx
  ev_st 2 0
  ev_send 2 0 19
  open_part 30
  open_part 31
  wait_snd 3 1 17
  wait_rcv 3 1 17
  ev_ld 2 1 fL9 hk1 fL10 hk2 hx
  ev_st 2 1
  ev_send 2 1 20
  open_part 32
  open_part 33
  wait_snd 3 2 18
  wait_rcv 3 2 18
  ev_ld 2 2 fL10 hk2 fL11 hk3 hx
  ev_st 2 2
  ev_send 2 2 21
  open_part 34
  open_part 35
  wait_snd 3 3 19
  wait_rcv 3 3 19
  ev_ld 2 3 fL11 hk3 fL12 hk4 hx
  ev_st 2 3
  ev_send 2 3 22
  -- stage 5: both halves summed, max 0, the halves of layer 2's second matmul, sent to the column mate
  have hy0 : ∀ k' : Fin 4, k'.val < (0 : Fin 4).val → shapeCast S64x256 (xLoc.view.readAt (Elt F) (rX 2 k').toLoadRect fX) shapeCasts_S1x1x64x256_S64x256 = Vals.xpart (insOf m) yp xp 2 c k' :=
    fun k' hk' => absurd hk' (Nat.not_lt_zero _)
  open_part 36
  open_part 37
  wait_snd 4 0 20
  wait_rcv 4 0 20
  od_ld 2 0 fX hy0 fX9 hy1 hk4
  od_st 2 0
  od_send 2 0 23
  open_part 38
  open_part 39
  wait_snd 4 1 21
  wait_rcv 4 1 21
  od_ld 2 1 fX9 hy1 fX10 hy2 hk4
  od_st 2 1
  od_send 2 1 24
  open_part 40
  wait_snd 4 2 22
  wait_rcv 4 2 22
  od_ld 2 2 fX10 hy2 fX11 hy3 hk4
  od_st 2 2
  od_send 2 2 25
  open_part 41
  open_part 42
  wait_snd 4 3 23
  wait_rcv 4 3 23
  od_ld 2 3 fX11 hy3 fX12 hy4 hk4
  od_st 2 3
  od_send 2 3 26
  -- the next stretch
  iapply (body_last m ρ c K Kt fL12 fX12 g v2 v5 v6 v7 hy4)
  unfold StageCtx flight
  isplitr; · iexact HR
  isplitr; · iexact Hlev
  isplitl [Hi0]; · iexact Hi0
  isplitl [Hi1]; · iexact Hi1
  isplitl [Hi2]; · iexact Hi2
  isplitl [Hi3]; · iexact Hi3
  isplitl [Hi4]; · iexact Hi4
  isplitl [Hi5]; · iexact Hi5
  isplitl [Hi6]; · iexact Hi6
  isplitl [Hout]; · iexact Hout
  isplitl [Hk]; · iexact Hk
  isplitl [HhL]; · iexact HhL
  isplitl [HxL]; · iexact HxL
  isplitl [HD]; · iexact HD
  isplitl [HF]; · iexact HF
  isplitl [HO]; · iexists _; iexact HO
  isplitl [Hps0 Hpr0 Hcr0 Hcs0]
  · isplitl [Hps0]; · iexact Hps0
    isplitl [Hpr0]; · iexact Hpr0
    isplitl [Hcr0]; · iexact Hcr0
    iexact Hcs0
  isplitl [Hps1 Hpr1 Hcr1 Hcs1]
  · isplitl [Hps1]; · iexact Hps1
    isplitl [Hpr1]; · iexact Hpr1
    isplitl [Hcr1]; · iexact Hcr1
    iexact Hcs1
  isplitl [Hps2 Hpr2 Hcr2 Hcs2]
  · isplitl [Hps2]; · iexact Hps2
    isplitl [Hpr2]; · iexact Hpr2
    isplitl [Hcr2]; · iexact Hcr2
    iexact Hcs2
  isplitl [Hps3]; · iexact Hps3
  isplitl [Hpr3]; · iexact Hpr3
  isplitl [Hcr3]; · iexact Hcr3
  iexact Hcs3

end Cert.KernelIdeal.Proto

end
-- ==== Proof.KernelIdeal.BodyLayer1.lean ====
import proofs.«901002_g7700000000001003_dist_mlpseq_tp2d_cs_cs_b256_d256_h512_v7x_xy2x2_f32_1_alg».proof.Proof.KernelIdeal.BodyLayer2

/-!
# The body, second stretch: the second layer
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 16000000 in
set_option maxRecDepth 65536 in
/-- The second layer: stages 2 and 3. -/
theorem body_layer1 (c : Dev nD) (K : Dev nD × CI → ℕ) (Kt : PUnit → sProp 𝕄)
    (fL : Buf (Elt F) (hLoc.view.loc (c : Thread nD τ))) (fX : Buf (Elt F) (xLoc.view.loc (c : Thread nD τ)))
    (g : Buf (Elt F) ((c : Thread nD τ).loc cc0_stg7_0)) (v2 v5 v6 v7 : BitVec 32)
    (hx : ∀ k' : Fin 4, k'.val < 4 → shapeCast S64x256 (xLoc.view.readAt (Elt F) (rX 0 k').toLoadRect fX) shapeCasts_S1x1x64x256_S64x256 = Vals.xpart (insOf m) yp xp 0 c k') :
    StageCtx m ρ K c Kt 1 4 8 S8 fL fX g
      ⊢ wp frame (wpE (defs₀ (F := F)) 𝒱₀ c none) Set.univ (tail13 (F := F) c v2 v5 v6 v7) Kt := by
  unfold tail13 StageCtx flight
  iintro ⟨#HR, #Hlev, Hi0, Hi1, Hi2, Hi3, Hi4, Hi5, Hi6, Hout, Hk, HhL, HxL, HD, HF, ⟨%W, HO⟩, ⟨Hps0, Hpr0, Hcr0, Hcs0⟩, ⟨Hps1, Hpr1, Hcr1, Hcs1⟩, ⟨Hps2, Hpr2, Hcr2, Hcs2⟩, Hps3, Hpr3, Hcr3, Hcs3⟩
  -- stage 2: both halves summed, the halves of layer 1's first matmul, sent to the row mate
  have hg0 : ∀ k' : Fin 4, k'.val < (0 : Fin 4).val → shapeCast S64x512 (hLoc.view.readAt (Elt F) (rH 1 k').toLoadRect fL) shapeCasts_S1x1x64x512_S64x512 = Vals.hpart (insOf m) yp xp 1 c k' :=
    fun k' hk' => absurd hk' (Nat.not_lt_zero _)
  open_part 13
  open_part 14
  wait_snd 1 0 8
  wait_rcv 1 0 8
  ev_ld 1 0 fL hg0 fL5 hg1 hx
  ev_st 1 0
  ev_send 1 0 11
  open_part 15
  open_part 16
  wait_snd 1 1 9
  wait_rcv 1 1 9
  ev_ld 1 1 fL5 hg1 fL6 hg2 hx
  ev_st 1 1
  ev_send 1 1 12
  open_part 17
  open_part 18
  wait_snd 1 2 10
  wait_rcv 1 2 10
  ev_ld 1 2 fL6 hg2 fL7 hg3 hx
  ev_st 1 2
  ev_send 1 2 13
  open_part 19
  open_part 20
  wait_snd 1 3 11
  wait_rcv 1 3 11
  ev_ld 1 3 fL7 hg3 fL8 hg4 hx
  ev_st 1 3
  ev_send 1 3 14
  -- stage 3: both halves summed, max 0, the halves of layer 1's second matmul, sent to the column mate
  have hw0 : ∀ k' : Fin 4, k'.val < (0 : Fin 4).val → shapeCast S64x256 (xLoc.view.readAt (Elt F) (rX 1 k').toLoadRect fX) shapeCasts_S1x1x64x256_S64x256 = Vals.xpart (insOf m) yp xp 1 c k' :=
    fun k' hk' => absurd hk' (Nat.not_lt_zero _)
  open_part 21
  open_part 22
  wait_snd 2 0 12
  wait_rcv 2 0 12
  od_ld 1 0 fX hw0 fX5 hw1 hg4
  od_st 1 0
  od_send 1 0 15
  open_part 23
  open_part 24
  wait_snd 2 1 13
  wait_rcv 2 1 13
  od_ld 1 1 fX5 hw1 fX6 hw2 hg4
  od_st 1 1
  od_send 1 1 16
  open_part 25
  wait_snd 2 2 14
  wait_rcv 2 2 14
  od_ld 1 2 fX6 hw2 fX7 hw3 hg4
  od_st 1 2
  od_send 1 2 17
  open_part 26
  open_part 27
  wait_snd 2 3 15
  wait_rcv 2 3 15
  od_ld 1 3 fX7 hw3 fX8 hw4 hg4
  od_st 1 3
  od_send 1 3 18
  -- the next stretch
  iapply (body_layer2 m ρ c K Kt fL8 fX8 g v2 v5 v6 v7 hw4)
  unfold StageCtx flight
  isplitr; · iexact HR
  isplitr; · iexact Hlev
  isplitl [Hi0]; · iexact Hi0
  isplitl [Hi1]; · iexact Hi1
  isplitl [Hi2]; · iexact Hi2
  isplitl [Hi3]; · iexact Hi3
  isplitl [Hi4]; · iexact Hi4
  isplitl [Hi5]; · iexact Hi5
  isplitl [Hi6]; · iexact Hi6
  isplitl [Hout]; · iexact Hout
  isplitl [Hk]; · iexact Hk
  isplitl [HhL]; · iexact HhL
  isplitl [HxL]; · iexact HxL
  isplitl [HD]; · iexact HD
  isplitl [HF]; · iexact HF
  isplitl [HO]; · iexists _; iexact HO
  isplitl [Hps0 Hpr0 Hcr0 Hcs0]
  · isplitl [Hps0]; · iexact Hps0
    isplitl [Hpr0]; · iexact Hpr0
    isplitl [Hcr0]; · iexact Hcr0
    iexact Hcs0
  isplitl [Hps1 Hpr1 Hcr1 Hcs1]
  · isplitl [Hps1]; · iexact Hps1
    isplitl [Hpr1]; · iexact Hpr1
    isplitl [Hcr1]; · iexact Hcr1
    iexact Hcs1
  isplitl [Hps2 Hpr2 Hcr2 Hcs2]
  · isplitl [Hps2]; · iexact Hps2
    isplitl [Hpr2]; · iexact Hpr2
    isplitl [Hcr2]; · iexact Hcr2
    iexact Hcs2
  isplitl [Hps3]; · iexact Hps3
  isplitl [Hpr3]; · iexact Hpr3
  isplitl [Hcr3]; · iexact Hcr3
  iexact Hcs3

end Cert.KernelIdeal.Proto

end
-- ==== Proof.KernelIdeal.Body.lean ====
import proofs.«901002_g7700000000001003_dist_mlpseq_tp2d_cs_cs_b256_d256_h512_v7x_xy2x2_f32_1_alg».proof.Proof.KernelIdeal.BodyLayer1

/-!
# The body of one device

From the launch's resources to the scratch buffers back, the own semaphores closed and the result's staging buffer
holding the three layers' output: the entry handshake, then stage by stage and chunk by chunk the waits for the previous
stage's transfer of the chunk, the loads, the matmul's half into the local and the send buffer, the transfer to the mate.
This module: the handshake and the first layer; the later layers are the stretches it ends in.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 16000000 in
set_option maxRecDepth 65536 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ (bodyAt0 (F := F) t0_0) Kt := by
  unfold bodyAt0
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre Φ₀ start ghost positions payToks creds scratch
  iintro ⟨⟨⟨⟨⟨%K, #HR, ⟨HaB, HaT⟩, HtBY, HtBX, HtT⟩, ⟨HcB, HcT⟩, #Hlev⟩, HhL, HhS, HhR, HxL, HxS, HxR⟩,
    Ho, ⟨%d0, %g0, %hg0, Hi0⟩, ⟨%d1, %g1, %hg1, Hi1⟩, ⟨%d2, %g2, %hg2, Hi2⟩, ⟨%d3, %g3, %hg3, Hi3⟩, ⟨%d4, %g4, %hg4, Hi4⟩,
    ⟨%d5, %g5, %hg5, Hi5⟩, ⟨%d6, %g6, %hg6, Hi6⟩, ⟨%d7, %g7, %hg7, Hout⟩⟩, Hk⟩
  -- the staging buffers of the arguments hold the device's argument arrays
  have hx0 : g0 = stgX m c := by rw [hg0]; unfold Dat.before; rw [if_pos (fetch0_0 t0_0)]; rfl
  have hx1 : g1 = stgWin m 0 c := by rw [hg1]; unfold Dat.before; rw [if_pos (fetch0_1 t0_0)]; rfl
  have hx2 : g2 = stgWout m 0 c := by rw [hg2]; unfold Dat.before; rw [if_pos (fetch0_2 t0_0)]; rfl
  have hx3 : g3 = stgWin m 1 c := by rw [hg3]; unfold Dat.before; rw [if_pos (fetch0_3 t0_0)]; rfl
  have hx4 : g4 = stgWout m 1 c := by rw [hg4]; unfold Dat.before; rw [if_pos (fetch0_4 t0_0)]; rfl
  have hx5 : g5 = stgWin m 2 c := by rw [hg5]; unfold Dat.before; rw [if_pos (fetch0_5 t0_0)]; rfl
  have hx6 : g6 = stgWout m 2 c := by rw [hg6]; unfold Dat.before; rw [if_pos (fetch0_6 t0_0)]; rfl
  subst hx0 hx1 hx2 hx3 hx4 hx5 hx6
  clear hg0 hg1 hg2 hg3 hg4 hg5 hg6
  unfold Dat.owesAt Pipeline.owesWithin
  icases Ho with ⟨%W, %hW, HO⟩
  rw [show (dats m ρ 0 c).owed t0_0.castSucc = O₀ c from rfl]
  unfold O₀
  -- the two entry signals: each hands the mate the landing buffer the mate will write into
  iapply (wp_signal_row m K c _ (dev1_eq c) _ rfl _ rfl (O₁ c) W) $$ [HO HtBY HhR]
  · isplitr; · iexact HR
    isplitl [HO]; · iexact HO
    isplitl [HtBY]; · iexact HtBY
    iexact HhR
  iintro HO
  unfold O₁
  iapply (wp_signal_col m K c _ (dev2_eq c) _ rfl _ rfl (OX c) W) $$ [HO HtBX HxR]
  · isplitr; · iexact HR
    isplitl [HO]; · iexact HO
    isplitl [HtBX]; · iexact HtBX
    iexact HxR
  iintro HO
  -- the wait for both mates: their landing buffers come with it
  iapply (wp_wait_bar m K c _ rfl _ rfl W) $$ [HcB HO HaB]
  · isplitr; · iexact HR
    isplitl [HcB]; · iexact HcB
    isplitl [HO]; · iexact HO
    isplitl [HaB]; · iexact HaB
    iexact Hlev
  iintro ⟨HdH, HdX, HO⟩
  -- the per-transfer resources, bundled; nothing finished yet
  ihave HF := (pre_to_fut (F := F) c) $$ [HhS HxS HdH HdX HaT HtT HcT]
  · isplitl [HhS]; · iexact HhS
    isplitl [HxS]; · iexact HxS
    isplitl [HdH]; · iexact HdH
    isplitl [HdX]; · iexact HdX
    isplitl [HaT]; · iexact HaT
    isplitl [HtT]; · iexact HtT
    iexact HcT
  ihave HD := (done_start (F := F) c) $$ []
  · iempintro
  icases HhL with ⟨%fL0, HhL⟩
  icases HxL with ⟨%fX0, HxL⟩
  ihave HhL := (Entails.of_eq (slab_def (F := F) hLoc c fL0)) $$ HhL
  ihave HxL := (Entails.of_eq (slab_def (F := F) xLoc c fX0)) $$ HxL
  ihave HO := (Entails.of_eq (congrArg (fun O => (owes (c : Thread nD τ) O _ : sProp 𝕄)) (Orem_zero c).symm)) $$ HO
  -- stage 0: the halves of the first layer's first matmul, sent to the row mate
  have hh0 : ∀ k' : Fin 4, k'.val < (0 : Fin 4).val → shapeCast S64x512 (hLoc.view.readAt (Elt F) (rH 0 k').toLoadRect fL0) shapeCasts_S1x1x64x512_S64x512 = Vals.hpart (insOf m) yp xp 0 c k' :=
    fun k' hk' => absurd hk' (Nat.not_lt_zero _)
  open_part 2
  s0_ld 0 fL0 hh0 fL1 hh1
  ev_st 0 0
  ev_send 0 0 3
  open_part 3
  s0_ld 1 fL1 hh1 fL2 hh2
  ev_st 0 1
  ev_send 0 1 4
  open_part 4
  s0_ld 2 fL2 hh2 fL3 hh3
  ev_st 0 2
  ev_send 0 2 5
  open_part 5
  s0_ld 3 fL3 hh3 fL4 hh4
  ev_st 0 3
  ev_send 0 3 6
  -- stage 1: both halves summed, max 0, the halves of layer 0's second matmul, sent to the column mate
  have hv0 : ∀ k' : Fin 4, k'.val < (0 : Fin 4).val → shapeCast S64x256 (xLoc.view.readAt (Elt F) (rX 0 k').toLoadRect fX0) shapeCasts_S1x1x64x256_S64x256 = Vals.xpart (insOf m) yp xp 0 c k' :=
    fun k' hk' => absurd hk' (Nat.not_lt_zero _)
  open_part 6
  open_part 7
  wait_snd 0 0 4
  wait_rcv 0 0 4
  od_ld 0 0 fX0 hv0 fX1 hv1 hh4
  od_st 0 0
  od_send 0 0 7
  open_part 8
  open_part 9
  wait_snd 0 1 5
  wait_rcv 0 1 5
  od_ld 0 1 fX1 hv1 fX2 hv2 hh4
  od_st 0 1
  od_send 0 1 8
  open_part 10
  wait_snd 0 2 6
  wait_rcv 0 2 6
  od_ld 0 2 fX2 hv2 fX3 hv3 hh4
  od_st 0 2
  od_send 0 2 9
  open_part 11
  open_part 12
  wait_snd 0 3 7
  wait_rcv 0 3 7
  od_ld 0 3 fX3 hv3 fX4 hv4 hh4
  od_st 0 3
  od_send 0 3 10
  -- the next stretch
  iapply (body_layer1 m ρ c K Kt fL4 fX4 g7 _ _ _ _ hv4)
  unfold StageCtx flight
  isplitr; · iexact HR
  isplitr; · iexact Hlev
  isplitl [Hi0]; · iexact Hi0
  isplitl [Hi1]; · iexact Hi1
  isplitl [Hi2]; · iexact Hi2
  isplitl [Hi3]; · iexact Hi3
  isplitl [Hi4]; · iexact Hi4
  isplitl [Hi5]; · iexact Hi5
  isplitl [Hi6]; · iexact Hi6
  isplitl [Hout]; · iexact Hout
  isplitl [Hk]; · iexact Hk
  isplitl [HhL]; · iexact HhL
  isplitl [HxL]; · iexact HxL
  isplitl [HD]; · iexact HD
  isplitl [HF]; · iexact HF
  isplitl [HO]; · iexists _; iexact HO
  isplitl [Hps0 Hpr0 Hcr0 Hcs0]
  · isplitl [Hps0]; · iexact Hps0
    isplitl [Hpr0]; · iexact Hpr0
    isplitl [Hcr0]; · iexact Hcr0
    iexact Hcs0
  isplitl [Hps1 Hpr1 Hcr1 Hcs1]
  · isplitl [Hps1]; · iexact Hps1
    isplitl [Hpr1]; · iexact Hpr1
    isplitl [Hcr1]; · iexact Hcr1
    iexact Hcs1
  isplitl [Hps2 Hpr2 Hcr2 Hcs2]
  · isplitl [Hps2]; · iexact Hps2
    isplitl [Hpr2]; · iexact Hpr2
    isplitl [Hcr2]; · iexact Hcr2
    iexact Hcs2
  isplitl [Hps3]; · iexact Hps3
  isplitl [Hpr3]; · iexact Hpr3
  isplitl [Hcr3]; · iexact Hcr3
  iexact Hcs3

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ (bodyAt0 (F := F) t0_0) (fun _ => bodyPost m ρ c)
  iintro H
  iapply (sound_body m ρ c fun _ => bodyPost m ρ c)
  isplitl [H]; · iexact H
  iintro H; iexact H

end Cert.KernelIdeal.Proto

end
-- ==== Proof.lean ====
/-
  A three-layer MLP `x ← max(x · Win_L, 0) · Wout_L` (L = 0, 1, 2), tensor-parallel on a 2 × 2 mesh of four devices, against
  the same MLP on one device over the whole arrays.

  Device `c = 2 cx + cy` holds column block `cy` of `x`, block `(cy, cx)` of each `Win_L` and block `(cx, cy)` of each
  `Wout_L`. A layer is two stages over four row chunks of 64 rows. First stage: the device's half of the contraction of
  `x · Win_L` (its 256 of the 512 contracted columns), kept locally and sent, cast to bf16, to the row mate, which holds the
  other half; the sum of both halves, `max · 0`, is columns `512 cx …` of the hidden activations. Second stage: the device's
  half of the contraction of `h · Wout_L` (its 512 of the 1024), kept and sent to the column mate; the sum of both halves is
  columns `256 cy …` of the next layer's input, and after the last layer of the result. Over the extended reals the casts to
  bf16 are the identity and a finite sum may be split and reordered freely, so each device's result is its block of the
  reference's (Val/: one layer lemma, used three times).

  The frames: before anything each device signals both mates' barrier semaphore and waits for two on its own; that hands
  each device the mates' landing buffers. Every transfer `(stage, chunk)` has its own send and receive DMA semaphore and its
  own slabs of the send and landing buffers, and is waited on both semaphores before the next stage reads the chunk: under
  the rounds discipline every cell has one round; receive cells are levelled by the transfer's position, so a device waits
  on a receive cell only while what it still owes lies strictly above (KernelIdeal/: Sched, State, Tables, LaunchRun, the
  body's rules and Body; Kernel/: the same text at the word-level instance).
-/
import proofs.«901002_g7700000000001003_dist_mlpseq_tp2d_cs_cs_b256_d256_h512_v7x_xy2x2_f32_1_alg».proof.Defs
import proofs.«901002_g7700000000001003_dist_mlpseq_tp2d_cs_cs_b256_d256_h512_v7x_xy2x2_f32_1_alg».proof.Proof.Gen.Kernel
import proofs.«901002_g7700000000001003_dist_mlpseq_tp2d_cs_cs_b256_d256_h512_v7x_xy2x2_f32_1_alg».proof.Proof.Gen.KernelIdeal
import proofs.«901002_g7700000000001003_dist_mlpseq_tp2d_cs_cs_b256_d256_h512_v7x_xy2x2_f32_1_alg».proof.Proof.Gen.ReferenceIdeal
import proofs.«901002_g7700000000001003_dist_mlpseq_tp2d_cs_cs_b256_d256_h512_v7x_xy2x2_f32_1_alg».proof.Proof.Gen.Pre_finite_inputs_Kernel
import proofs.«901002_g7700000000001003_dist_mlpseq_tp2d_cs_cs_b256_d256_h512_v7x_xy2x2_f32_1_alg».proof.Proof.Gen.Pre_finite_inputs_ReferenceIdeal
import proofs.«901002_g7700000000001003_dist_mlpseq_tp2d_cs_cs_b256_d256_h512_v7x_xy2x2_f32_1_alg».proof.Proof.Claims
import proofs.«901002_g7700000000001003_dist_mlpseq_tp2d_cs_cs_b256_d256_h512_v7x_xy2x2_f32_1_alg».proof.Proof.ClaimsK
import proofs.«901002_g7700000000001003_dist_mlpseq_tp2d_cs_cs_b256_d256_h512_v7x_xy2x2_f32_1_alg».proof.Proof.KernelIdeal.Body
import proofs.«901002_g7700000000001003_dist_mlpseq_tp2d_cs_cs_b256_d256_h512_v7x_xy2x2_f32_1_alg».proof.Proof.Kernel.Body
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.ClaimsK.frame_K (fun m ρ c => Cert.Kernel.Proto.body_obligation m ρ c),
  Cert.Proof.Claims.frame_KI (fun m ρ c => Cert.KernelIdeal.Proto.body_obligation m ρ c),
  Cert.Proof.Claims.frame_RI,
  Cert.Proof.Claims.preserves,
  Cert.Proof.Claims.algebraic (fun m ρ c => Cert.KernelIdeal.Proto.body_obligation m ρ c)⟩

end Cert.Proof

end
